-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S10000x128 : Shape := ⟨2, ![10000, 128]⟩
abbrev S128x128 : Shape := ⟨2, ![128, 128]⟩
abbrev S128 : Shape := ⟨1, ![128]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg4 : FVec F S128x128 .f32) (main_arg5 : FVec F S128 .f32) (main_arg6 : FVec F S128x128 .f32) (main_arg7 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_v33

def fn {F : FTy → Type} [FloatOps F] (main_arg0 : FVec F S10000x10000 .f32) (main_arg1 : FVec F S10000x128 .f32) (main_arg2 : FVec F S128x128 .f32) (main_arg3 : FVec F S128x128 .f32) (main_arg4 : FVec F S128x128 .f32) (main_arg5 : FVec F S128 .f32) (main_arg6 : FVec F S128x128 .f32) (main_arg7 : FVec F S128 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_v13 main_v16
-- ==== Kernel.lean ====
abbrev S10000x10000 : Shape := ⟨2, ![10000, 10000]⟩
abbrev S10000x128 : Shape := ⟨2, ![10000, 128]⟩
abbrev S128x128 : Shape := ⟨2, ![128, 128]⟩
abbrev S128 : Shape := ⟨1, ![128]⟩
abbrev S1x128 : Shape := ⟨2, ![1, 128]⟩
abbrev S400x10000 : Shape := ⟨2, ![400, 10000]⟩
abbrev S400x128 : Shape := ⟨2, ![400, 128]⟩
abbrev S10000x384 : Shape := ⟨2, ![10000, 384]⟩
abbrev S400x384 : Shape := ⟨2, ![400, 384]⟩

abbrev nBuf : Space → Nat
  | .hbm => 15
  | .vmem => 24
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S1x128, .f32⟩
  | .hbm, ⟨9, _⟩ => ⟨S1x128, .f32⟩
  | .hbm, ⟨10, _⟩ => ⟨S128x128, .f32⟩
  | .hbm, ⟨11, _⟩ => ⟨S128x128, .f32⟩
  | .hbm, ⟨12, _⟩ => ⟨S10000x128, .f32⟩
  | .hbm, ⟨13, _⟩ => ⟨S10000x128, .f32⟩
  | .hbm, ⟨14, _⟩ => ⟨S10000x384, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S400x128, .f32⟩
  | .local _ .vmem, ⟨4, _⟩ => ⟨S400x128, .f32⟩
  | .local _ .vmem, ⟨5, _⟩ => ⟨S128x128, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S400x128, .f32⟩
  | .local _ .vmem, ⟨11, _⟩ => ⟨S400x128, .f32⟩
  | .local _ .vmem, ⟨12, _⟩ => ⟨S400x128, .f32⟩
  | .local _ .vmem, ⟨13, _⟩ => ⟨S400x128, .f32⟩
  | .local _ .vmem, ⟨14, _⟩ => ⟨S400x10000, .f32⟩
  | .local _ .vmem, ⟨15, _⟩ => ⟨S400x10000, .f32⟩
  | .local _ .vmem, ⟨16, _⟩ => ⟨S10000x128, .f32⟩
  | .local _ .vmem, ⟨17, _⟩ => ⟨S400x128, .f32⟩
  | .local _ .vmem, ⟨18, _⟩ => ⟨S400x128, .f32⟩
  | .local _ .vmem, ⟨19, _⟩ => ⟨S400x128, .f32⟩
  | .local _ .vmem, ⟨20, _⟩ => ⟨S400x128, .f32⟩
  | .local _ .vmem, ⟨21, _⟩ => ⟨S128x128, .f32⟩
  | .local _ .vmem, ⟨22, _⟩ => ⟨S400x384, .f32⟩
  | .local _ .vmem, ⟨23, _⟩ => ⟨S400x384, .f32⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg5_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem2_1 : DmaSem sig := 18
abbrev cc1_sem3_0 : DmaSem sig := 19
abbrev cc1_sem3_1 : DmaSem sig := 20
abbrev cc1_sem4_0 : DmaSem sig := 21
abbrev cc1_sem5_0 : DmaSem sig := 22
abbrev cc1_sem5_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S400x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S400x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S400x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S400x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S400x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S400x384 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  shapeCasts_S128_S1x128 : S128.ShapeCasts S1x128
  transposes_S128x128_S128x128_1_0 : S128x128.Transposes [1, 0] S128x128
  inb_S400x10000_S400x10000_0_0 : ∀ a, (![0, 0] : Fin 2 → Nat) a + S400x10000.size a ≤ S400x10000.size a
  h_S400x10000 : 0 < S400x10000.numel
  bitsLt_bf16_f32 : FTy.bits .bf16 < FTy.bits .f32
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  inb_S400x128_S400x128_0_0 : ∀ a, (![0, 0] : Fin 2 → Nat) a + S400x128.size a ≤ S400x128.size a
  h_S400x128 : 0 < S400x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  shapeCasts_S10000x128_S10000x128 : S10000x128.ShapeCasts S10000x128
  shapeCasts_S400x128_S400x128 : S400x128.ShapeCasts S400x128
  inb_S400x384_S400x128_0_0 : ∀ a, (![0, 0] : Fin 2 → Nat) a + S400x128.size a ≤ S400x384.size a
  inb_S400x384_S400x128_0_128 : ∀ a, (![0, 128] : Fin 2 → Nat) a + S400x128.size a ≤ S400x384.size a
  inb_S400x384_S400x128_0_256 : ∀ a, (![0, 256] : Fin 2 → Nat) a + S400x128.size a ≤ S400x384.size a
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x128.size a ≤ S10000x128.size a
  hwx0_2 : ∀ i : grid0.Coords, EltTy.bits .f32 = 32 ∨ (Rect.block (s := S10000x128) S400x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S400x128.size a ≤ S10000x128.size a
  hwx0_8 : ∀ i : grid0.Coords, EltTy.bits .f32 = 32 ∨ (Rect.block (s := S10000x128) S400x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S400x128.size a ≤ S10000x128.size a
  hwx0_9 : ∀ i : grid0.Coords, EltTy.bits .f32 = 32 ∨ (Rect.block (s := S10000x128) S400x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .f32 = 32 ∨ (Rect.block (s := S10000x128) S10000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x128.size a ≤ S10000x128.size a
  hwx1_2 : ∀ i : grid1.Coords, EltTy.bits .f32 = 32 ∨ (Rect.block (s := S10000x128) S400x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S400x128.size a ≤ S10000x128.size a
  hwx1_3 : ∀ i : grid1.Coords, EltTy.bits .f32 = 32 ∨ (Rect.block (s := S10000x128) S400x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S400x384.size a ≤ S10000x384.size a
  hwx1_5 : ∀ i : grid1.Coords, EltTy.bits .f32 = 32 ∨ (Rect.block (s := S10000x384) S400x384.size (cc1_transform_5 i) (hinb1_5 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.ofSpec (Memref.whole main_arg0) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S400x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v1) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4_0) S400x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v4_1) S400x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_arg0) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4_0) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4_0) S400x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4_1) S400x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg3) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v5) S400x384.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S10000x10000 : Shape := ⟨2, ![10000, 10000]⟩
abbrev S10000x128 : Shape := ⟨2, ![10000, 128]⟩
abbrev S128x128 : Shape := ⟨2, ![128, 128]⟩
abbrev S128 : Shape := ⟨1, ![128]⟩
abbrev S_ : Shape := ⟨0, ![]⟩
abbrev S1x128 : Shape := ⟨2, ![1, 128]⟩
abbrev S10000x384 : Shape := ⟨2, ![10000, 384]⟩

abbrev nBuf : Space → Nat
  | .hbm => 29
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S10000x128, .f32⟩
  | .hbm, ⟨9, _⟩ => ⟨S10000x128, .f32⟩
  | .hbm, ⟨10, _⟩ => ⟨S_, .f32⟩
  | .hbm, ⟨11, _⟩ => ⟨S10000x128, .f32⟩
  | .hbm, ⟨12, _⟩ => ⟨S10000x128, .f32⟩
  | .hbm, ⟨13, _⟩ => ⟨S10000x128, .f32⟩
  | .hbm, ⟨14, _⟩ => ⟨S10000x128, .f32⟩
  | .hbm, ⟨15, _⟩ => ⟨S128x128, .f32⟩
  | .hbm, ⟨16, _⟩ => ⟨S10000x128, .f32⟩
  | .hbm, ⟨17, _⟩ => ⟨S1x128, .f32⟩
  | .hbm, ⟨18, _⟩ => ⟨S10000x128, .f32⟩
  | .hbm, ⟨19, _⟩ => ⟨S10000x128, .f32⟩
  | .hbm, ⟨20, _⟩ => ⟨S_, .f32⟩
  | .hbm, ⟨21, _⟩ => ⟨S10000x128, .f32⟩
  | .hbm, ⟨22, _⟩ => ⟨S10000x128, .f32⟩
  | .hbm, ⟨23, _⟩ => ⟨S128x128, .f32⟩
  | .hbm, ⟨24, _⟩ => ⟨S10000x128, .f32⟩
  | .hbm, ⟨25, _⟩ => ⟨S1x128, .f32⟩
  | .hbm, ⟨26, _⟩ => ⟨S10000x128, .f32⟩
  | .hbm, ⟨27, _⟩ => ⟨S10000x128, .f32⟩
  | .hbm, ⟨28, _⟩ => ⟨S10000x384, .f32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_call0_cst : Ref sig .tc := ⟨.hbm, 10, rfl⟩
abbrev main_call0_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_call1_cst : Ref sig .tc := ⟨.hbm, 20, rfl⟩
abbrev main_call1_v0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩

abbrev nD : Nat := 1
abbrev τ : Topo := Topo.v7x

variable {F : FTy → Type} [FloatOps F]

class Facts₀ : Prop where
  bcast_S_S10000x128 : S_.BroadcastsInDim S10000x128 (![] : Fin 0 → Fin S10000x128.rank)
  transposes_S128x128_S128x128_1_0 : S128x128.Transposes [1, 0] S128x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  concatenates_S10000x128_S10000x128_S10000x128_S10000x384_d1 : Shape.Concatenates [S10000x128, S10000x128, S10000x128] S10000x384 1
  dot_S10000x10000_S10000x128_S10000x128_1_0_0_1_n_n_wf : DotDims.WF S10000x10000 S10000x128 S10000x128 [1] [0] [0] [1] [] []
  dot_S10000x128_S128x128_S10000x128_1_0_0_1_n_n_wf : DotDims.WF S10000x128 S128x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

class Facts : Prop extends Facts₀ where

variable [Facts]
-- ==== Proof.K.Outs.lean ====
/-
  What each of the two kernels leaves in its output staging buffers, as a function of the blocks it loads.

  Pass 1 loads a 400-row stripe of the adjacency matrix, the whole feature matrix, the stripe's own 400 feature
  rows and the small weights, and stores two 400x128 blocks whole: the first graph convolution
  max((A_blk . X) . W, 0) and the self branch max(X_blk . W1t + b1, 0) . W2t + b2. Pass 2 loads the same stripe of
  the adjacency matrix, the whole first convolution, and the stripe's rows of both earlier results, and fills a
  400x384 block by three column stripes of width 128: the self branch, the first convolution, and the second
  convolution (A_blk . C1) . W2'. Each buffer is described as the canonical overlay of the body's stores, latest
  first, and the stores are shown to cover the buffer.
-/
import proofs.«119469_g5471788335182_cont_9to1c4b_211_2_alg».proof.Proof.Gen.Kernel.Skeleton
import Idealize.ShloMosaic.Lib.Pipeline.FrameBody
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

/-! ## The rectangles the bodies load and store through -/

/-- The whole 400x10000 stripe of the adjacency matrix. -/
abbrev rAdj : Rect S400x10000 := Rect.unit (s := S400x10000) ![0, 0] S400x10000.size inb_S400x10000_S400x10000_0_0
/-- A whole 10000x128 matrix (the features, or the first convolution). -/
abbrev rFull : Rect S10000x128 := Rect.unit (s := S10000x128) ![0, 0] S10000x128.size inb_S10000x128_S10000x128_0_0
/-- A whole 128x128 weight. -/
abbrev rWt : Rect S128x128 := Rect.unit (s := S128x128) ![0, 0] S128x128.size inb_S128x128_S128x128_0_0
/-- A whole 400x128 row block. -/
abbrev rRows : Rect S400x128 := Rect.unit (s := S400x128) ![0, 0] S400x128.size inb_S400x128_S400x128_0_0
/-- A whole 1x128 bias row. -/
abbrev rBias : Rect S1x128 := Rect.unit (s := S1x128) ![0, 0] S1x128.size inb_S1x128_S1x128_0_0
/-- The three column stripes of the 400x384 output block: columns 0..127, 128..255, 256..383. -/
abbrev rCol0 : Rect S400x384 := Rect.unit (s := S400x384) ![0, 0] S400x128.size inb_S400x384_S400x128_0_0
abbrev rCol1 : Rect S400x384 := Rect.unit (s := S400x384) ![0, 128] S400x128.size inb_S400x384_S400x128_0_128
abbrev rCol2 : Rect S400x384 := Rect.unit (s := S400x384) ![0, 256] S400x128.size inb_S400x384_S400x128_0_256

/-! ## Pass 1 -/

/-- The first convolution's block: max((A_blk . X) . W, 0), stored whole. -/
def out0_8 (x0 : Vec F S400x10000 .f32) (x1 : Vec F S10000x128 .f32) (x3 : Vec F S128x128 .f32) : Vec F S400x128 .f32 :=
  View.canon [⟨rRows, k0_pay1 (View.ld x0 rAdj) (View.ld x1 rFull) (View.ld x3 rWt)⟩]

/-- The self branch's block: max(X_blk . W1t + b1, 0) . W2t + b2, stored whole. -/
def out0_9 (x2 : Vec F S400x128 .f32) (x4 : Vec F S128x128 .f32) (x5 : Vec F S1x128 .f32) (x6 : Vec F S128x128 .f32)
    (x7 : Vec F S1x128 .f32) : Vec F S400x128 .f32 :=
  View.canon [⟨rRows, k0_pay2 (View.ld x2 rRows) (View.ld x4 rWt) (View.ld x5 rBias) (View.ld x6 rWt) (View.ld x7 rBias)⟩]

/-- One whole-block store covers the 400x128 buffer. -/
theorem cover_rows (p0 : Vec F S400x128 .f32) (y : S400x128.Idx) :
    ∃ pc ∈ ([⟨rRows, p0⟩] : List (View.Piece (Elt F) S400x128 .f32)), y ∈ pc.1.set :=
  View.cover_of_tiled [⟨rRows, p0⟩] S400x128.size (by rfl) y

/-! ## Pass 2 -/

/-- The output block: columns 0..127 the self branch's rows, 128..255 the first convolution's rows, 256..383 the
    second convolution (A_blk . C1) . W2'; the stores latest first. -/
def out1_5 (x0 : Vec F S400x10000 .f32) (x1 : Vec F S10000x128 .f32) (x2 : Vec F S400x128 .f32) (x3 : Vec F S400x128 .f32)
    (x4 : Vec F S128x128 .f32) : Vec F S400x384 .f32 :=
  View.canon [⟨rCol2, k1_pay1 (View.ld x0 rAdj) (View.ld x1 rFull) (View.ld x4 rWt)⟩,
    ⟨rCol1, k1_pay3 (View.ld x2 rRows)⟩,
    ⟨rCol0, k1_pay2 (View.ld x3 rRows)⟩]

/-- The three column stripes tile the 400x384 buffer. -/
theorem cover_cols (p2 p1 p0 : Vec F S400x128 .f32) (y : S400x384.Idx) :
    ∃ pc ∈ ([⟨rCol2, p2⟩, ⟨rCol1, p1⟩, ⟨rCol0, p0⟩] : List (View.Piece (Elt F) S400x384 .f32)), y ∈ pc.1.set :=
  View.cover_of_tiled [⟨rCol2, p2⟩, ⟨rCol1, p1⟩, ⟨rCol0, p0⟩] S400x128.size (by rfl) y

end Cert.Kernel.Hand

end
-- ==== Proof.K.Dat0Def.lean ====
/-
  The proof data of pass 1's pipeline, at a parameter V: the buffer contents the region is entered from.
  Every input window's staging buffer holds, after the body, the block of its array it held before (the body only
  loads from it); every output window's holds what the body stored there, as a function of the input blocks
  (the first convolution's block and the self branch's block). Two input windows read ONE array (the whole matrix as the contraction operand, and its 400-row
  stripe): each holds half of that array's share, the halves composing to the whole.
-/
import proofs.«119469_g5471788335182_cont_9to1c4b_211_2_alg».proof.Proof.K.Outs
import proofs.«119469_g5471788335182_cont_9to1c4b_211_2_alg».proof.Proof.Gen.Kernel.Launch
import proofs.«119469_g5471788335182_cont_9to1c4b_211_2_alg».proof.Proof.Gen.Kernel.Points
import Idealize.ShloMosaic.Lib.Pipeline.Frame
import Idealize.ShloMosaic.Lib.Pipeline.FrameBody

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- Window w's block at grid point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data: arrays as entered; inputs left in place, outputs at the body's stores; the invariant is the scoped
    rest and the generator register; nothing owed; the two windows on one array hold a half share each. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => out0_8 (iblk0 V c 0 t) (iblk0 V c 1 t) (iblk0 V c 3 t)
    | ⟨9, _⟩ => out0_9 (iblk0 V c 2 t) (iblk0 V c 4 t) (iblk0 V c 5 t) (iblk0 V c 6 t) (iblk0 V c 7 t)
  Φ _ := Pipeline.ΦA spec0 c
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
  owed _ := 0

/-- The arrays are the entry contents. -/
theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = out0_8 (iblk0 V c 0 t) (iblk0 V c 1 t) (iblk0 V c 3 t) := by dsimp only [dat0]
theorem after0_9 (c : Dev nD) (t : Fin cfg0.N) : (dat0 V c).after 9 t = out0_9 (iblk0 V c 2 t) (iblk0 V c 4 t) (iblk0 V c 5 t) (iblk0 V c 6 t) (iblk0 V c 7 t) := by dsimp only [dat0]

theorem q0_0 (c : Dev nD) : (dat0 V c).q 0 = fullShare := by dsimp only [dat0]
theorem q0_1 (c : Dev nD) : (dat0 V c).q 1 = fullShare.left := by dsimp only [dat0]
theorem q0_2 (c : Dev nD) : (dat0 V c).q 2 = fullShare.right := by dsimp only [dat0]
theorem q0_3 (c : Dev nD) : (dat0 V c).q 3 = fullShare := by dsimp only [dat0]
theorem q0_4 (c : Dev nD) : (dat0 V c).q 4 = fullShare := by dsimp only [dat0]
theorem q0_5 (c : Dev nD) : (dat0 V c).q 5 = fullShare := by dsimp only [dat0]
theorem q0_6 (c : Dev nD) : (dat0 V c).q 6 = fullShare := by dsimp only [dat0]
theorem q0_7 (c : Dev nD) : (dat0 V c).q 7 = fullShare := by dsimp only [dat0]
theorem q0_8 (c : Dev nD) : (dat0 V c).q 8 = fullShare := by dsimp only [dat0]
theorem q0_9 (c : Dev nD) : (dat0 V c).q 9 = fullShare := by dsimp only [dat0]

theorem owed0 (c : Dev nD) (t) : (dat0 V c).owed t = 0 := rfl
theorem Phi0 (c : Dev nD) (t) : (dat0 V c).Φ t = Pipeline.ΦA spec0 c := rfl

end Cert.Kernel.Hand

end
-- ==== Proof.K.Body0.lean ====
/-
  Pass 1's body as a triple: on whole staging buffers, the eight inputs at known contents and the two outputs at any,
  it runs to its continuation with the inputs as they were, the first output at the first convolution's block and the
  second at the self branch's block.
-/
import proofs.«119469_g5471788335182_cont_9to1c4b_211_2_alg».proof.Proof.K.Outs
import Idealize.ShloMosaic.Lib.Pipeline.Frame

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

set_option maxHeartbeats 1000000 in
theorem sound_kernel0 (c : Dev nD) (E : Set ℕ) (i : grid0.Coords) (arg1 : Memref sig .tc .vmem S400x10000 .f32) (harg1 : arg1.IsWhole) (arg2 : Memref sig .tc .vmem S10000x128 .f32) (harg2 : arg2.IsWhole) (arg3 : Memref sig .tc .vmem S400x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S400x128 .f32) (harg9 : arg9.IsWhole) (arg10 : Memref sig .tc .vmem S400x128 .f32) (harg10 : arg10.IsWhole)
    (x0 : Vec F S400x10000 .f32) (x1 : Vec F S10000x128 .f32) (x2 : Vec F S400x128 .f32) (x3 : Vec F S128x128 .f32)
    (x4 : Vec F S128x128 .f32) (x5 : Vec F S1x128 .f32) (x6 : Vec F S128x128 .f32) (x7 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7
        ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare (out0_8 x0 x1 x3) ∗ owns (c : Thread nD τ) arg10 fullShare (out0_9 x2 x4 x5 x6 x7)) -∗ K ⟨⟩))
      ⊢ wp frame (wpE (defs₀ (F := F)) Variants.none c none) E (cc0__pass1 i arg1 harg1 arg2 harg2 arg3 harg3 arg4 harg4 arg5 harg5 arg6 harg6 arg7 harg7 arg8 harg8 arg9 harg9 arg10 harg10) K := by
  simp only [cc0__pass1_eq_skeleton]; unfold cc0__pass1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%f7, %hf7, H7⟩, ⟨%d8, %f8, -, H8⟩, ⟨%d9, %f9, -, H9⟩, Hk⟩
  subst hf0; subst hf1; subst hf2; subst hf3; subst hf4; subst hf5; subst hf6; subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (cover_rows _)
  iexists _; isplitr
  swap; · iexact H9
  ipureintro
  exact View.read_writes_eq_canon _ _ _ (cover_rows _)

end Cert.Kernel.Hand

end
-- ==== Proof.K.Obl0.lean ====
/-
  Pass 1's body obligation at every grid point: each input window's current staging buffer holds its block of
  the array (fetched at this point, or carried unchanged from the point before when the block index has not moved),
  so the body's triple applies; the invariant and the core's dues pass through unread.
-/
import proofs.«119469_g5471788335182_cont_9to1c4b_211_2_alg».proof.Proof.K.Dat0Def
import proofs.«119469_g5471788335182_cont_9to1c4b_211_2_alg».proof.Proof.K.Body0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## What each input window's current staging buffer holds

  An input window's buffer holds its block of the array at every point: where the pipeline fetched it, by the
  fetch; where it did not, the block index has not moved since the point before and the body left the block in
  place. The windows are uncut and never idle, so what a fetch puts in the buffer is the block itself. -/

/-- Window 0 (the 400-row stripe of the matrix, the contraction's left operand): its block at every point. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

/-- Window 1 (the whole feature array as the contraction's right operand; its index never moves). -/
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-- Window 2 (the 400-row stripe of the feature array, for the self branch). -/
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-- Window 3 (a whole weight matrix; its index never moves). -/
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)

/-- Window 4 (a whole weight matrix; its index never moves). -/
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)

/-- Window 5 (a whole bias row; its index never moves). -/
theorem before0_5 (c : Dev nD) (t : Fin cfg0.N) (d) : (dat0 V c).before 5 t d = iblk0 V c 5 t :=
  ((dat0 V c).before_in_eq_fetched 5 rfl (fun _ => rfl) (fun _ _ _ => rfl)
    (fun t => by rw [after0_5]; unfold Dat.blockOf iblk0; rw [A_eq0]; try rfl) t d).trans
    (by unfold Dat.fetched Dat.blockOf iblk0; rw [A_eq0]; try rfl)

/-- Window 6 (a whole weight matrix; its index never moves). -/
theorem before0_6 (c : Dev nD) (t : Fin cfg0.N) (d) : (dat0 V c).before 6 t d = iblk0 V c 6 t :=
  ((dat0 V c).before_in_eq_fetched 6 rfl (fun _ => rfl) (fun _ _ _ => rfl)
    (fun t => by rw [after0_6]; unfold Dat.blockOf iblk0; rw [A_eq0]; try rfl) t d).trans
    (by unfold Dat.fetched Dat.blockOf iblk0; rw [A_eq0]; try rfl)

/-- Window 7 (a whole bias row; its index never moves). -/
theorem before0_7 (c : Dev nD) (t : Fin cfg0.N) (d) : (dat0 V c).before 7 t d = iblk0 V c 7 t :=
  ((dat0 V c).before_in_eq_fetched 7 rfl (fun _ => rfl) (fun _ _ _ => rfl)
    (fun t => by rw [after0_7]; unfold Dat.blockOf iblk0; rw [A_eq0]; try rfl) t d).trans
    (by unfold Dat.fetched Dat.blockOf iblk0; rw [A_eq0]; try rfl)

/-! ## The body obligation at a generic point, the windows one by one -/

/-- What the body is called with at point `t`: the invariant, the core's dues, and every window's current staging
    buffer — the outputs' at whatever they held (they are written back at every point). -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- What it returns: the same at the next point, every buffer at what the body leaves there. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

set_option maxHeartbeats 1000000 in
/-- The body at any point: the eight input buffers hold their blocks, so the body's triple applies at those blocks;
    the invariant and the core's dues are the same before and after (the invariant does not depend on the point and
    nothing is owed), and pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ (grid0.coords t)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (win0_4.stage (cfg0.slots t 4)) (hstage0_4 ((cfg0.slots t 4).cast nbuf0_4))
    (win0_5.stage (cfg0.slots t 5)) (hstage0_5 ((cfg0.slots t 5).cast nbuf0_5))
    (win0_6.stage (cfg0.slots t 6)) (hstage0_6 ((cfg0.slots t 6).cast nbuf0_6))
    (win0_7.stage (cfg0.slots t 7)) (hstage0_7 ((cfg0.slots t 7).cast nbuf0_7))
    (win0_8.stage (cfg0.slots t 8)) (hstage0_8 ((cfg0.slots t 8).cast nbuf0_8))
    (win0_9.stage (cfg0.slots t 9)) (hstage0_9 ((cfg0.slots t 9).cast nbuf0_9))
    (iblk0 V c 0 t) (iblk0 V c 1 t) (iblk0 V c 2 t) (iblk0 V c 3 t) (iblk0 V c 4 t) (iblk0 V c 5 t)
    (iblk0 V c 6 t) (iblk0 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point: its two products over the windows are the chains above. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Dat1Def.lean ====
/-
  The proof data of pass 2's pipeline, at a parameter V: the buffer contents the region is entered from.
  Every input window's staging buffer holds, after the body, the block of its array it held before (the body only
  loads from it); every output window's holds what the body stored there, as a function of the input blocks
  (the 400x384 output block). Two input windows read ONE array (the whole matrix as the contraction operand, and its 400-row
  stripe): each holds half of that array's share, the halves composing to the whole.
-/
import proofs.«119469_g5471788335182_cont_9to1c4b_211_2_alg».proof.Proof.K.Outs
import proofs.«119469_g5471788335182_cont_9to1c4b_211_2_alg».proof.Proof.Gen.Kernel.Launch
import proofs.«119469_g5471788335182_cont_9to1c4b_211_2_alg».proof.Proof.Gen.Kernel.Points
import Idealize.ShloMosaic.Lib.Pipeline.Frame
import Idealize.ShloMosaic.Lib.Pipeline.FrameBody

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- Window w's block at grid point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data: arrays as entered; inputs left in place, outputs at the body's stores; the invariant is the scoped
    rest and the generator register; nothing owed; the two windows on one array hold a half share each. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
  owed _ := 0

/-- The arrays are the entry contents. -/
theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

theorem q1_0 (c : Dev nD) : (dat1 V c).q 0 = fullShare := by dsimp only [dat1]
theorem q1_1 (c : Dev nD) : (dat1 V c).q 1 = fullShare.left := by dsimp only [dat1]
theorem q1_2 (c : Dev nD) : (dat1 V c).q 2 = fullShare.right := by dsimp only [dat1]
theorem q1_3 (c : Dev nD) : (dat1 V c).q 3 = fullShare := by dsimp only [dat1]
theorem q1_4 (c : Dev nD) : (dat1 V c).q 4 = fullShare := by dsimp only [dat1]
theorem q1_5 (c : Dev nD) : (dat1 V c).q 5 = fullShare := by dsimp only [dat1]

theorem owed1 (c : Dev nD) (t) : (dat1 V c).owed t = 0 := rfl
theorem Phi1 (c : Dev nD) (t) : (dat1 V c).Φ t = Pipeline.ΦA spec1 c := rfl

end Cert.Kernel.Hand

end
-- ==== Proof.K.Body1.lean ====
/-
  Pass 2's body as a triple: on whole staging buffers, the five inputs at known contents and the output at any, it runs
  to its continuation with the inputs as they were and the output block at its three column stripes.
-/
import proofs.«119469_g5471788335182_cont_9to1c4b_211_2_alg».proof.Proof.K.Outs
import Idealize.ShloMosaic.Lib.Pipeline.Frame

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

set_option maxHeartbeats 1000000 in
theorem sound_kernel1 (c : Dev nD) (E : Set ℕ) (i : grid1.Coords) (arg1 : Memref sig .tc .vmem S400x10000 .f32) (harg1 : arg1.IsWhole) (arg2 : Memref sig .tc .vmem S10000x128 .f32) (harg2 : arg2.IsWhole) (arg3 : Memref sig .tc .vmem S400x128 .f32) (harg3 : arg3.IsWhole) (arg4 : Memref sig .tc .vmem S400x128 .f32) (harg4 : arg4.IsWhole) (arg5 : Memref sig .tc .vmem S128x128 .f32) (harg5 : arg5.IsWhole) (arg6 : Memref sig .tc .vmem S400x384 .f32) (harg6 : arg6.IsWhole)
    (x0 : Vec F S400x10000 .f32) (x1 : Vec F S10000x128 .f32) (x2 : Vec F S400x128 .f32) (x3 : Vec F S400x128 .f32)
    (x4 : Vec F S128x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__pass2 i arg1 harg1 arg2 harg2 arg3 harg3 arg4 harg4 arg5 harg5 arg6 harg6) K := by
  simp only [cc1__pass2_eq_skeleton]; unfold cc1__pass2_skel
  unfold owns
  iintro ⟨⟨%f0, %hf0, H0⟩, ⟨%f1, %hf1, H1⟩, ⟨%f2, %hf2, H2⟩, ⟨%f3, %hf3, H3⟩, ⟨%f4, %hf4, H4⟩,
    ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover_cols _ _ _)

end Cert.Kernel.Hand

end
-- ==== Proof.K.Obl1.lean ====
/-
  Pass 2's body obligation at every grid point: each input window's current staging buffer holds its block of
  the array (fetched at this point, or carried unchanged from the point before when the block index has not moved),
  so the body's triple applies; the invariant and the core's dues pass through unread.
-/
import proofs.«119469_g5471788335182_cont_9to1c4b_211_2_alg».proof.Proof.K.Dat1Def
import proofs.«119469_g5471788335182_cont_9to1c4b_211_2_alg».proof.Proof.K.Body1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## What each input window's current staging buffer holds

  An input window's buffer holds its block of the array at every point: where the pipeline fetched it, by the
  fetch; where it did not, the block index has not moved since the point before and the body left the block in
  place. The windows are uncut and never idle, so what a fetch puts in the buffer is the block itself. -/

/-- Window 0 (the 400-row stripe of the matrix, the contraction's left operand): its block at every point. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

/-- Window 1 (the whole 10000-row array as the contraction's right operand; its index never moves). -/
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-- Window 2 (the 400-row stripe of that same array). -/
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-- Window 3 (the 400-row stripe of the self branch's array). -/
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-- Window 4 (a whole weight matrix; its index never moves). -/
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)

/-! ## The body obligation at a generic point, the windows one by one -/

/-- What the body is called with at point `t`: the invariant, the core's dues, and every window's current staging
    buffer — the output's at whatever it held (it is written back at every point). -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- What it returns: the same at the next point, every buffer at what the body leaves there. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 1000000 in
/-- The body at any point: the five input buffers hold their blocks, so the body's triple applies at those blocks;
    the invariant and the core's dues are the same before and after (the invariant does not depend on the point and
    nothing is owed), and pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t)
    (win1_0.stage (cfg1.slots t 0)) (hstage1_0 ((cfg1.slots t 0).cast nbuf1_0))
    (win1_1.stage (cfg1.slots t 1)) (hstage1_1 ((cfg1.slots t 1).cast nbuf1_1))
    (win1_2.stage (cfg1.slots t 2)) (hstage1_2 ((cfg1.slots t 2).cast nbuf1_2))
    (win1_3.stage (cfg1.slots t 3)) (hstage1_3 ((cfg1.slots t 3).cast nbuf1_3))
    (win1_4.stage (cfg1.slots t 4)) (hstage1_4 ((cfg1.slots t 4).cast nbuf1_4))
    (win1_5.stage (cfg1.slots t 5)) (hstage1_5 ((cfg1.slots t 5).cast nbuf1_5))
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point: its two products over the windows are the chains above. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Vals.lean ====
/-
  The contents of a core's unscoped buffers at each boundary of the program: as launched; after the four host
  operations that reshape the two biases to rows and transpose the two linear weights; after pass 1, which may change
  only its two result arrays (the first convolution and the self branch), each left at what the pipeline's write-backs
  make of it; after pass 2, which may change only the final result array.
-/
import proofs.«119469_g5471788335182_cont_9to1c4b_211_2_alg».proof.Proof.K.Dat0Def
import proofs.«119469_g5471788335182_cont_9to1c4b_211_2_alg».proof.Proof.K.Dat1Def
import Idealize.ShloMosaic.Lib.StableHlo.Run

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ)

/-- As launched. -/
abbrev W0 (c : Dev nD) : Valuation τ sig (Elt F) := fun b => m (c, b)
/-- After the host stretch. -/
def W1 (c : Dev nD) : Valuation τ sig (Elt F) := StableHlo.after hostOps0 (W0 m c)
/-- The same read at the core's own references: what pass 1 is entered from. -/
abbrev VW1 : (c : Dev nD) → (b : Ref sig .tc) → Buf (Elt F) ((c : Thread nD τ).loc b) := fun c b => W1 m c b
/-- After pass 1: its two result arrays at what the write-backs leave. -/
def W2 (c : Dev nD) : Valuation τ sig (Elt F) :=
  Function.update (Function.update (W1 m c) main_v4_0 ((dat0 (VW1 m) c).arrAt 8 cfg0.N)) main_v4_1 ((dat0 (VW1 m) c).arrAt 9 cfg0.N)
/-- The same read at the core's own references: what pass 2 is entered from. -/
abbrev VW2 : (c : Dev nD) → (b : Ref sig .tc) → Buf (Elt F) ((c : Thread nD τ).loc b) := fun c b => W2 m c b
/-- After pass 2: the final result array at what the write-backs leave. -/
def W3 (c : Dev nD) : Valuation τ sig (Elt F) :=
  Function.update (W2 m c) main_v5 ((dat1 (VW2 m) c).arrAt 5 cfg1.N)
abbrev VW3 : (c : Dev nD) → (b : Ref sig .tc) → Buf (Elt F) ((c : Thread nD τ).loc b) := fun c b => W3 m c b

theorem W2_v4_1 (c : Dev nD) : W2 m c main_v4_1 = (dat0 (VW1 m) c).arrAt 9 cfg0.N := by
  unfold W2; exact Function.update_self ..
theorem W2_v4_0 (c : Dev nD) : W2 m c main_v4_0 = (dat0 (VW1 m) c).arrAt 8 cfg0.N := by
  unfold W2
  rw [Function.update_of_ne (StableHlo.devRef_ne_of_ne (by decide : (main_v4_0 : Ref sig .tc) ≠ main_v4_1) : (Proc.devRef .tc main_v4_0 : DevRef τ sig) ≠ Proc.devRef .tc main_v4_1)]
  exact Function.update_self ..
theorem W2_of_ne (c : Dev nD) (r : Ref sig .tc) (h0 : r ≠ main_v4_0) (h1 : r ≠ main_v4_1) : W2 m c r = W1 m c r := by
  unfold W2
  rw [Function.update_of_ne (StableHlo.devRef_ne_of_ne h1 : (Proc.devRef .tc r : DevRef τ sig) ≠ Proc.devRef .tc main_v4_1),
    Function.update_of_ne (StableHlo.devRef_ne_of_ne h0 : (Proc.devRef .tc r : DevRef τ sig) ≠ Proc.devRef .tc main_v4_0)]
theorem W3_v5 (c : Dev nD) : W3 m c main_v5 = (dat1 (VW2 m) c).arrAt 5 cfg1.N := by
  unfold W3; exact Function.update_self ..
theorem W3_of_ne (c : Dev nD) (r : Ref sig .tc) (h : r ≠ main_v5) : W3 m c r = W2 m c r := by
  unfold W3
  rw [Function.update_of_ne (StableHlo.devRef_ne_of_ne h : (Proc.devRef .tc r : DevRef τ sig) ≠ Proc.devRef .tc main_v5)]

end Cert.Kernel.Hand

end
-- ==== Proof.K.Share.lean ====
/-
  How a core's unscoped buffers, each whole at the full share, make a pass's windowed arrays and the rest, and back.
  In each pass one matrix is read through two windows (whole, as the contraction operand; and by 400-row stripes): the
  feature matrix in pass 1, the first convolution in pass 2. Its buffer's full share is split into its two halves, one
  per window, and the halves are joined again when the region is left (both windows leave the matrix as they found it).
-/
import proofs.«119469_g5471788335182_cont_9to1c4b_211_2_alg».proof.Proof.K.Dat0Def
import proofs.«119469_g5471788335182_cont_9to1c4b_211_2_alg».proof.Proof.K.Dat1Def
import Idealize.ShloMosaic.Lib.Pipeline.Kit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- A core's unscoped buffers, one by one. -/
theorem unscopedBufs_chain (c : Dev nD) (G : (b : Ref sig .tc) → Buf (Elt F) ((c : Thread nD τ).loc b)) :
    (unscopedBufs (Ix := Unit) (Name := ℕ) (U := Pipeline.UD sig nD τ) (Lvl := ℕ) c G : sProp 𝕄)
      = iprop((((c : Thread nD τ).loc main_arg0) ↦{fullShare} G main_arg0)
          ∗ (((c : Thread nD τ).loc main_arg1) ↦{fullShare} G main_arg1)
          ∗ (((c : Thread nD τ).loc main_arg2) ↦{fullShare} G main_arg2)
          ∗ (((c : Thread nD τ).loc main_arg3) ↦{fullShare} G main_arg3)
          ∗ (((c : Thread nD τ).loc main_arg4) ↦{fullShare} G main_arg4)
          ∗ (((c : Thread nD τ).loc main_arg5) ↦{fullShare} G main_arg5)
          ∗ (((c : Thread nD τ).loc main_arg6) ↦{fullShare} G main_arg6)
          ∗ (((c : Thread nD τ).loc main_arg7) ↦{fullShare} G main_arg7)
          ∗ (((c : Thread nD τ).loc main_v0) ↦{fullShare} G main_v0)
          ∗ (((c : Thread nD τ).loc main_v1) ↦{fullShare} G main_v1)
          ∗ (((c : Thread nD τ).loc main_v2) ↦{fullShare} G main_v2)
          ∗ (((c : Thread nD τ).loc main_v3) ↦{fullShare} G main_v3)
          ∗ (((c : Thread nD τ).loc main_v4_0) ↦{fullShare} G main_v4_0)
          ∗ (((c : Thread nD τ).loc main_v4_1) ↦{fullShare} G main_v4_1)
          ∗ (((c : Thread nD τ).loc main_v5) ↦{fullShare} G main_v5)) := by
  unfold unscopedBufs
  exact bigSep_eq_bigSepL_of_eq [main_arg0, main_arg1, main_arg2, main_arg3, main_arg4, main_arg5, main_arg6, main_arg7, main_v0, main_v1, main_v2, main_v3, main_v4_0, main_v4_1, main_v5] (by decide) (by decide) _

/-! ## Pass 1 -/

/-- Pass 1's windowed arrays at contents read off G, one window at a time, each at the share its window holds. -/
theorem arrays_chain0 (c : Dev nD) (G : (b : Ref sig .tc) → Buf (Elt F) ((c : Thread nD τ).loc b)) :
    ((dat0 V c).arrays (fun w => G (Pipeline.arrRef spec0 w)) : sProp 𝕄)
      = iprop((((c : Thread nD τ).loc main_arg0) ↦{fullShare} G main_arg0)
          ∗ (((c : Thread nD τ).loc main_arg1) ↦{fullShare.left} G main_arg1)
          ∗ (((c : Thread nD τ).loc main_arg1) ↦{fullShare.right} G main_arg1)
          ∗ (((c : Thread nD τ).loc main_arg2) ↦{fullShare} G main_arg2)
          ∗ (((c : Thread nD τ).loc main_v2) ↦{fullShare} G main_v2)
          ∗ (((c : Thread nD τ).loc main_v0) ↦{fullShare} G main_v0)
          ∗ (((c : Thread nD τ).loc main_v3) ↦{fullShare} G main_v3)
          ∗ (((c : Thread nD τ).loc main_v1) ↦{fullShare} G main_v1)
          ∗ (((c : Thread nD τ).loc main_v4_0) ↦{fullShare} G main_v4_0)
          ∗ (((c : Thread nD τ).loc main_v4_1) ↦{fullShare} G main_v4_1)) := by
  have h : ((dat0 V c).arrays (fun w => G (Pipeline.arrRef spec0 w)) : sProp 𝕄)
      = bigSep Finset.univ fun w : Fin 10 => ((((c : Thread nD τ).loc (Pipeline.arrRef spec0 w)) ↦{(dat0 V c).share w} G (Pipeline.arrRef spec0 w)) : sProp 𝕄) := by
    unfold Pipeline.Dat.arrays
    exact bigSep_congr fun w _ => by rw [(arr_whole0 w).set_eq_univ]
  rw [h, bigSep_W0]
  rfl

/-- What of a core's unscoped buffers pass 1 does not window, one by one. -/
theorem rest_chain0 (c : Dev nD) (G : (b : Ref sig .tc) → Buf (Elt F) ((c : Thread nD τ).loc b)) :
    (Pipeline.unscopedRest (Ix := Unit) (Name := ℕ) (U := Pipeline.UD sig nD τ) (Lvl := ℕ) spec0 c G : sProp 𝕄)
      = iprop((((c : Thread nD τ).loc main_arg3) ↦{fullShare} G main_arg3) ∗ (((c : Thread nD τ).loc main_arg4) ↦{fullShare} G main_arg4) ∗ (((c : Thread nD τ).loc main_arg5) ↦{fullShare} G main_arg5) ∗ (((c : Thread nD τ).loc main_arg6) ↦{fullShare} G main_arg6) ∗ (((c : Thread nD τ).loc main_arg7) ↦{fullShare} G main_arg7) ∗ (((c : Thread nD τ).loc main_v5) ↦{fullShare} G main_v5)) :=
  unscopedRest0_eq c G

/-- ENTRY: the unscoped buffers at G are pass 1's arrays at G, the feature matrix's buffer split between its two windows, and
    the rest. -/
theorem enter0 (c : Dev nD) (G : (b : Ref sig .tc) → Buf (Elt F) ((c : Thread nD τ).loc b)) :
    (unscopedBufs (Ix := Unit) (Name := ℕ) (U := Pipeline.UD sig nD τ) (Lvl := ℕ) c G : sProp 𝕄)
      ⊢ iprop((dat0 V c).arrays (fun w => G (Pipeline.arrRef spec0 w)) ∗ Pipeline.unscopedRest spec0 c G) := by
  rw [unscopedBufs_chain, arrays_chain0, rest_chain0]
  iintro ⟨H_arg0, H_arg1, H_arg2, H_arg3, H_arg4, H_arg5, H_arg6, H_arg7, H_v0, H_v1, H_v2, H_v3, H_v4_0, H_v4_1, H_v5⟩
  ihave Hs := (pointsTo_share (PosShare.mem_left_op_right fullShare)).1 $$ H_arg1
  icases Hs with ⟨Hl, Hr⟩
  isplitl [H_arg0 Hl Hr H_arg2 H_v2 H_v0 H_v3 H_v1 H_v4_0 H_v4_1]
  · isplitl [H_arg0]; · iexact H_arg0
    isplitl [Hl]; · iexact Hl
    isplitl [Hr]; · iexact Hr
    isplitl [H_arg2]; · iexact H_arg2
    isplitl [H_v2]; · iexact H_v2
    isplitl [H_v0]; · iexact H_v0
    isplitl [H_v3]; · iexact H_v3
    isplitl [H_v1]; · iexact H_v1
    isplitl [H_v4_0]; · iexact H_v4_0
    iexact H_v4_1
  isplitl [H_arg3]; · iexact H_arg3
  isplitl [H_arg4]; · iexact H_arg4
  isplitl [H_arg5]; · iexact H_arg5
  isplitl [H_arg6]; · iexact H_arg6
  isplitl [H_arg7]; · iexact H_arg7
  iexact H_v5

/-- EXIT: pass 1's arrays at G, the two windows on the feature matrix both holding it at G, and the rest at G are the unscoped
    buffers at G. -/
theorem exit0 (c : Dev nD) (G : (b : Ref sig .tc) → Buf (Elt F) ((c : Thread nD τ).loc b)) :
    iprop((dat0 V c).arrays (fun w => G (Pipeline.arrRef spec0 w)) ∗ Pipeline.unscopedRest spec0 c G)
      ⊢ (unscopedBufs (Ix := Unit) (Name := ℕ) (U := Pipeline.UD sig nD τ) (Lvl := ℕ) c G : sProp 𝕄) := by
  rw [unscopedBufs_chain, arrays_chain0, rest_chain0]
  iintro ⟨⟨H_arg0, Hl, Hr, H_arg2, H_v2, H_v0, H_v3, H_v1, H_v4_0, H_v4_1⟩, H_arg3, H_arg4, H_arg5, H_arg6, H_arg7, H_v5⟩
  ihave H_arg1 := (pointsTo_share (PosShare.mem_left_op_right fullShare)).2 $$ [Hl Hr]
  · isplitl [Hl]; · iexact Hl
    iexact Hr
  isplitl [H_arg0]; · iexact H_arg0
  isplitl [H_arg1]; · iexact H_arg1
  isplitl [H_arg2]; · iexact H_arg2
  isplitl [H_arg3]; · iexact H_arg3
  isplitl [H_arg4]; · iexact H_arg4
  isplitl [H_arg5]; · iexact H_arg5
  isplitl [H_arg6]; · iexact H_arg6
  isplitl [H_arg7]; · iexact H_arg7
  isplitl [H_v0]; · iexact H_v0
  isplitl [H_v1]; · iexact H_v1
  isplitl [H_v2]; · iexact H_v2
  isplitl [H_v3]; · iexact H_v3
  isplitl [H_v4_0]; · iexact H_v4_0
  isplitl [H_v4_1]; · iexact H_v4_1
  iexact H_v5

/-! ## Pass 2 -/

/-- Pass 2's windowed arrays at contents read off G, one window at a time, each at the share its window holds. -/
theorem arrays_chain1 (c : Dev nD) (G : (b : Ref sig .tc) → Buf (Elt F) ((c : Thread nD τ).loc b)) :
    ((dat1 V c).arrays (fun w => G (Pipeline.arrRef spec1 w)) : sProp 𝕄)
      = iprop((((c : Thread nD τ).loc main_arg0) ↦{fullShare} G main_arg0)
          ∗ (((c : Thread nD τ).loc main_v4_0) ↦{fullShare.left} G main_v4_0)
          ∗ (((c : Thread nD τ).loc main_v4_0) ↦{fullShare.right} G main_v4_0)
          ∗ (((c : Thread nD τ).loc main_v4_1) ↦{fullShare} G main_v4_1)
          ∗ (((c : Thread nD τ).loc main_arg3) ↦{fullShare} G main_arg3)
          ∗ (((c : Thread nD τ).loc main_v5) ↦{fullShare} G main_v5)) := by
  have h : ((dat1 V c).arrays (fun w => G (Pipeline.arrRef spec1 w)) : sProp 𝕄)
      = bigSep Finset.univ fun w : Fin 6 => ((((c : Thread nD τ).loc (Pipeline.arrRef spec1 w)) ↦{(dat1 V c).share w} G (Pipeline.arrRef spec1 w)) : sProp 𝕄) := by
    unfold Pipeline.Dat.arrays
    exact bigSep_congr fun w _ => by rw [(arr_whole1 w).set_eq_univ]
  rw [h, bigSep_W1]
  rfl

/-- What of a core's unscoped buffers pass 2 does not window, one by one. -/
theorem rest_chain1 (c : Dev nD) (G : (b : Ref sig .tc) → Buf (Elt F) ((c : Thread nD τ).loc b)) :
    (Pipeline.unscopedRest (Ix := Unit) (Name := ℕ) (U := Pipeline.UD sig nD τ) (Lvl := ℕ) spec1 c G : sProp 𝕄)
      = iprop((((c : Thread nD τ).loc main_arg1) ↦{fullShare} G main_arg1) ∗ (((c : Thread nD τ).loc main_arg2) ↦{fullShare} G main_arg2) ∗ (((c : Thread nD τ).loc main_arg4) ↦{fullShare} G main_arg4) ∗ (((c : Thread nD τ).loc main_arg5) ↦{fullShare} G main_arg5) ∗ (((c : Thread nD τ).loc main_arg6) ↦{fullShare} G main_arg6) ∗ (((c : Thread nD τ).loc main_arg7) ↦{fullShare} G main_arg7) ∗ (((c : Thread nD τ).loc main_v0) ↦{fullShare} G main_v0) ∗ (((c : Thread nD τ).loc main_v1) ↦{fullShare} G main_v1) ∗ (((c : Thread nD τ).loc main_v2) ↦{fullShare} G main_v2) ∗ (((c : Thread nD τ).loc main_v3) ↦{fullShare} G main_v3)) :=
  unscopedRest1_eq c G

/-- ENTRY: the unscoped buffers at G are pass 2's arrays at G, the first convolution's buffer split between its two windows, and
    the rest. -/
theorem enter1 (c : Dev nD) (G : (b : Ref sig .tc) → Buf (Elt F) ((c : Thread nD τ).loc b)) :
    (unscopedBufs (Ix := Unit) (Name := ℕ) (U := Pipeline.UD sig nD τ) (Lvl := ℕ) c G : sProp 𝕄)
      ⊢ iprop((dat1 V c).arrays (fun w => G (Pipeline.arrRef spec1 w)) ∗ Pipeline.unscopedRest spec1 c G) := by
  rw [unscopedBufs_chain, arrays_chain1, rest_chain1]
  iintro ⟨H_arg0, H_arg1, H_arg2, H_arg3, H_arg4, H_arg5, H_arg6, H_arg7, H_v0, H_v1, H_v2, H_v3, H_v4_0, H_v4_1, H_v5⟩
  ihave Hs := (pointsTo_share (PosShare.mem_left_op_right fullShare)).1 $$ H_v4_0
  icases Hs with ⟨Hl, Hr⟩
  isplitl [H_arg0 Hl Hr H_v4_1 H_arg3 H_v5]
  · isplitl [H_arg0]; · iexact H_arg0
    isplitl [Hl]; · iexact Hl
    isplitl [Hr]; · iexact Hr
    isplitl [H_v4_1]; · iexact H_v4_1
    isplitl [H_arg3]; · iexact H_arg3
    iexact H_v5
  isplitl [H_arg1]; · iexact H_arg1
  isplitl [H_arg2]; · iexact H_arg2
  isplitl [H_arg4]; · iexact H_arg4
  isplitl [H_arg5]; · iexact H_arg5
  isplitl [H_arg6]; · iexact H_arg6
  isplitl [H_arg7]; · iexact H_arg7
  isplitl [H_v0]; · iexact H_v0
  isplitl [H_v1]; · iexact H_v1
  isplitl [H_v2]; · iexact H_v2
  iexact H_v3

/-- EXIT: pass 2's arrays at G, the two windows on the first convolution both holding it at G, and the rest at G are the unscoped
    buffers at G. -/
theorem exit1 (c : Dev nD) (G : (b : Ref sig .tc) → Buf (Elt F) ((c : Thread nD τ).loc b)) :
    iprop((dat1 V c).arrays (fun w => G (Pipeline.arrRef spec1 w)) ∗ Pipeline.unscopedRest spec1 c G)
      ⊢ (unscopedBufs (Ix := Unit) (Name := ℕ) (U := Pipeline.UD sig nD τ) (Lvl := ℕ) c G : sProp 𝕄) := by
  rw [unscopedBufs_chain, arrays_chain1, rest_chain1]
  iintro ⟨⟨H_arg0, Hl, Hr, H_v4_1, H_arg3, H_v5⟩, H_arg1, H_arg2, H_arg4, H_arg5, H_arg6, H_arg7, H_v0, H_v1, H_v2, H_v3⟩
  ihave H_v4_0 := (pointsTo_share (PosShare.mem_left_op_right fullShare)).2 $$ [Hl Hr]
  · isplitl [Hl]; · iexact Hl
    iexact Hr
  isplitl [H_arg0]; · iexact H_arg0
  isplitl [H_arg1]; · iexact H_arg1
  isplitl [H_arg2]; · iexact H_arg2
  isplitl [H_arg3]; · iexact H_arg3
  isplitl [H_arg4]; · iexact H_arg4
  isplitl [H_arg5]; · iexact H_arg5
  isplitl [H_arg6]; · iexact H_arg6
  isplitl [H_arg7]; · iexact H_arg7
  isplitl [H_v0]; · iexact H_v0
  isplitl [H_v1]; · iexact H_v1
  isplitl [H_v2]; · iexact H_v2
  isplitl [H_v3]; · iexact H_v3
  isplitl [H_v4_0]; · iexact H_v4_0
  isplitl [H_v4_1]; · iexact H_v4_1
  iexact H_v5

end Cert.Kernel.Hand

end
-- ==== Proof.K.Run.lean ====
/-
  The program's run from launch to return: the four host operations, then pass 1, then pass 2, each entered from the
  state "every unscoped buffer held whole at the boundary's contents, the generator register at some state, nothing
  owed" and left at the same state one boundary on. A pass takes its windowed arrays out of the unscoped buffers when
  it is entered (the matrix two of its windows read split between them) and puts them back, at what its write-backs
  left, when it is left. The run ends with every unscoped buffer at the last boundary's contents: the result array at
  what pass 2's write-backs left, every argument as launched (no host operation writes one, no pass may change one).
-/
import proofs.«119469_g5471788335182_cont_9to1c4b_211_2_alg».proof.Proof.K.Obl0
import proofs.«119469_g5471788335182_cont_9to1c4b_211_2_alg».proof.Proof.K.Obl1
import proofs.«119469_g5471788335182_cont_9to1c4b_211_2_alg».proof.Proof.K.Vals
import proofs.«119469_g5471788335182_cont_9to1c4b_211_2_alg».proof.Proof.K.Share
import proofs.«119469_g5471788335182_cont_9to1c4b_211_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What each boundary's contents hold off the arrays a pass may change -/

/-- The host stretch writes no argument. -/
theorem W1_arg (c : Dev nD) (r : Ref sig .tc) (h : r ∉ hostOps0_W) : W1 m c r = m ((c : Thread nD τ).loc r) :=
  (show Gen.V1 m c r = Gen.V0 m c r from V1_of m c r h).trans rfl

/-- Off pass 1's arrays the contents after it are the contents before it. -/
theorem hrest0 (c : Dev nD) : ∀ b, b ∉ Finset.univ.image (Pipeline.arrRef spec0) → VW2 m c b = VW1 m c b := fun b hb =>
  W2_of_ne m c b (fun e => hb (Finset.mem_image.mpr ⟨8, Finset.mem_univ _, e.symm⟩)) (fun e => hb (Finset.mem_image.mpr ⟨9, Finset.mem_univ _, e.symm⟩))
/-- Off pass 2's arrays the contents after it are the contents before it. -/
theorem hrest1 (c : Dev nD) : ∀ b, b ∉ Finset.univ.image (Pipeline.arrRef spec1) → VW3 m c b = VW2 m c b := fun b hb =>
  W3_of_ne m c b (fun e => hb (Finset.mem_image.mpr ⟨5, Finset.mem_univ _, e.symm⟩))

/-- What pass 1's write-backs leave in each of its arrays is the next boundary's contents there: an input's array is
    never written, the two results are the boundary's by definition. -/
theorem hF0 (c : Dev nD) : (fun w => (dat0 (VW1 m) c).arrAt w cfg0.N) = fun w => VW2 m c (Pipeline.arrRef spec0 w) :=
  funext fun w => match w with
    | ⟨0, _⟩ => ((dat0 (VW1 m) c).arrAt_in 0 rfl _).trans ((A_eq0 (VW1 m) c 0).trans (W2_of_ne m c main_arg0 (by decide) (by decide)).symm)
    | ⟨1, _⟩ => ((dat0 (VW1 m) c).arrAt_in 1 rfl _).trans ((A_eq0 (VW1 m) c 1).trans (W2_of_ne m c main_arg1 (by decide) (by decide)).symm)
    | ⟨2, _⟩ => ((dat0 (VW1 m) c).arrAt_in 2 rfl _).trans ((A_eq0 (VW1 m) c 2).trans (W2_of_ne m c main_arg1 (by decide) (by decide)).symm)
    | ⟨3, _⟩ => ((dat0 (VW1 m) c).arrAt_in 3 rfl _).trans ((A_eq0 (VW1 m) c 3).trans (W2_of_ne m c main_arg2 (by decide) (by decide)).symm)
    | ⟨4, _⟩ => ((dat0 (VW1 m) c).arrAt_in 4 rfl _).trans ((A_eq0 (VW1 m) c 4).trans (W2_of_ne m c main_v2 (by decide) (by decide)).symm)
    | ⟨5, _⟩ => ((dat0 (VW1 m) c).arrAt_in 5 rfl _).trans ((A_eq0 (VW1 m) c 5).trans (W2_of_ne m c main_v0 (by decide) (by decide)).symm)
    | ⟨6, _⟩ => ((dat0 (VW1 m) c).arrAt_in 6 rfl _).trans ((A_eq0 (VW1 m) c 6).trans (W2_of_ne m c main_v3 (by decide) (by decide)).symm)
    | ⟨7, _⟩ => ((dat0 (VW1 m) c).arrAt_in 7 rfl _).trans ((A_eq0 (VW1 m) c 7).trans (W2_of_ne m c main_v1 (by decide) (by decide)).symm)
    | ⟨8, _⟩ => (W2_v4_0 m c).symm
    | ⟨9, _⟩ => (W2_v4_1 m c).symm
/-- The same for pass 2. -/
theorem hF1 (c : Dev nD) : (fun w => (dat1 (VW2 m) c).arrAt w cfg1.N) = fun w => VW3 m c (Pipeline.arrRef spec1 w) :=
  funext fun w => match w with
    | ⟨0, _⟩ => ((dat1 (VW2 m) c).arrAt_in 0 rfl _).trans ((A_eq1 (VW2 m) c 0).trans (W3_of_ne m c main_arg0 (by decide)).symm)
    | ⟨1, _⟩ => ((dat1 (VW2 m) c).arrAt_in 1 rfl _).trans ((A_eq1 (VW2 m) c 1).trans (W3_of_ne m c main_v4_0 (by decide)).symm)
    | ⟨2, _⟩ => ((dat1 (VW2 m) c).arrAt_in 2 rfl _).trans ((A_eq1 (VW2 m) c 2).trans (W3_of_ne m c main_v4_0 (by decide)).symm)
    | ⟨3, _⟩ => ((dat1 (VW2 m) c).arrAt_in 3 rfl _).trans ((A_eq1 (VW2 m) c 3).trans (W3_of_ne m c main_v4_1 (by decide)).symm)
    | ⟨4, _⟩ => ((dat1 (VW2 m) c).arrAt_in 4 rfl _).trans ((A_eq1 (VW2 m) c 4).trans (W3_of_ne m c main_arg3 (by decide)).symm)
    | ⟨5, _⟩ => (W3_v5 m c).symm

/-- The unscoped rest reads the contents only off the pass's arrays. -/
theorem rest_congr0 (c : Dev nD) :
    (Pipeline.unscopedRest (Ix := Unit) (Name := ℕ) (U := Pipeline.UD sig nD τ) (Lvl := ℕ) spec0 c (VW1 m c) : sProp 𝕄)
      = Pipeline.unscopedRest spec0 c (VW2 m c) := by
  unfold Pipeline.unscopedRest
  exact bigSep_congr fun b hb => by rw [hrest0 m c b (Finset.mem_sdiff.mp hb).2]
theorem rest_congr1 (c : Dev nD) :
    (Pipeline.unscopedRest (Ix := Unit) (Name := ℕ) (U := Pipeline.UD sig nD τ) (Lvl := ℕ) spec1 c (VW2 m c) : sProp 𝕄)
      = Pipeline.unscopedRest spec1 c (VW3 m c) := by
  unfold Pipeline.unscopedRest
  exact bigSep_congr fun b hb => by rw [hrest1 m c b (Finset.mem_sdiff.mp hb).2]

/-! ## The proof data family and the thread state -/

/-- Every pipeline's proof data, each at its region's entry contents. -/
def pdats : (p : Fin 2) → (c : Dev nD) → Dat τ (Elt F) Unit ℕ (Pipeline.UD sig nD τ) ℕ (Pipeline.pin (pcfgs (F := F)) adm p) c
  | ⟨0, _⟩ => fun c => dat0 (VW1 m) c
  | ⟨1, _⟩ => fun c => dat1 (VW2 m) c
abbrev 𝒱₀ : Variants := Variants.none
/-- No core owes another anything: no level is assigned. -/
abbrev Lv : GSem nD τ sig → Finset Unit := fun _ => ∅
abbrev lv : GSem nD τ sig → Unit → ℕ := fun _ _ => 0
/-- What rides beside the buffers through every segment: the generator register at some state, and nothing owed. -/
abbrev Rd (c : Dev nD) : sProp 𝕄 := iprop((∃ r, prngReg c r) ∗ ∃ W, owes (c : Thread nD τ) (0 : CellTallies nD τ sig Unit) W)
/-- The host stretch as a segment over the unscoped references from the launch contents. -/
abbrev hseg0 : Pipeline.HostSeg (Name := ℕ) (U := Pipeline.UD sig nD τ) (pcfgs (F := F)) defs₀ 𝒱₀ Lv lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) Rd

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents. -/
abbrev Tn (c : Dev nD) : sProp 𝕄 := iprop(StableHlo.held (c : Thread nD τ) (Pipeline.ucRefs τ sig) (W3 m c) ∗ ∃ r, prngReg c r)

/-! ## The passes as segments -/

set_option backward.isDefEq.respectTransparency.types false in
/-- PASS 1: entered from every unscoped buffer at the contents after the host stretch, left at the contents with its
    two result arrays at what the write-backs left. -/
def reg0 : Pipeline.RegionSeg (pcfgs (F := F)) adm (pdats m) () defs₀ 𝒱₀ Lv lv 0 where
  win := winFacts₀0
  block_pos := block_pos0
  stage_whole := stage_whole0
  K := PEmpty
  osem k := k.elim
  ho := Pipeline.OwnSemFacts.none _
  hbody c := (body_obligation0 (VW1 m) c).loose
  hwaits := Pipeline.hwaits_of_owed_zero _ _ _ _ Lv lv 0 fun _ _ => rfl
  pre c := iprop(StableHlo.held (c : Thread nD τ) (Pipeline.ucRefs τ sig) (W1 m c) ∗ Rd c)
  post c := iprop(StableHlo.held (c : Thread nD τ) (Pipeline.ucRefs τ sig) (W2 m c) ∗ Rd c)
  X c := iprop(∃ r, prngReg c r)
  Y c := iprop(∃ r, prngReg c r)
  Z c := Pipeline.unscopedRest (Ix := Unit) (Name := ℕ) (U := Pipeline.UD sig nD τ) (Lvl := ℕ) spec0 c (VW1 m c)
  hentry c := by
    rw [Pipeline.ownSems0_none]
    have hsplit := enter0 (VW1 m) c (VW1 m c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit0 (VW1 m) c (VW2 m c)
    rw [Pipeline.unscopedBufs_held, ← hF0 m c, ← rest_congr0 m c] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- PASS 2: entered from the contents pass 1 left, left with the result array at what the write-backs left. -/
def reg1 : Pipeline.RegionSeg (pcfgs (F := F)) adm (pdats m) () defs₀ 𝒱₀ Lv lv 1 where
  win := winFacts₀1
  block_pos := block_pos1
  stage_whole := stage_whole1
  K := PEmpty
  osem k := k.elim
  ho := Pipeline.OwnSemFacts.none _
  hbody c := (body_obligation1 (VW2 m) c).loose
  hwaits := Pipeline.hwaits_of_owed_zero _ _ _ _ Lv lv 1 fun _ _ => rfl
  pre c := iprop(StableHlo.held (c : Thread nD τ) (Pipeline.ucRefs τ sig) (W2 m c) ∗ Rd c)
  post c := iprop(Tn m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec1 c (VW2 m c)
  hentry c := by
    rw [Pipeline.ownSems0_none]
    have hsplit := enter1 (VW2 m) c (VW2 m c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 (VW2 m) c (VW3 m c)
    rw [Pipeline.unscopedBufs_held, ← hF1 m c, ← rest_congr1 m c] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## The program as segments, and the launch -/

abbrev segsH : List (Pipeline.Seg (pcfgs (F := F)) adm (pdats m) () defs₀ 𝒱₀ Lv lv) :=
  [ .host (hseg0 m), .region (reg0 m), .region (reg1 m) ]

theorem main_run (c : Dev nD) : main (F := F) c = Pipeline.Seg.run (segsH m) := (main_chain c).trans (by chain_rfl)

set_option backward.isDefEq.respectTransparency.types false in
/-- THE RUN: from any memory with zero counters every weakly fair execution terminates, nothing faulting, with every
    unscoped buffer at the last boundary's contents. -/
theorem run_bufs : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj embL defs₀ 𝒱₀ Lv lv m ρ main (segsH m)
    (fun c Q => by rw [main_run m c])
    (by simp only [segsH, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rd c)) (Tₙ := Tn m)
    (hch := ⟨fun _ => .rfl, fun _ => .rfl, fun _ => .rfl, fun _ => .rfl⟩)
    (hinit := by
      refine Pipeline.initEach Lv lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- The arguments end as launched. -/
theorem W3_arg (c : Dev nD) (r : Ref sig .tc) (h5 : r ≠ main_v5) (h0 : r ≠ main_v4_0) (h1 : r ≠ main_v4_1) (hw : r ∉ hostOps0_W) :
    W3 m c r = m ((c : Thread nD τ).loc r) :=
  (W3_of_ne m c r h5).trans ((W2_of_ne m c r h0 h1).trans (W1_arg m c r hw))

/-- THE RUN, read at the result and the arguments. -/
theorem run_main : θ_run defs (onTc (τ := τ) (main (F := F))) ⟨m, fun _ => 0, ρ⟩ (fun r => ∀ c : Dev nD,
      r.2.mem ((c.tc : Thread nD τ).loc main_v5) = W3 m c main_v5
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨h c _ (mem_uc main_v5 (by decide)),
     (h c _ (mem_uc main_arg0 (by decide))).trans (W3_arg m c main_arg0 (by decide) (by decide) (by decide) (by decide)),
     (h c _ (mem_uc main_arg1 (by decide))).trans (W3_arg m c main_arg1 (by decide) (by decide) (by decide) (by decide)),
     (h c _ (mem_uc main_arg2 (by decide))).trans (W3_arg m c main_arg2 (by decide) (by decide) (by decide) (by decide)),
     (h c _ (mem_uc main_arg3 (by decide))).trans (W3_arg m c main_arg3 (by decide) (by decide) (by decide) (by decide)),
     (h c _ (mem_uc main_arg4 (by decide))).trans (W3_arg m c main_arg4 (by decide) (by decide) (by decide) (by decide)),
     (h c _ (mem_uc main_arg5 (by decide))).trans (W3_arg m c main_arg5 (by decide) (by decide) (by decide) (by decide)),
     (h c _ (mem_uc main_arg6 (by decide))).trans (W3_arg m c main_arg6 (by decide) (by decide) (by decide) (by decide)),
     (h c _ (mem_uc main_arg7 (by decide))).trans (W3_arg m c main_arg7 (by decide) (by decide) (by decide) (by decide))⟩)
    (run_bufs m ρ)

/-- THE FRAME: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => (h c).2) (run_main m ρ)

end Cert.Kernel.Hand

end
-- ==== Proof.KI.Outs.lean ====
/-
  What each of the two kernels leaves in its output staging buffers, as a function of the blocks it loads.

  Pass 1 loads a 400-row stripe of the adjacency matrix, the whole feature matrix, the stripe's own 400 feature
  rows and the small weights, and stores two 400x128 blocks whole: the first graph convolution
  max((A_blk . X) . W, 0) and the self branch max(X_blk . W1t + b1, 0) . W2t + b2. Pass 2 loads the same stripe of
  the adjacency matrix, the whole first convolution, and the stripe's rows of both earlier results, and fills a
  400x384 block by three column stripes of width 128: the self branch, the first convolution, and the second
  convolution (A_blk . C1) . W2'. Each buffer is described as the canonical overlay of the body's stores, latest
  first, and the stores are shown to cover the buffer.
-/
import proofs.«119469_g5471788335182_cont_9to1c4b_211_2_alg».proof.Proof.Gen.KernelIdeal.Skeleton
import Idealize.ShloMosaic.Lib.Pipeline.FrameBody
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-! ## The rectangles the bodies load and store through -/

/-- The whole 400x10000 stripe of the adjacency matrix. -/
abbrev rAdj : Rect S400x10000 := Rect.unit (s := S400x10000) ![0, 0] S400x10000.size inb_S400x10000_S400x10000_0_0
/-- A whole 10000x128 matrix (the features, or the first convolution). -/
abbrev rFull : Rect S10000x128 := Rect.unit (s := S10000x128) ![0, 0] S10000x128.size inb_S10000x128_S10000x128_0_0
/-- A whole 128x128 weight. -/
abbrev rWt : Rect S128x128 := Rect.unit (s := S128x128) ![0, 0] S128x128.size inb_S128x128_S128x128_0_0
/-- A whole 400x128 row block. -/
abbrev rRows : Rect S400x128 := Rect.unit (s := S400x128) ![0, 0] S400x128.size inb_S400x128_S400x128_0_0
/-- A whole 1x128 bias row. -/
abbrev rBias : Rect S1x128 := Rect.unit (s := S1x128) ![0, 0] S1x128.size inb_S1x128_S1x128_0_0
/-- The three column stripes of the 400x384 output block: columns 0..127, 128..255, 256..383. -/
abbrev rCol0 : Rect S400x384 := Rect.unit (s := S400x384) ![0, 0] S400x128.size inb_S400x384_S400x128_0_0
abbrev rCol1 : Rect S400x384 := Rect.unit (s := S400x384) ![0, 128] S400x128.size inb_S400x384_S400x128_0_128
abbrev rCol2 : Rect S400x384 := Rect.unit (s := S400x384) ![0, 256] S400x128.size inb_S400x384_S400x128_0_256

/-! ## Pass 1 -/

/-- The first convolution's block: max((A_blk . X) . W, 0), stored whole. -/
def out0_8 (x0 : Vec F S400x10000 .f32) (x1 : Vec F S10000x128 .f32) (x3 : Vec F S128x128 .f32) : Vec F S400x128 .f32 :=
  View.canon [⟨rRows, k0_pay1 (View.ld x0 rAdj) (View.ld x1 rFull) (View.ld x3 rWt)⟩]

/-- The self branch's block: max(X_blk . W1t + b1, 0) . W2t + b2, stored whole. -/
def out0_9 (x2 : Vec F S400x128 .f32) (x4 : Vec F S128x128 .f32) (x5 : Vec F S1x128 .f32) (x6 : Vec F S128x128 .f32)
    (x7 : Vec F S1x128 .f32) : Vec F S400x128 .f32 :=
  View.canon [⟨rRows, k0_pay2 (View.ld x2 rRows) (View.ld x4 rWt) (View.ld x5 rBias) (View.ld x6 rWt) (View.ld x7 rBias)⟩]

/-- One whole-block store covers the 400x128 buffer. -/
theorem cover_rows (p0 : Vec F S400x128 .f32) (y : S400x128.Idx) :
    ∃ pc ∈ ([⟨rRows, p0⟩] : List (View.Piece (Elt F) S400x128 .f32)), y ∈ pc.1.set :=
  View.cover_of_tiled [⟨rRows, p0⟩] S400x128.size (by rfl) y

/-! ## Pass 2 -/

/-- The output block: columns 0..127 the self branch's rows, 128..255 the first convolution's rows, 256..383 the
    second convolution (A_blk . C1) . W2'; the stores latest first. -/
def out1_5 (x0 : Vec F S400x10000 .f32) (x1 : Vec F S10000x128 .f32) (x2 : Vec F S400x128 .f32) (x3 : Vec F S400x128 .f32)
    (x4 : Vec F S128x128 .f32) : Vec F S400x384 .f32 :=
  View.canon [⟨rCol2, k1_pay1 (View.ld x0 rAdj) (View.ld x1 rFull) (View.ld x4 rWt)⟩,
    ⟨rCol1, k1_pay3 (View.ld x2 rRows)⟩,
    ⟨rCol0, k1_pay2 (View.ld x3 rRows)⟩]

/-- The three column stripes tile the 400x384 buffer. -/
theorem cover_cols (p2 p1 p0 : Vec F S400x128 .f32) (y : S400x384.Idx) :
    ∃ pc ∈ ([⟨rCol2, p2⟩, ⟨rCol1, p1⟩, ⟨rCol0, p0⟩] : List (View.Piece (Elt F) S400x384 .f32)), y ∈ pc.1.set :=
  View.cover_of_tiled [⟨rCol2, p2⟩, ⟨rCol1, p1⟩, ⟨rCol0, p0⟩] S400x128.size (by rfl) y

end Cert.KernelIdeal.Hand

end
-- ==== Proof.KI.Dat0Def.lean ====
/-
  The proof data of pass 1's pipeline, at a parameter V: the buffer contents the region is entered from.
  Every input window's staging buffer holds, after the body, the block of its array it held before (the body only
  loads from it); every output window's holds what the body stored there, as a function of the input blocks
  (the first convolution's block and the self branch's block). Two input windows read ONE array (the whole matrix as the contraction operand, and its 400-row
  stripe): each holds half of that array's share, the halves composing to the whole.
-/
import proofs.«119469_g5471788335182_cont_9to1c4b_211_2_alg».proof.Proof.KI.Outs
import proofs.«119469_g5471788335182_cont_9to1c4b_211_2_alg».proof.Proof.Gen.KernelIdeal.Launch
import proofs.«119469_g5471788335182_cont_9to1c4b_211_2_alg».proof.Proof.Gen.KernelIdeal.Points
import Idealize.ShloMosaic.Lib.Pipeline.Frame
import Idealize.ShloMosaic.Lib.Pipeline.FrameBody

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- Window w's block at grid point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data: arrays as entered; inputs left in place, outputs at the body's stores; the invariant is the scoped
    rest and the generator register; nothing owed; the two windows on one array hold a half share each. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => out0_8 (iblk0 V c 0 t) (iblk0 V c 1 t) (iblk0 V c 3 t)
    | ⟨9, _⟩ => out0_9 (iblk0 V c 2 t) (iblk0 V c 4 t) (iblk0 V c 5 t) (iblk0 V c 6 t) (iblk0 V c 7 t)
  Φ _ := Pipeline.ΦA spec0 c
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
  owed _ := 0

/-- The arrays are the entry contents. -/
theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = out0_8 (iblk0 V c 0 t) (iblk0 V c 1 t) (iblk0 V c 3 t) := by dsimp only [dat0]
theorem after0_9 (c : Dev nD) (t : Fin cfg0.N) : (dat0 V c).after 9 t = out0_9 (iblk0 V c 2 t) (iblk0 V c 4 t) (iblk0 V c 5 t) (iblk0 V c 6 t) (iblk0 V c 7 t) := by dsimp only [dat0]

theorem q0_0 (c : Dev nD) : (dat0 V c).q 0 = fullShare := by dsimp only [dat0]
theorem q0_1 (c : Dev nD) : (dat0 V c).q 1 = fullShare.left := by dsimp only [dat0]
theorem q0_2 (c : Dev nD) : (dat0 V c).q 2 = fullShare.right := by dsimp only [dat0]
theorem q0_3 (c : Dev nD) : (dat0 V c).q 3 = fullShare := by dsimp only [dat0]
theorem q0_4 (c : Dev nD) : (dat0 V c).q 4 = fullShare := by dsimp only [dat0]
theorem q0_5 (c : Dev nD) : (dat0 V c).q 5 = fullShare := by dsimp only [dat0]
theorem q0_6 (c : Dev nD) : (dat0 V c).q 6 = fullShare := by dsimp only [dat0]
theorem q0_7 (c : Dev nD) : (dat0 V c).q 7 = fullShare := by dsimp only [dat0]
theorem q0_8 (c : Dev nD) : (dat0 V c).q 8 = fullShare := by dsimp only [dat0]
theorem q0_9 (c : Dev nD) : (dat0 V c).q 9 = fullShare := by dsimp only [dat0]

theorem owed0 (c : Dev nD) (t) : (dat0 V c).owed t = 0 := rfl
theorem Phi0 (c : Dev nD) (t) : (dat0 V c).Φ t = Pipeline.ΦA spec0 c := rfl

end Cert.KernelIdeal.Hand

end
-- ==== Proof.KI.Body0.lean ====
/-
  Pass 1's body as a triple: on whole staging buffers, the eight inputs at known contents and the two outputs at any,
  it runs to its continuation with the inputs as they were, the first output at the first convolution's block and the
  second at the self branch's block.
-/
import proofs.«119469_g5471788335182_cont_9to1c4b_211_2_alg».proof.Proof.KI.Outs
import Idealize.ShloMosaic.Lib.Pipeline.Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 1000000 in
theorem sound_kernel0 (c : Dev nD) (E : Set ℕ) (i : grid0.Coords) (arg1 : Memref sig .tc .vmem S400x10000 .f32) (harg1 : arg1.IsWhole) (arg2 : Memref sig .tc .vmem S10000x128 .f32) (harg2 : arg2.IsWhole) (arg3 : Memref sig .tc .vmem S400x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S400x128 .f32) (harg9 : arg9.IsWhole) (arg10 : Memref sig .tc .vmem S400x128 .f32) (harg10 : arg10.IsWhole)
    (x0 : Vec F S400x10000 .f32) (x1 : Vec F S10000x128 .f32) (x2 : Vec F S400x128 .f32) (x3 : Vec F S128x128 .f32)
    (x4 : Vec F S128x128 .f32) (x5 : Vec F S1x128 .f32) (x6 : Vec F S128x128 .f32) (x7 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7
        ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare (out0_8 x0 x1 x3) ∗ owns (c : Thread nD τ) arg10 fullShare (out0_9 x2 x4 x5 x6 x7)) -∗ K ⟨⟩))
      ⊢ wp frame (wpE (defs₀ (F := F)) Variants.none c none) E (cc0__pass1 i arg1 harg1 arg2 harg2 arg3 harg3 arg4 harg4 arg5 harg5 arg6 harg6 arg7 harg7 arg8 harg8 arg9 harg9 arg10 harg10) K := by
  simp only [cc0__pass1_eq_skeleton]; unfold cc0__pass1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%f7, %hf7, H7⟩, ⟨%d8, %f8, -, H8⟩, ⟨%d9, %f9, -, H9⟩, Hk⟩
  subst hf0; subst hf1; subst hf2; subst hf3; subst hf4; subst hf5; subst hf6; subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (cover_rows _)
  iexists _; isplitr
  swap; · iexact H9
  ipureintro
  exact View.read_writes_eq_canon _ _ _ (cover_rows _)

end Cert.KernelIdeal.Hand

end
-- ==== Proof.KI.Obl0.lean ====
/-
  Pass 1's body obligation at every grid point: each input window's current staging buffer holds its block of
  the array (fetched at this point, or carried unchanged from the point before when the block index has not moved),
  so the body's triple applies; the invariant and the core's dues pass through unread.
-/
import proofs.«119469_g5471788335182_cont_9to1c4b_211_2_alg».proof.Proof.KI.Dat0Def
import proofs.«119469_g5471788335182_cont_9to1c4b_211_2_alg».proof.Proof.KI.Body0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## What each input window's current staging buffer holds

  An input window's buffer holds its block of the array at every point: where the pipeline fetched it, by the
  fetch; where it did not, the block index has not moved since the point before and the body left the block in
  place. The windows are uncut and never idle, so what a fetch puts in the buffer is the block itself. -/

/-- Window 0 (the 400-row stripe of the matrix, the contraction's left operand): its block at every point. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

/-- Window 1 (the whole feature array as the contraction's right operand; its index never moves). -/
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-- Window 2 (the 400-row stripe of the feature array, for the self branch). -/
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-- Window 3 (a whole weight matrix; its index never moves). -/
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)

/-- Window 4 (a whole weight matrix; its index never moves). -/
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)

/-- Window 5 (a whole bias row; its index never moves). -/
theorem before0_5 (c : Dev nD) (t : Fin cfg0.N) (d) : (dat0 V c).before 5 t d = iblk0 V c 5 t :=
  ((dat0 V c).before_in_eq_fetched 5 rfl (fun _ => rfl) (fun _ _ _ => rfl)
    (fun t => by rw [after0_5]; unfold Dat.blockOf iblk0; rw [A_eq0]; try rfl) t d).trans
    (by unfold Dat.fetched Dat.blockOf iblk0; rw [A_eq0]; try rfl)

/-- Window 6 (a whole weight matrix; its index never moves). -/
theorem before0_6 (c : Dev nD) (t : Fin cfg0.N) (d) : (dat0 V c).before 6 t d = iblk0 V c 6 t :=
  ((dat0 V c).before_in_eq_fetched 6 rfl (fun _ => rfl) (fun _ _ _ => rfl)
    (fun t => by rw [after0_6]; unfold Dat.blockOf iblk0; rw [A_eq0]; try rfl) t d).trans
    (by unfold Dat.fetched Dat.blockOf iblk0; rw [A_eq0]; try rfl)

/-- Window 7 (a whole bias row; its index never moves). -/
theorem before0_7 (c : Dev nD) (t : Fin cfg0.N) (d) : (dat0 V c).before 7 t d = iblk0 V c 7 t :=
  ((dat0 V c).before_in_eq_fetched 7 rfl (fun _ => rfl) (fun _ _ _ => rfl)
    (fun t => by rw [after0_7]; unfold Dat.blockOf iblk0; rw [A_eq0]; try rfl) t d).trans
    (by unfold Dat.fetched Dat.blockOf iblk0; rw [A_eq0]; try rfl)

/-! ## The body obligation at a generic point, the windows one by one -/

/-- What the body is called with at point `t`: the invariant, the core's dues, and every window's current staging
    buffer — the outputs' at whatever they held (they are written back at every point). -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- What it returns: the same at the next point, every buffer at what the body leaves there. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

set_option maxHeartbeats 1000000 in
/-- The body at any point: the eight input buffers hold their blocks, so the body's triple applies at those blocks;
    the invariant and the core's dues are the same before and after (the invariant does not depend on the point and
    nothing is owed), and pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ (grid0.coords t)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (win0_4.stage (cfg0.slots t 4)) (hstage0_4 ((cfg0.slots t 4).cast nbuf0_4))
    (win0_5.stage (cfg0.slots t 5)) (hstage0_5 ((cfg0.slots t 5).cast nbuf0_5))
    (win0_6.stage (cfg0.slots t 6)) (hstage0_6 ((cfg0.slots t 6).cast nbuf0_6))
    (win0_7.stage (cfg0.slots t 7)) (hstage0_7 ((cfg0.slots t 7).cast nbuf0_7))
    (win0_8.stage (cfg0.slots t 8)) (hstage0_8 ((cfg0.slots t 8).cast nbuf0_8))
    (win0_9.stage (cfg0.slots t 9)) (hstage0_9 ((cfg0.slots t 9).cast nbuf0_9))
    (iblk0 V c 0 t) (iblk0 V c 1 t) (iblk0 V c 2 t) (iblk0 V c 3 t) (iblk0 V c 4 t) (iblk0 V c 5 t)
    (iblk0 V c 6 t) (iblk0 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point: its two products over the windows are the chains above. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Dat1Def.lean ====
/-
  The proof data of pass 2's pipeline, at a parameter V: the buffer contents the region is entered from.
  Every input window's staging buffer holds, after the body, the block of its array it held before (the body only
  loads from it); every output window's holds what the body stored there, as a function of the input blocks
  (the 400x384 output block). Two input windows read ONE array (the whole matrix as the contraction operand, and its 400-row
  stripe): each holds half of that array's share, the halves composing to the whole.
-/
import proofs.«119469_g5471788335182_cont_9to1c4b_211_2_alg».proof.Proof.KI.Outs
import proofs.«119469_g5471788335182_cont_9to1c4b_211_2_alg».proof.Proof.Gen.KernelIdeal.Launch
import proofs.«119469_g5471788335182_cont_9to1c4b_211_2_alg».proof.Proof.Gen.KernelIdeal.Points
import Idealize.ShloMosaic.Lib.Pipeline.Frame
import Idealize.ShloMosaic.Lib.Pipeline.FrameBody

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- Window w's block at grid point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data: arrays as entered; inputs left in place, outputs at the body's stores; the invariant is the scoped
    rest and the generator register; nothing owed; the two windows on one array hold a half share each. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
  owed _ := 0

/-- The arrays are the entry contents. -/
theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

theorem q1_0 (c : Dev nD) : (dat1 V c).q 0 = fullShare := by dsimp only [dat1]
theorem q1_1 (c : Dev nD) : (dat1 V c).q 1 = fullShare.left := by dsimp only [dat1]
theorem q1_2 (c : Dev nD) : (dat1 V c).q 2 = fullShare.right := by dsimp only [dat1]
theorem q1_3 (c : Dev nD) : (dat1 V c).q 3 = fullShare := by dsimp only [dat1]
theorem q1_4 (c : Dev nD) : (dat1 V c).q 4 = fullShare := by dsimp only [dat1]
theorem q1_5 (c : Dev nD) : (dat1 V c).q 5 = fullShare := by dsimp only [dat1]

theorem owed1 (c : Dev nD) (t) : (dat1 V c).owed t = 0 := rfl
theorem Phi1 (c : Dev nD) (t) : (dat1 V c).Φ t = Pipeline.ΦA spec1 c := rfl

end Cert.KernelIdeal.Hand

end
-- ==== Proof.KI.Body1.lean ====
/-
  Pass 2's body as a triple: on whole staging buffers, the five inputs at known contents and the output at any, it runs
  to its continuation with the inputs as they were and the output block at its three column stripes.
-/
import proofs.«119469_g5471788335182_cont_9to1c4b_211_2_alg».proof.Proof.KI.Outs
import Idealize.ShloMosaic.Lib.Pipeline.Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 1000000 in
theorem sound_kernel1 (c : Dev nD) (E : Set ℕ) (i : grid1.Coords) (arg1 : Memref sig .tc .vmem S400x10000 .f32) (harg1 : arg1.IsWhole) (arg2 : Memref sig .tc .vmem S10000x128 .f32) (harg2 : arg2.IsWhole) (arg3 : Memref sig .tc .vmem S400x128 .f32) (harg3 : arg3.IsWhole) (arg4 : Memref sig .tc .vmem S400x128 .f32) (harg4 : arg4.IsWhole) (arg5 : Memref sig .tc .vmem S128x128 .f32) (harg5 : arg5.IsWhole) (arg6 : Memref sig .tc .vmem S400x384 .f32) (harg6 : arg6.IsWhole)
    (x0 : Vec F S400x10000 .f32) (x1 : Vec F S10000x128 .f32) (x2 : Vec F S400x128 .f32) (x3 : Vec F S400x128 .f32)
    (x4 : Vec F S128x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__pass2 i arg1 harg1 arg2 harg2 arg3 harg3 arg4 harg4 arg5 harg5 arg6 harg6) K := by
  simp only [cc1__pass2_eq_skeleton]; unfold cc1__pass2_skel
  unfold owns
  iintro ⟨⟨%f0, %hf0, H0⟩, ⟨%f1, %hf1, H1⟩, ⟨%f2, %hf2, H2⟩, ⟨%f3, %hf3, H3⟩, ⟨%f4, %hf4, H4⟩,
    ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover_cols _ _ _)

end Cert.KernelIdeal.Hand

end
-- ==== Proof.KI.Obl1.lean ====
/-
  Pass 2's body obligation at every grid point: each input window's current staging buffer holds its block of
  the array (fetched at this point, or carried unchanged from the point before when the block index has not moved),
  so the body's triple applies; the invariant and the core's dues pass through unread.
-/
import proofs.«119469_g5471788335182_cont_9to1c4b_211_2_alg».proof.Proof.KI.Dat1Def
import proofs.«119469_g5471788335182_cont_9to1c4b_211_2_alg».proof.Proof.KI.Body1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## What each input window's current staging buffer holds

  An input window's buffer holds its block of the array at every point: where the pipeline fetched it, by the
  fetch; where it did not, the block index has not moved since the point before and the body left the block in
  place. The windows are uncut and never idle, so what a fetch puts in the buffer is the block itself. -/

/-- Window 0 (the 400-row stripe of the matrix, the contraction's left operand): its block at every point. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

/-- Window 1 (the whole 10000-row array as the contraction's right operand; its index never moves). -/
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-- Window 2 (the 400-row stripe of that same array). -/
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-- Window 3 (the 400-row stripe of the self branch's array). -/
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-- Window 4 (a whole weight matrix; its index never moves). -/
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)

/-! ## The body obligation at a generic point, the windows one by one -/

/-- What the body is called with at point `t`: the invariant, the core's dues, and every window's current staging
    buffer — the output's at whatever it held (it is written back at every point). -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- What it returns: the same at the next point, every buffer at what the body leaves there. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 1000000 in
/-- The body at any point: the five input buffers hold their blocks, so the body's triple applies at those blocks;
    the invariant and the core's dues are the same before and after (the invariant does not depend on the point and
    nothing is owed), and pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t)
    (win1_0.stage (cfg1.slots t 0)) (hstage1_0 ((cfg1.slots t 0).cast nbuf1_0))
    (win1_1.stage (cfg1.slots t 1)) (hstage1_1 ((cfg1.slots t 1).cast nbuf1_1))
    (win1_2.stage (cfg1.slots t 2)) (hstage1_2 ((cfg1.slots t 2).cast nbuf1_2))
    (win1_3.stage (cfg1.slots t 3)) (hstage1_3 ((cfg1.slots t 3).cast nbuf1_3))
    (win1_4.stage (cfg1.slots t 4)) (hstage1_4 ((cfg1.slots t 4).cast nbuf1_4))
    (win1_5.stage (cfg1.slots t 5)) (hstage1_5 ((cfg1.slots t 5).cast nbuf1_5))
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point: its two products over the windows are the chains above. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Vals.lean ====
/-
  The contents of a core's unscoped buffers at each boundary of the program: as launched; after the four host
  operations that reshape the two biases to rows and transpose the two linear weights; after pass 1, which may change
  only its two result arrays (the first convolution and the self branch), each left at what the pipeline's write-backs
  make of it; after pass 2, which may change only the final result array.
-/
import proofs.«119469_g5471788335182_cont_9to1c4b_211_2_alg».proof.Proof.KI.Dat0Def
import proofs.«119469_g5471788335182_cont_9to1c4b_211_2_alg».proof.Proof.KI.Dat1Def
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ)

/-- As launched. -/
abbrev W0 (c : Dev nD) : Valuation τ sig (Elt F) := fun b => m (c, b)
/-- After the host stretch. -/
def W1 (c : Dev nD) : Valuation τ sig (Elt F) := StableHlo.after hostOps0 (W0 m c)
/-- The same read at the core's own references: what pass 1 is entered from. -/
abbrev VW1 : (c : Dev nD) → (b : Ref sig .tc) → Buf (Elt F) ((c : Thread nD τ).loc b) := fun c b => W1 m c b
/-- After pass 1: its two result arrays at what the write-backs leave. -/
def W2 (c : Dev nD) : Valuation τ sig (Elt F) :=
  Function.update (Function.update (W1 m c) main_v4_0 ((dat0 (VW1 m) c).arrAt 8 cfg0.N)) main_v4_1 ((dat0 (VW1 m) c).arrAt 9 cfg0.N)
/-- The same read at the core's own references: what pass 2 is entered from. -/
abbrev VW2 : (c : Dev nD) → (b : Ref sig .tc) → Buf (Elt F) ((c : Thread nD τ).loc b) := fun c b => W2 m c b
/-- After pass 2: the final result array at what the write-backs leave. -/
def W3 (c : Dev nD) : Valuation τ sig (Elt F) :=
  Function.update (W2 m c) main_v5 ((dat1 (VW2 m) c).arrAt 5 cfg1.N)
abbrev VW3 : (c : Dev nD) → (b : Ref sig .tc) → Buf (Elt F) ((c : Thread nD τ).loc b) := fun c b => W3 m c b

theorem W2_v4_1 (c : Dev nD) : W2 m c main_v4_1 = (dat0 (VW1 m) c).arrAt 9 cfg0.N := by
  unfold W2; exact Function.update_self ..
theorem W2_v4_0 (c : Dev nD) : W2 m c main_v4_0 = (dat0 (VW1 m) c).arrAt 8 cfg0.N := by
  unfold W2
  rw [Function.update_of_ne (StableHlo.devRef_ne_of_ne (by decide : (main_v4_0 : Ref sig .tc) ≠ main_v4_1) : (Proc.devRef .tc main_v4_0 : DevRef τ sig) ≠ Proc.devRef .tc main_v4_1)]
  exact Function.update_self ..
theorem W2_of_ne (c : Dev nD) (r : Ref sig .tc) (h0 : r ≠ main_v4_0) (h1 : r ≠ main_v4_1) : W2 m c r = W1 m c r := by
  unfold W2
  rw [Function.update_of_ne (StableHlo.devRef_ne_of_ne h1 : (Proc.devRef .tc r : DevRef τ sig) ≠ Proc.devRef .tc main_v4_1),
    Function.update_of_ne (StableHlo.devRef_ne_of_ne h0 : (Proc.devRef .tc r : DevRef τ sig) ≠ Proc.devRef .tc main_v4_0)]
theorem W3_v5 (c : Dev nD) : W3 m c main_v5 = (dat1 (VW2 m) c).arrAt 5 cfg1.N := by
  unfold W3; exact Function.update_self ..
theorem W3_of_ne (c : Dev nD) (r : Ref sig .tc) (h : r ≠ main_v5) : W3 m c r = W2 m c r := by
  unfold W3
  rw [Function.update_of_ne (StableHlo.devRef_ne_of_ne h : (Proc.devRef .tc r : DevRef τ sig) ≠ Proc.devRef .tc main_v5)]

end Cert.KernelIdeal.Hand

end
-- ==== Proof.KI.Share.lean ====
/-
  How a core's unscoped buffers, each whole at the full share, make a pass's windowed arrays and the rest, and back.
  In each pass one matrix is read through two windows (whole, as the contraction operand; and by 400-row stripes): the
  feature matrix in pass 1, the first convolution in pass 2. Its buffer's full share is split into its two halves, one
  per window, and the halves are joined again when the region is left (both windows leave the matrix as they found it).
-/
import proofs.«119469_g5471788335182_cont_9to1c4b_211_2_alg».proof.Proof.KI.Dat0Def
import proofs.«119469_g5471788335182_cont_9to1c4b_211_2_alg».proof.Proof.KI.Dat1Def
import Idealize.ShloMosaic.Lib.Pipeline.Kit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- A core's unscoped buffers, one by one. -/
theorem unscopedBufs_chain (c : Dev nD) (G : (b : Ref sig .tc) → Buf (Elt F) ((c : Thread nD τ).loc b)) :
    (unscopedBufs (Ix := Unit) (Name := ℕ) (U := Pipeline.UD sig nD τ) (Lvl := ℕ) c G : sProp 𝕄)
      = iprop((((c : Thread nD τ).loc main_arg0) ↦{fullShare} G main_arg0)
          ∗ (((c : Thread nD τ).loc main_arg1) ↦{fullShare} G main_arg1)
          ∗ (((c : Thread nD τ).loc main_arg2) ↦{fullShare} G main_arg2)
          ∗ (((c : Thread nD τ).loc main_arg3) ↦{fullShare} G main_arg3)
          ∗ (((c : Thread nD τ).loc main_arg4) ↦{fullShare} G main_arg4)
          ∗ (((c : Thread nD τ).loc main_arg5) ↦{fullShare} G main_arg5)
          ∗ (((c : Thread nD τ).loc main_arg6) ↦{fullShare} G main_arg6)
          ∗ (((c : Thread nD τ).loc main_arg7) ↦{fullShare} G main_arg7)
          ∗ (((c : Thread nD τ).loc main_v0) ↦{fullShare} G main_v0)
          ∗ (((c : Thread nD τ).loc main_v1) ↦{fullShare} G main_v1)
          ∗ (((c : Thread nD τ).loc main_v2) ↦{fullShare} G main_v2)
          ∗ (((c : Thread nD τ).loc main_v3) ↦{fullShare} G main_v3)
          ∗ (((c : Thread nD τ).loc main_v4_0) ↦{fullShare} G main_v4_0)
          ∗ (((c : Thread nD τ).loc main_v4_1) ↦{fullShare} G main_v4_1)
          ∗ (((c : Thread nD τ).loc main_v5) ↦{fullShare} G main_v5)) := by
  unfold unscopedBufs
  exact bigSep_eq_bigSepL_of_eq [main_arg0, main_arg1, main_arg2, main_arg3, main_arg4, main_arg5, main_arg6, main_arg7, main_v0, main_v1, main_v2, main_v3, main_v4_0, main_v4_1, main_v5] (by decide) (by decide) _

/-! ## Pass 1 -/

/-- Pass 1's windowed arrays at contents read off G, one window at a time, each at the share its window holds. -/
theorem arrays_chain0 (c : Dev nD) (G : (b : Ref sig .tc) → Buf (Elt F) ((c : Thread nD τ).loc b)) :
    ((dat0 V c).arrays (fun w => G (Pipeline.arrRef spec0 w)) : sProp 𝕄)
      = iprop((((c : Thread nD τ).loc main_arg0) ↦{fullShare} G main_arg0)
          ∗ (((c : Thread nD τ).loc main_arg1) ↦{fullShare.left} G main_arg1)
          ∗ (((c : Thread nD τ).loc main_arg1) ↦{fullShare.right} G main_arg1)
          ∗ (((c : Thread nD τ).loc main_arg2) ↦{fullShare} G main_arg2)
          ∗ (((c : Thread nD τ).loc main_v2) ↦{fullShare} G main_v2)
          ∗ (((c : Thread nD τ).loc main_v0) ↦{fullShare} G main_v0)
          ∗ (((c : Thread nD τ).loc main_v3) ↦{fullShare} G main_v3)
          ∗ (((c : Thread nD τ).loc main_v1) ↦{fullShare} G main_v1)
          ∗ (((c : Thread nD τ).loc main_v4_0) ↦{fullShare} G main_v4_0)
          ∗ (((c : Thread nD τ).loc main_v4_1) ↦{fullShare} G main_v4_1)) := by
  have h : ((dat0 V c).arrays (fun w => G (Pipeline.arrRef spec0 w)) : sProp 𝕄)
      = bigSep Finset.univ fun w : Fin 10 => ((((c : Thread nD τ).loc (Pipeline.arrRef spec0 w)) ↦{(dat0 V c).share w} G (Pipeline.arrRef spec0 w)) : sProp 𝕄) := by
    unfold Pipeline.Dat.arrays
    exact bigSep_congr fun w _ => by rw [(arr_whole0 w).set_eq_univ]
  rw [h, bigSep_W0]
  rfl

/-- What of a core's unscoped buffers pass 1 does not window, one by one. -/
theorem rest_chain0 (c : Dev nD) (G : (b : Ref sig .tc) → Buf (Elt F) ((c : Thread nD τ).loc b)) :
    (Pipeline.unscopedRest (Ix := Unit) (Name := ℕ) (U := Pipeline.UD sig nD τ) (Lvl := ℕ) spec0 c G : sProp 𝕄)
      = iprop((((c : Thread nD τ).loc main_arg3) ↦{fullShare} G main_arg3) ∗ (((c : Thread nD τ).loc main_arg4) ↦{fullShare} G main_arg4) ∗ (((c : Thread nD τ).loc main_arg5) ↦{fullShare} G main_arg5) ∗ (((c : Thread nD τ).loc main_arg6) ↦{fullShare} G main_arg6) ∗ (((c : Thread nD τ).loc main_arg7) ↦{fullShare} G main_arg7) ∗ (((c : Thread nD τ).loc main_v5) ↦{fullShare} G main_v5)) :=
  unscopedRest0_eq c G

/-- ENTRY: the unscoped buffers at G are pass 1's arrays at G, the feature matrix's buffer split between its two windows, and
    the rest. -/
theorem enter0 (c : Dev nD) (G : (b : Ref sig .tc) → Buf (Elt F) ((c : Thread nD τ).loc b)) :
    (unscopedBufs (Ix := Unit) (Name := ℕ) (U := Pipeline.UD sig nD τ) (Lvl := ℕ) c G : sProp 𝕄)
      ⊢ iprop((dat0 V c).arrays (fun w => G (Pipeline.arrRef spec0 w)) ∗ Pipeline.unscopedRest spec0 c G) := by
  rw [unscopedBufs_chain, arrays_chain0, rest_chain0]
  iintro ⟨H_arg0, H_arg1, H_arg2, H_arg3, H_arg4, H_arg5, H_arg6, H_arg7, H_v0, H_v1, H_v2, H_v3, H_v4_0, H_v4_1, H_v5⟩
  ihave Hs := (pointsTo_share (PosShare.mem_left_op_right fullShare)).1 $$ H_arg1
  icases Hs with ⟨Hl, Hr⟩
  isplitl [H_arg0 Hl Hr H_arg2 H_v2 H_v0 H_v3 H_v1 H_v4_0 H_v4_1]
  · isplitl [H_arg0]; · iexact H_arg0
    isplitl [Hl]; · iexact Hl
    isplitl [Hr]; · iexact Hr
    isplitl [H_arg2]; · iexact H_arg2
    isplitl [H_v2]; · iexact H_v2
    isplitl [H_v0]; · iexact H_v0
    isplitl [H_v3]; · iexact H_v3
    isplitl [H_v1]; · iexact H_v1
    isplitl [H_v4_0]; · iexact H_v4_0
    iexact H_v4_1
  isplitl [H_arg3]; · iexact H_arg3
  isplitl [H_arg4]; · iexact H_arg4
  isplitl [H_arg5]; · iexact H_arg5
  isplitl [H_arg6]; · iexact H_arg6
  isplitl [H_arg7]; · iexact H_arg7
  iexact H_v5

/-- EXIT: pass 1's arrays at G, the two windows on the feature matrix both holding it at G, and the rest at G are the unscoped
    buffers at G. -/
theorem exit0 (c : Dev nD) (G : (b : Ref sig .tc) → Buf (Elt F) ((c : Thread nD τ).loc b)) :
    iprop((dat0 V c).arrays (fun w => G (Pipeline.arrRef spec0 w)) ∗ Pipeline.unscopedRest spec0 c G)
      ⊢ (unscopedBufs (Ix := Unit) (Name := ℕ) (U := Pipeline.UD sig nD τ) (Lvl := ℕ) c G : sProp 𝕄) := by
  rw [unscopedBufs_chain, arrays_chain0, rest_chain0]
  iintro ⟨⟨H_arg0, Hl, Hr, H_arg2, H_v2, H_v0, H_v3, H_v1, H_v4_0, H_v4_1⟩, H_arg3, H_arg4, H_arg5, H_arg6, H_arg7, H_v5⟩
  ihave H_arg1 := (pointsTo_share (PosShare.mem_left_op_right fullShare)).2 $$ [Hl Hr]
  · isplitl [Hl]; · iexact Hl
    iexact Hr
  isplitl [H_arg0]; · iexact H_arg0
  isplitl [H_arg1]; · iexact H_arg1
  isplitl [H_arg2]; · iexact H_arg2
  isplitl [H_arg3]; · iexact H_arg3
  isplitl [H_arg4]; · iexact H_arg4
  isplitl [H_arg5]; · iexact H_arg5
  isplitl [H_arg6]; · iexact H_arg6
  isplitl [H_arg7]; · iexact H_arg7
  isplitl [H_v0]; · iexact H_v0
  isplitl [H_v1]; · iexact H_v1
  isplitl [H_v2]; · iexact H_v2
  isplitl [H_v3]; · iexact H_v3
  isplitl [H_v4_0]; · iexact H_v4_0
  isplitl [H_v4_1]; · iexact H_v4_1
  iexact H_v5

/-! ## Pass 2 -/

/-- Pass 2's windowed arrays at contents read off G, one window at a time, each at the share its window holds. -/
theorem arrays_chain1 (c : Dev nD) (G : (b : Ref sig .tc) → Buf (Elt F) ((c : Thread nD τ).loc b)) :
    ((dat1 V c).arrays (fun w => G (Pipeline.arrRef spec1 w)) : sProp 𝕄)
      = iprop((((c : Thread nD τ).loc main_arg0) ↦{fullShare} G main_arg0)
          ∗ (((c : Thread nD τ).loc main_v4_0) ↦{fullShare.left} G main_v4_0)
          ∗ (((c : Thread nD τ).loc main_v4_0) ↦{fullShare.right} G main_v4_0)
          ∗ (((c : Thread nD τ).loc main_v4_1) ↦{fullShare} G main_v4_1)
          ∗ (((c : Thread nD τ).loc main_arg3) ↦{fullShare} G main_arg3)
          ∗ (((c : Thread nD τ).loc main_v5) ↦{fullShare} G main_v5)) := by
  have h : ((dat1 V c).arrays (fun w => G (Pipeline.arrRef spec1 w)) : sProp 𝕄)
      = bigSep Finset.univ fun w : Fin 6 => ((((c : Thread nD τ).loc (Pipeline.arrRef spec1 w)) ↦{(dat1 V c).share w} G (Pipeline.arrRef spec1 w)) : sProp 𝕄) := by
    unfold Pipeline.Dat.arrays
    exact bigSep_congr fun w _ => by rw [(arr_whole1 w).set_eq_univ]
  rw [h, bigSep_W1]
  rfl

/-- What of a core's unscoped buffers pass 2 does not window, one by one. -/
theorem rest_chain1 (c : Dev nD) (G : (b : Ref sig .tc) → Buf (Elt F) ((c : Thread nD τ).loc b)) :
    (Pipeline.unscopedRest (Ix := Unit) (Name := ℕ) (U := Pipeline.UD sig nD τ) (Lvl := ℕ) spec1 c G : sProp 𝕄)
      = iprop((((c : Thread nD τ).loc main_arg1) ↦{fullShare} G main_arg1) ∗ (((c : Thread nD τ).loc main_arg2) ↦{fullShare} G main_arg2) ∗ (((c : Thread nD τ).loc main_arg4) ↦{fullShare} G main_arg4) ∗ (((c : Thread nD τ).loc main_arg5) ↦{fullShare} G main_arg5) ∗ (((c : Thread nD τ).loc main_arg6) ↦{fullShare} G main_arg6) ∗ (((c : Thread nD τ).loc main_arg7) ↦{fullShare} G main_arg7) ∗ (((c : Thread nD τ).loc main_v0) ↦{fullShare} G main_v0) ∗ (((c : Thread nD τ).loc main_v1) ↦{fullShare} G main_v1) ∗ (((c : Thread nD τ).loc main_v2) ↦{fullShare} G main_v2) ∗ (((c : Thread nD τ).loc main_v3) ↦{fullShare} G main_v3)) :=
  unscopedRest1_eq c G

/-- ENTRY: the unscoped buffers at G are pass 2's arrays at G, the first convolution's buffer split between its two windows, and
    the rest. -/
theorem enter1 (c : Dev nD) (G : (b : Ref sig .tc) → Buf (Elt F) ((c : Thread nD τ).loc b)) :
    (unscopedBufs (Ix := Unit) (Name := ℕ) (U := Pipeline.UD sig nD τ) (Lvl := ℕ) c G : sProp 𝕄)
      ⊢ iprop((dat1 V c).arrays (fun w => G (Pipeline.arrRef spec1 w)) ∗ Pipeline.unscopedRest spec1 c G) := by
  rw [unscopedBufs_chain, arrays_chain1, rest_chain1]
  iintro ⟨H_arg0, H_arg1, H_arg2, H_arg3, H_arg4, H_arg5, H_arg6, H_arg7, H_v0, H_v1, H_v2, H_v3, H_v4_0, H_v4_1, H_v5⟩
  ihave Hs := (pointsTo_share (PosShare.mem_left_op_right fullShare)).1 $$ H_v4_0
  icases Hs with ⟨Hl, Hr⟩
  isplitl [H_arg0 Hl Hr H_v4_1 H_arg3 H_v5]
  · isplitl [H_arg0]; · iexact H_arg0
    isplitl [Hl]; · iexact Hl
    isplitl [Hr]; · iexact Hr
    isplitl [H_v4_1]; · iexact H_v4_1
    isplitl [H_arg3]; · iexact H_arg3
    iexact H_v5
  isplitl [H_arg1]; · iexact H_arg1
  isplitl [H_arg2]; · iexact H_arg2
  isplitl [H_arg4]; · iexact H_arg4
  isplitl [H_arg5]; · iexact H_arg5
  isplitl [H_arg6]; · iexact H_arg6
  isplitl [H_arg7]; · iexact H_arg7
  isplitl [H_v0]; · iexact H_v0
  isplitl [H_v1]; · iexact H_v1
  isplitl [H_v2]; · iexact H_v2
  iexact H_v3

/-- EXIT: pass 2's arrays at G, the two windows on the first convolution both holding it at G, and the rest at G are the unscoped
    buffers at G. -/
theorem exit1 (c : Dev nD) (G : (b : Ref sig .tc) → Buf (Elt F) ((c : Thread nD τ).loc b)) :
    iprop((dat1 V c).arrays (fun w => G (Pipeline.arrRef spec1 w)) ∗ Pipeline.unscopedRest spec1 c G)
      ⊢ (unscopedBufs (Ix := Unit) (Name := ℕ) (U := Pipeline.UD sig nD τ) (Lvl := ℕ) c G : sProp 𝕄) := by
  rw [unscopedBufs_chain, arrays_chain1, rest_chain1]
  iintro ⟨⟨H_arg0, Hl, Hr, H_v4_1, H_arg3, H_v5⟩, H_arg1, H_arg2, H_arg4, H_arg5, H_arg6, H_arg7, H_v0, H_v1, H_v2, H_v3⟩
  ihave H_v4_0 := (pointsTo_share (PosShare.mem_left_op_right fullShare)).2 $$ [Hl Hr]
  · isplitl [Hl]; · iexact Hl
    iexact Hr
  isplitl [H_arg0]; · iexact H_arg0
  isplitl [H_arg1]; · iexact H_arg1
  isplitl [H_arg2]; · iexact H_arg2
  isplitl [H_arg3]; · iexact H_arg3
  isplitl [H_arg4]; · iexact H_arg4
  isplitl [H_arg5]; · iexact H_arg5
  isplitl [H_arg6]; · iexact H_arg6
  isplitl [H_arg7]; · iexact H_arg7
  isplitl [H_v0]; · iexact H_v0
  isplitl [H_v1]; · iexact H_v1
  isplitl [H_v2]; · iexact H_v2
  isplitl [H_v3]; · iexact H_v3
  isplitl [H_v4_0]; · iexact H_v4_0
  isplitl [H_v4_1]; · iexact H_v4_1
  iexact H_v5

end Cert.KernelIdeal.Hand

end
-- ==== Proof.KI.Run.lean ====
/-
  The program's run from launch to return: the four host operations, then pass 1, then pass 2, each entered from the
  state "every unscoped buffer held whole at the boundary's contents, the generator register at some state, nothing
  owed" and left at the same state one boundary on. A pass takes its windowed arrays out of the unscoped buffers when
  it is entered (the matrix two of its windows read split between them) and puts them back, at what its write-backs
  left, when it is left. The run ends with every unscoped buffer at the last boundary's contents: the result array at
  what pass 2's write-backs left, every argument as launched (no host operation writes one, no pass may change one).
-/
import proofs.«119469_g5471788335182_cont_9to1c4b_211_2_alg».proof.Proof.KI.Obl0
import proofs.«119469_g5471788335182_cont_9to1c4b_211_2_alg».proof.Proof.KI.Obl1
import proofs.«119469_g5471788335182_cont_9to1c4b_211_2_alg».proof.Proof.KI.Vals
import proofs.«119469_g5471788335182_cont_9to1c4b_211_2_alg».proof.Proof.KI.Share
import proofs.«119469_g5471788335182_cont_9to1c4b_211_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What each boundary's contents hold off the arrays a pass may change -/

/-- The host stretch writes no argument. -/
theorem W1_arg (c : Dev nD) (r : Ref sig .tc) (h : r ∉ hostOps0_W) : W1 m c r = m ((c : Thread nD τ).loc r) :=
  (show Gen.V1 m c r = Gen.V0 m c r from V1_of m c r h).trans rfl

/-- Off pass 1's arrays the contents after it are the contents before it. -/
theorem hrest0 (c : Dev nD) : ∀ b, b ∉ Finset.univ.image (Pipeline.arrRef spec0) → VW2 m c b = VW1 m c b := fun b hb =>
  W2_of_ne m c b (fun e => hb (Finset.mem_image.mpr ⟨8, Finset.mem_univ _, e.symm⟩)) (fun e => hb (Finset.mem_image.mpr ⟨9, Finset.mem_univ _, e.symm⟩))
/-- Off pass 2's arrays the contents after it are the contents before it. -/
theorem hrest1 (c : Dev nD) : ∀ b, b ∉ Finset.univ.image (Pipeline.arrRef spec1) → VW3 m c b = VW2 m c b := fun b hb =>
  W3_of_ne m c b (fun e => hb (Finset.mem_image.mpr ⟨5, Finset.mem_univ _, e.symm⟩))

/-- What pass 1's write-backs leave in each of its arrays is the next boundary's contents there: an input's array is
    never written, the two results are the boundary's by definition. -/
theorem hF0 (c : Dev nD) : (fun w => (dat0 (VW1 m) c).arrAt w cfg0.N) = fun w => VW2 m c (Pipeline.arrRef spec0 w) :=
  funext fun w => match w with
    | ⟨0, _⟩ => ((dat0 (VW1 m) c).arrAt_in 0 rfl _).trans ((A_eq0 (VW1 m) c 0).trans (W2_of_ne m c main_arg0 (by decide) (by decide)).symm)
    | ⟨1, _⟩ => ((dat0 (VW1 m) c).arrAt_in 1 rfl _).trans ((A_eq0 (VW1 m) c 1).trans (W2_of_ne m c main_arg1 (by decide) (by decide)).symm)
    | ⟨2, _⟩ => ((dat0 (VW1 m) c).arrAt_in 2 rfl _).trans ((A_eq0 (VW1 m) c 2).trans (W2_of_ne m c main_arg1 (by decide) (by decide)).symm)
    | ⟨3, _⟩ => ((dat0 (VW1 m) c).arrAt_in 3 rfl _).trans ((A_eq0 (VW1 m) c 3).trans (W2_of_ne m c main_arg2 (by decide) (by decide)).symm)
    | ⟨4, _⟩ => ((dat0 (VW1 m) c).arrAt_in 4 rfl _).trans ((A_eq0 (VW1 m) c 4).trans (W2_of_ne m c main_v2 (by decide) (by decide)).symm)
    | ⟨5, _⟩ => ((dat0 (VW1 m) c).arrAt_in 5 rfl _).trans ((A_eq0 (VW1 m) c 5).trans (W2_of_ne m c main_v0 (by decide) (by decide)).symm)
    | ⟨6, _⟩ => ((dat0 (VW1 m) c).arrAt_in 6 rfl _).trans ((A_eq0 (VW1 m) c 6).trans (W2_of_ne m c main_v3 (by decide) (by decide)).symm)
    | ⟨7, _⟩ => ((dat0 (VW1 m) c).arrAt_in 7 rfl _).trans ((A_eq0 (VW1 m) c 7).trans (W2_of_ne m c main_v1 (by decide) (by decide)).symm)
    | ⟨8, _⟩ => (W2_v4_0 m c).symm
    | ⟨9, _⟩ => (W2_v4_1 m c).symm
/-- The same for pass 2. -/
theorem hF1 (c : Dev nD) : (fun w => (dat1 (VW2 m) c).arrAt w cfg1.N) = fun w => VW3 m c (Pipeline.arrRef spec1 w) :=
  funext fun w => match w with
    | ⟨0, _⟩ => ((dat1 (VW2 m) c).arrAt_in 0 rfl _).trans ((A_eq1 (VW2 m) c 0).trans (W3_of_ne m c main_arg0 (by decide)).symm)
    | ⟨1, _⟩ => ((dat1 (VW2 m) c).arrAt_in 1 rfl _).trans ((A_eq1 (VW2 m) c 1).trans (W3_of_ne m c main_v4_0 (by decide)).symm)
    | ⟨2, _⟩ => ((dat1 (VW2 m) c).arrAt_in 2 rfl _).trans ((A_eq1 (VW2 m) c 2).trans (W3_of_ne m c main_v4_0 (by decide)).symm)
    | ⟨3, _⟩ => ((dat1 (VW2 m) c).arrAt_in 3 rfl _).trans ((A_eq1 (VW2 m) c 3).trans (W3_of_ne m c main_v4_1 (by decide)).symm)
    | ⟨4, _⟩ => ((dat1 (VW2 m) c).arrAt_in 4 rfl _).trans ((A_eq1 (VW2 m) c 4).trans (W3_of_ne m c main_arg3 (by decide)).symm)
    | ⟨5, _⟩ => (W3_v5 m c).symm

/-- The unscoped rest reads the contents only off the pass's arrays. -/
theorem rest_congr0 (c : Dev nD) :
    (Pipeline.unscopedRest (Ix := Unit) (Name := ℕ) (U := Pipeline.UD sig nD τ) (Lvl := ℕ) spec0 c (VW1 m c) : sProp 𝕄)
      = Pipeline.unscopedRest spec0 c (VW2 m c) := by
  unfold Pipeline.unscopedRest
  exact bigSep_congr fun b hb => by rw [hrest0 m c b (Finset.mem_sdiff.mp hb).2]
theorem rest_congr1 (c : Dev nD) :
    (Pipeline.unscopedRest (Ix := Unit) (Name := ℕ) (U := Pipeline.UD sig nD τ) (Lvl := ℕ) spec1 c (VW2 m c) : sProp 𝕄)
      = Pipeline.unscopedRest spec1 c (VW3 m c) := by
  unfold Pipeline.unscopedRest
  exact bigSep_congr fun b hb => by rw [hrest1 m c b (Finset.mem_sdiff.mp hb).2]

/-! ## The proof data family and the thread state -/

/-- Every pipeline's proof data, each at its region's entry contents. -/
def pdats : (p : Fin 2) → (c : Dev nD) → Dat τ (Elt F) Unit ℕ (Pipeline.UD sig nD τ) ℕ (Pipeline.pin (pcfgs (F := F)) adm p) c
  | ⟨0, _⟩ => fun c => dat0 (VW1 m) c
  | ⟨1, _⟩ => fun c => dat1 (VW2 m) c
abbrev 𝒱₀ : Variants := Variants.none
/-- No core owes another anything: no level is assigned. -/
abbrev Lv : GSem nD τ sig → Finset Unit := fun _ => ∅
abbrev lv : GSem nD τ sig → Unit → ℕ := fun _ _ => 0
/-- What rides beside the buffers through every segment: the generator register at some state, and nothing owed. -/
abbrev Rd (c : Dev nD) : sProp 𝕄 := iprop((∃ r, prngReg c r) ∗ ∃ W, owes (c : Thread nD τ) (0 : CellTallies nD τ sig Unit) W)
/-- The host stretch as a segment over the unscoped references from the launch contents. -/
abbrev hseg0 : Pipeline.HostSeg (Name := ℕ) (U := Pipeline.UD sig nD τ) (pcfgs (F := F)) defs₀ 𝒱₀ Lv lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) Rd

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents. -/
abbrev Tn (c : Dev nD) : sProp 𝕄 := iprop(StableHlo.held (c : Thread nD τ) (Pipeline.ucRefs τ sig) (W3 m c) ∗ ∃ r, prngReg c r)

/-! ## The passes as segments -/

set_option backward.isDefEq.respectTransparency.types false in
/-- PASS 1: entered from every unscoped buffer at the contents after the host stretch, left at the contents with its
    two result arrays at what the write-backs left. -/
def reg0 : Pipeline.RegionSeg (pcfgs (F := F)) adm (pdats m) () defs₀ 𝒱₀ Lv lv 0 where
  win := winFacts₀0
  block_pos := block_pos0
  stage_whole := stage_whole0
  K := PEmpty
  osem k := k.elim
  ho := Pipeline.OwnSemFacts.none _
  hbody c := (body_obligation0 (VW1 m) c).loose
  hwaits := Pipeline.hwaits_of_owed_zero _ _ _ _ Lv lv 0 fun _ _ => rfl
  pre c := iprop(StableHlo.held (c : Thread nD τ) (Pipeline.ucRefs τ sig) (W1 m c) ∗ Rd c)
  post c := iprop(StableHlo.held (c : Thread nD τ) (Pipeline.ucRefs τ sig) (W2 m c) ∗ Rd c)
  X c := iprop(∃ r, prngReg c r)
  Y c := iprop(∃ r, prngReg c r)
  Z c := Pipeline.unscopedRest (Ix := Unit) (Name := ℕ) (U := Pipeline.UD sig nD τ) (Lvl := ℕ) spec0 c (VW1 m c)
  hentry c := by
    rw [Pipeline.ownSems0_none]
    have hsplit := enter0 (VW1 m) c (VW1 m c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit0 (VW1 m) c (VW2 m c)
    rw [Pipeline.unscopedBufs_held, ← hF0 m c, ← rest_congr0 m c] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- PASS 2: entered from the contents pass 1 left, left with the result array at what the write-backs left. -/
def reg1 : Pipeline.RegionSeg (pcfgs (F := F)) adm (pdats m) () defs₀ 𝒱₀ Lv lv 1 where
  win := winFacts₀1
  block_pos := block_pos1
  stage_whole := stage_whole1
  K := PEmpty
  osem k := k.elim
  ho := Pipeline.OwnSemFacts.none _
  hbody c := (body_obligation1 (VW2 m) c).loose
  hwaits := Pipeline.hwaits_of_owed_zero _ _ _ _ Lv lv 1 fun _ _ => rfl
  pre c := iprop(StableHlo.held (c : Thread nD τ) (Pipeline.ucRefs τ sig) (W2 m c) ∗ Rd c)
  post c := iprop(Tn m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec1 c (VW2 m c)
  hentry c := by
    rw [Pipeline.ownSems0_none]
    have hsplit := enter1 (VW2 m) c (VW2 m c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 (VW2 m) c (VW3 m c)
    rw [Pipeline.unscopedBufs_held, ← hF1 m c, ← rest_congr1 m c] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## The program as segments, and the launch -/

abbrev segsH : List (Pipeline.Seg (pcfgs (F := F)) adm (pdats m) () defs₀ 𝒱₀ Lv lv) :=
  [ .host (hseg0 m), .region (reg0 m), .region (reg1 m) ]

theorem main_run (c : Dev nD) : main (F := F) c = Pipeline.Seg.run (segsH m) := (main_chain c).trans (by chain_rfl)

set_option backward.isDefEq.respectTransparency.types false in
/-- THE RUN: from any memory with zero counters every weakly fair execution terminates, nothing faulting, with every
    unscoped buffer at the last boundary's contents. -/
theorem run_bufs : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj embL defs₀ 𝒱₀ Lv lv m ρ main (segsH m)
    (fun c Q => by rw [main_run m c])
    (by simp only [segsH, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rd c)) (Tₙ := Tn m)
    (hch := ⟨fun _ => .rfl, fun _ => .rfl, fun _ => .rfl, fun _ => .rfl⟩)
    (hinit := by
      refine Pipeline.initEach Lv lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- The arguments end as launched. -/
theorem W3_arg (c : Dev nD) (r : Ref sig .tc) (h5 : r ≠ main_v5) (h0 : r ≠ main_v4_0) (h1 : r ≠ main_v4_1) (hw : r ∉ hostOps0_W) :
    W3 m c r = m ((c : Thread nD τ).loc r) :=
  (W3_of_ne m c r h5).trans ((W2_of_ne m c r h0 h1).trans (W1_arg m c r hw))

/-- THE RUN, read at the result and the arguments. -/
theorem run_main : θ_run defs (onTc (τ := τ) (main (F := F))) ⟨m, fun _ => 0, ρ⟩ (fun r => ∀ c : Dev nD,
      r.2.mem ((c.tc : Thread nD τ).loc main_v5) = W3 m c main_v5
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨h c _ (mem_uc main_v5 (by decide)),
     (h c _ (mem_uc main_arg0 (by decide))).trans (W3_arg m c main_arg0 (by decide) (by decide) (by decide) (by decide)),
     (h c _ (mem_uc main_arg1 (by decide))).trans (W3_arg m c main_arg1 (by decide) (by decide) (by decide) (by decide)),
     (h c _ (mem_uc main_arg2 (by decide))).trans (W3_arg m c main_arg2 (by decide) (by decide) (by decide) (by decide)),
     (h c _ (mem_uc main_arg3 (by decide))).trans (W3_arg m c main_arg3 (by decide) (by decide) (by decide) (by decide)),
     (h c _ (mem_uc main_arg4 (by decide))).trans (W3_arg m c main_arg4 (by decide) (by decide) (by decide) (by decide)),
     (h c _ (mem_uc main_arg5 (by decide))).trans (W3_arg m c main_arg5 (by decide) (by decide) (by decide) (by decide)),
     (h c _ (mem_uc main_arg6 (by decide))).trans (W3_arg m c main_arg6 (by decide) (by decide) (by decide) (by decide)),
     (h c _ (mem_uc main_arg7 (by decide))).trans (W3_arg m c main_arg7 (by decide) (by decide) (by decide) (by decide))⟩)
    (run_bufs m ρ)

/-- THE FRAME: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => (h c).2) (run_main m ρ)

end Cert.KernelIdeal.Hand

end
-- ==== Proof.Spec.lean ====
/-
  The layer's result as ONE function of its eight argument arrays, entry by entry, on the extended reals.

  With A the 10000x10000 adjacency matrix, X the 10000x128 features, W and W' the two convolution weights, and
  (W1, b1), (W2, b2) the two linear maps of the self branch (weights stored output-major, as a linear layer does):
    conv1  = max((A . X) . W, 0)
    conv2  = (A . conv1) . W'
    self   = max(X . W1^T + b1, 0) . W2^T + b2
  and the result is the three side by side: columns 0..127 self, 128..255 conv1, 256..383 conv2. Every product of
  matrices is the plain finite sum over the contracted index, in the operands' order; nothing here needs a law beyond
  that, so no entry is assumed finite.
-/
import Idealize.ShloMosaic.PureOps.Ideal
import Idealize.ShloMosaic.Lib.ValueIdx

noncomputable section

namespace Cert.Spec

open Idealize.ShloMosaic Idealize.ShloMosaic.ValueIdx

abbrev ShAdj : Shape := ⟨2, ![10000, 10000]⟩
abbrev ShFeat : Shape := ⟨2, ![10000, 128]⟩
abbrev ShWt : Shape := ⟨2, ![128, 128]⟩
abbrev ShBias : Shape := ⟨1, ![128]⟩
abbrev ShOut : Shape := ⟨2, ![10000, 384]⟩

/-- Row p, column q of (A . X) . W, clipped below at 0: the first graph convolution. -/
def conv1 (adj : ShAdj.Idx → EReal) (x : ShFeat.Idx → EReal) (w : ShWt.Idx → EReal) (p : Fin 10000) (q : Fin 128) : EReal :=
  max (∑ k : Fin 128, (∑ l : Fin 10000, adj (ix2 p l) * x (ix2 l k)) * w (ix2 k q)) 0

/-- Row p, column q of (A . C) . W' for any 10000x128 matrix C given entry by entry: the second graph convolution
    when C is the first. -/
def conv2 (adj : ShAdj.Idx → EReal) (c1 : Fin 10000 → Fin 128 → EReal) (w2 : ShWt.Idx → EReal) (p : Fin 10000) (q : Fin 128) : EReal :=
  ∑ k : Fin 128, (∑ l : Fin 10000, adj (ix2 p l) * c1 l k) * w2 (ix2 k q)

/-- Row p, column q of max(X . W1^T + b1, 0) . W2^T + b2: the self branch. The weights are read transposed: entry
    (k, l) of W1 multiplies feature l into hidden unit k, entry (q, k) of W2 multiplies hidden unit k into output q. -/
def selfOut (x : ShFeat.Idx → EReal) (W1 : ShWt.Idx → EReal) (b1 : ShBias.Idx → EReal) (W2 : ShWt.Idx → EReal)
    (b2 : ShBias.Idx → EReal) (p : Fin 10000) (q : Fin 128) : EReal :=
  (∑ k : Fin 128, max ((∑ l : Fin 128, x (ix2 p l) * W1 (ix2 k l)) + b1 (ix1 k)) 0 * W2 (ix2 q k)) + b2 (ix1 q)

abbrev ShRow : Shape := ⟨2, ![1, 128]⟩

/-- The self branch as the kernel computes it, from the weights ALREADY transposed (entry (l, k) of W1^T, entry (k, q) of
    W2^T) and the biases as 1x128 rows. -/
def selfOutT (x : ShFeat.Idx → EReal) (w1t : ShWt.Idx → EReal) (b1r : ShRow.Idx → EReal) (w2t : ShWt.Idx → EReal)
    (b2r : ShRow.Idx → EReal) (p : Fin 10000) (q : Fin 128) : EReal :=
  (∑ k : Fin 128, max ((∑ l : Fin 128, x (ix2 p l) * w1t (ix2 l k)) + b1r (ix2 0 k)) 0 * w2t (ix2 k q)) + b2r (ix2 0 q)

/-- Three 10000x128 matrices side by side, entry (p, q) of the 10000x384 result. -/
def cat3 (s c1 c2 : Fin 10000 → Fin 128 → EReal) (p : Fin 10000) (q : Fin 384) : EReal :=
  if h : q.val < 128 then s p ⟨q.val, h⟩
  else if h2 : q.val < 256 then c1 p ⟨q.val - 128, by omega⟩
  else c2 p ⟨q.val - 256, by have := q.isLt; omega⟩

/-- The whole layer at entry (p, q). -/
def layerAt (adj : ShAdj.Idx → EReal) (x : ShFeat.Idx → EReal) (w w2 W1 : ShWt.Idx → EReal) (b1 : ShBias.Idx → EReal)
    (W2 : ShWt.Idx → EReal) (b2 : ShBias.Idx → EReal) (p : Fin 10000) (q : Fin 384) : EReal :=
  cat3 (selfOut x W1 b1 W2 b2) (conv1 adj x w) (conv2 adj (conv1 adj x w) w2) p q

/-- The whole layer as an array. -/
def layer (adj : ShAdj.Idx → EReal) (x : ShFeat.Idx → EReal) (w w2 W1 : ShWt.Idx → EReal) (b1 : ShBias.Idx → EReal)
    (W2 : ShWt.Idx → EReal) (b2 : ShBias.Idx → EReal) : ShOut.Idx → EReal :=
  fun j => layerAt adj x w w2 W1 b1 W2 b2 (j 0) (j 1)

end Cert.Spec

end
-- ==== Proof.KI.Value0.lean ====
/-
  Pass 1's two result arrays after its 25 write-backs, entry by entry, at any contents V the region is entered from:
  block t is rows 400 t .. 400 t + 399, and row r of the block is row 400 t + r of the whole product, since the
  block's rows of A are A's rows there and the contraction runs over the whole of X.
-/
import proofs.«119469_g5471788335182_cont_9to1c4b_211_2_alg».proof.Proof.Spec
import Idealize.ShloMosaic.Lib.Pipeline.Value
import Idealize.ShloMosaic.Lib.ValueIdx
import Idealize.ShloMosaic.Lib.ValueLayout
import Idealize.ShloMosaic.PureOps.Ideal.Laws
import proofs.«119469_g5471788335182_cont_9to1c4b_211_2_alg».proof.Proof.KI.Dat0Def

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

open Idealize.ShloMosaic.ValueIdx

variable (V : (c : Dev nD) → (b : Ref sig .tc) → Buf (Elt Ideal) ((c : Thread nD τ).loc b))

namespace P1

/-! ## The two matrix products read at an index

The stripe product contracts the stripe's 10000 columns against the feature matrix's 10000 rows; the weight product
contracts a 400x128 block's 128 columns against a 128x128 weight's rows. Each operand index is named coordinate by
coordinate, and the one-axis contraction index is its coordinate. -/

theorem lhs_stripe_0 (i : S400x128.Idx) (q : dot_S400x10000_S10000x128_S400x128_1_0_0_1_n_n.contr.Idx) :
    (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
theorem lhs_stripe_1 (i : S400x128.Idx) (q : dot_S400x10000_S10000x128_S400x128_1_0_0_1_n_n.contr.Idx) :
    (dot_S400x10000_S10000x128_S400x128_1_0_0_1_n_n.lhsIdx i q 1).val = (q ⟨0, by decide⟩).val :=
  dot_S400x10000_S10000x128_S400x128_1_0_0_1_n_n.lhsIdx_val_of_single rfl i q
theorem rhs_stripe_0 (i : S400x128.Idx) (q : dot_S400x10000_S10000x128_S400x128_1_0_0_1_n_n.contr.Idx) :
    (dot_S400x10000_S10000x128_S400x128_1_0_0_1_n_n.rhsIdx i q 0).val = (q ⟨0, by decide⟩).val :=
  dot_S400x10000_S10000x128_S400x128_1_0_0_1_n_n.rhsIdx_val_of_single rfl i q
theorem rhs_stripe_1 (i : S400x128.Idx) (q : dot_S400x10000_S10000x128_S400x128_1_0_0_1_n_n.contr.Idx) :
    (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

/-- Entry (r, k) of a 400x10000 stripe times a 10000x128 matrix, accumulated into zero. -/
theorem stripe_mm_apply (a : FVec Ideal S400x10000 .bf16) (x : FVec Ideal S10000x128 .bf16) (r : Fin 400) (k : Fin 128) :
    matmul dot_S400x10000_S10000x128_S400x128_1_0_0_1_n_n none a x (constant (F := Ideal) S400x128 .f32 0x00000000#32) (ix2 r k)
      = ∑ l : Fin 10000, a (ix2 r l) * x (ix2 l k) := by
  simp only [matmul]
  rw [Ideal.matmul_constant_zero_apply, ← Equiv.sum_comp (contrEquiv1 dot_S400x10000_S10000x128_S400x128_1_0_0_1_n_n 10000 rfl rfl).symm]
  refine Finset.sum_congr rfl fun l _ => ?_
  have hl := contrEquiv1_symm_val dot_S400x10000_S10000x128_S400x128_1_0_0_1_n_n 10000 rfl rfl l
  have el : dot_S400x10000_S10000x128_S400x128_1_0_0_1_n_n.lhsIdx (ix2 r k) ((contrEquiv1 dot_S400x10000_S10000x128_S400x128_1_0_0_1_n_n 10000 rfl rfl).symm l) = ix2 r l := funext fun a => Fin.ext (by
    match a with
    | ⟨0, _⟩ => exact lhs_stripe_0 _ _
    | ⟨1, _⟩ => exact (lhs_stripe_1 _ _).trans hl)
  have er : dot_S400x10000_S10000x128_S400x128_1_0_0_1_n_n.rhsIdx (ix2 r k) ((contrEquiv1 dot_S400x10000_S10000x128_S400x128_1_0_0_1_n_n 10000 rfl rfl).symm l) = ix2 l k := funext fun a => Fin.ext (by
    match a with
    | ⟨0, _⟩ => exact (rhs_stripe_0 _ _).trans hl
    | ⟨1, _⟩ => exact rhs_stripe_1 _ _)
  rw [el, er]

theorem lhs_wt_0 (i : S400x128.Idx) (q : dot_S400x128_S128x128_S400x128_1_0_0_1_n_n.contr.Idx) :
    (dot_S400x128_S128x128_S400x128_1_0_0_1_n_n.lhsIdx i q 0).val = (i 0).val := by
  unfold DotDims.lhsIdx
  rw [dif_neg (show ¬(0 : Fin S400x128.rank) ∈ dot_S400x128_S128x128_S400x128_1_0_0_1_n_n.lhsBatch by decide), dif_pos (show (0 : Fin S400x128.rank) ∈ dot_S400x128_S128x128_S400x128_1_0_0_1_n_n.lhsNonContracting by decide)]
  rfl
theorem lhs_wt_1 (i : S400x128.Idx) (q : dot_S400x128_S128x128_S400x128_1_0_0_1_n_n.contr.Idx) :
    (dot_S400x128_S128x128_S400x128_1_0_0_1_n_n.lhsIdx i q 1).val = (q ⟨0, by decide⟩).val :=
  dot_S400x128_S128x128_S400x128_1_0_0_1_n_n.lhsIdx_val_of_single rfl i q
theorem rhs_wt_0 (i : S400x128.Idx) (q : dot_S400x128_S128x128_S400x128_1_0_0_1_n_n.contr.Idx) :
    (dot_S400x128_S128x128_S400x128_1_0_0_1_n_n.rhsIdx i q 0).val = (q ⟨0, by decide⟩).val :=
  dot_S400x128_S128x128_S400x128_1_0_0_1_n_n.rhsIdx_val_of_single rfl i q
theorem rhs_wt_1 (i : S400x128.Idx) (q : dot_S400x128_S128x128_S400x128_1_0_0_1_n_n.contr.Idx) :
    (dot_S400x128_S128x128_S400x128_1_0_0_1_n_n.rhsIdx i q 1).val = (i 1).val := by
  unfold DotDims.rhsIdx
  rw [dif_neg (show ¬(1 : Fin S128x128.rank) ∈ dot_S400x128_S128x128_S400x128_1_0_0_1_n_n.rhsBatch by decide), dif_pos (show (1 : Fin S128x128.rank) ∈ dot_S400x128_S128x128_S400x128_1_0_0_1_n_n.rhsNonContracting by decide)]
  rfl

/-- Entry (r, q) of a 400x128 block times a 128x128 weight, accumulated into zero. -/
theorem wt_mm_apply (y : FVec Ideal S400x128 .f32) (w : FVec Ideal S128x128 .f32) (r : Fin 400) (q : Fin 128) :
    matmul dot_S400x128_S128x128_S400x128_1_0_0_1_n_n none y w (constant (F := Ideal) S400x128 .f32 0x00000000#32) (ix2 r q)
      = ∑ k : Fin 128, y (ix2 r k) * w (ix2 k q) := by
  simp only [matmul]
  rw [Ideal.matmul_constant_zero_apply, ← Equiv.sum_comp (contrEquiv1 dot_S400x128_S128x128_S400x128_1_0_0_1_n_n 128 rfl rfl).symm]
  refine Finset.sum_congr rfl fun k _ => ?_
  have hk := contrEquiv1_symm_val dot_S400x128_S128x128_S400x128_1_0_0_1_n_n 128 rfl rfl k
  have el : dot_S400x128_S128x128_S400x128_1_0_0_1_n_n.lhsIdx (ix2 r q) ((contrEquiv1 dot_S400x128_S128x128_S400x128_1_0_0_1_n_n 128 rfl rfl).symm k) = ix2 r k := funext fun a => Fin.ext (by
    match a with
    | ⟨0, _⟩ => exact lhs_wt_0 _ _
    | ⟨1, _⟩ => exact (lhs_wt_1 _ _).trans hk)
  have er : dot_S400x128_S128x128_S400x128_1_0_0_1_n_n.rhsIdx (ix2 r q) ((contrEquiv1 dot_S400x128_S128x128_S400x128_1_0_0_1_n_n 128 rfl rfl).symm k) = ix2 k q := funext fun a => Fin.ext (by
    match a with
    | ⟨0, _⟩ => exact (rhs_wt_0 _ _).trans hk
    | ⟨1, _⟩ => exact rhs_wt_1 _ _)
  rw [el, er]

/-! ## The two payloads at an index -/

/-- The first convolution's block at (r, q): max(((A_blk . X) . W)(r, q), 0). -/
theorem pay1_apply (v0 : Vec Ideal S400x10000 .f32) (v2 : Vec Ideal S10000x128 .f32) (v5 : Vec Ideal S128x128 .f32)
    (r : Fin 400) (q : Fin 128) :
    k0_pay1 (F := Ideal) v0 v2 v5 (ix2 r q)
      = max (∑ k : Fin 128, (∑ l : Fin 10000, v0 (ix2 r l) * v2 (ix2 l k)) * v5 (ix2 k q)) 0 := by
  unfold k0_pay1
  rw [maximumf_apply, broadcast_apply, wt_mm_apply]
  have hz : (Scalar.ofBits (F := Ideal) .f32 0x00000000#32 : Ideal .f32) = 0 := Ideal.ofBits_zero_f32
  rw [hz]
  refine congrArg (fun s => max s (0 : EReal)) (Finset.sum_congr rfl fun k _ => ?_)
  rw [stripe_mm_apply]
  rfl

/-- The second payload at (r, q): the self branch's block from the transposed weights and the bias rows. -/
theorem pay2_apply (v10 : Vec Ideal S400x128 .f32) (v11 : Vec Ideal S128x128 .f32) (v14 : Vec Ideal S1x128 .f32)
    (v20 : Vec Ideal S128x128 .f32) (v23 : Vec Ideal S1x128 .f32) (r : Fin 400) (q : Fin 128) :
    k0_pay2 (F := Ideal) v10 v11 v14 v20 v23 (ix2 r q)
      = (∑ k : Fin 128, max ((∑ l : Fin 128, v10 (ix2 r l) * v11 (ix2 l k)) + v14 (ix2 (0 : Fin 1) k)) 0 * v20 (ix2 k q))
          + v23 (ix2 (0 : Fin 1) q) := by
  unfold k0_pay2
  simp only [shapeCast_self]
  rw [addf_apply, wt_mm_apply, broadcastTo_1b_ab_apply]
  have hz : (Scalar.ofBits (F := Ideal) .f32 0x00000000#32 : Ideal .f32) = 0 := Ideal.ofBits_zero_f32
  refine congrArg (fun s => s + v23 (ix2 (0 : Fin 1) q)) (Finset.sum_congr rfl fun k _ => ?_)
  rw [maximumf_apply, addf_apply, wt_mm_apply, broadcastTo_1b_ab_apply, broadcast_apply, hz]

/-! ## What the body leaves in the two output buffers, at an index -/

theorem hz2 : (![0, 0] : Fin 2 → Nat) = fun _ => 0 := funext fun a => by fin_cases a <;> rfl

theorem out8_apply (x0 : Vec Ideal S400x10000 .f32) (x1 : Vec Ideal S10000x128 .f32) (x3 : Vec Ideal S128x128 .f32)
    (r : Fin 400) (q : Fin 128) :
    out0_8 (F := Ideal) x0 x1 x3 (ix2 r q)
      = max (∑ k : Fin 128, (∑ l : Fin 10000, x0 (ix2 r l) * x1 (ix2 l k)) * x3 (ix2 k q)) 0 := by
  unfold out0_8
  rw [View.canon_unit_zero hz2]
  simp only [View.ld_unit_zero (S := S400x10000) hz2, View.ld_unit_zero (S := S10000x128) hz2, View.ld_unit_zero (S := S128x128) hz2]
  exact pay1_apply x0 x1 x3 r q

theorem out9_apply (x2 : Vec Ideal S400x128 .f32) (x4 : Vec Ideal S128x128 .f32) (x5 : Vec Ideal S1x128 .f32)
    (x6 : Vec Ideal S128x128 .f32) (x7 : Vec Ideal S1x128 .f32) (r : Fin 400) (q : Fin 128) :
    out0_9 (F := Ideal) x2 x4 x5 x6 x7 (ix2 r q)
      = (∑ k : Fin 128, max ((∑ l : Fin 128, x2 (ix2 r l) * x4 (ix2 l k)) + x5 (ix2 (0 : Fin 1) k)) 0 * x6 (ix2 k q))
          + x7 (ix2 (0 : Fin 1) q) := by
  unfold out0_9
  rw [View.canon_unit_zero hz2]
  simp only [View.ld_unit_zero (S := S400x128) hz2, View.ld_unit_zero (S := S128x128) hz2, View.ld_unit_zero (S := S1x128) hz2]
  exact pay2_apply x2 x4 x5 x6 x7 r q

/-! ## The blocks as rows of the arrays

The block index of each window at each of the 25 grid points: the three striped windows (the adjacency stripe, the features' own
rows, and the two results) are at block row t, column block 0; every other window is the whole of its array. -/

theorem idx_rows0 : ∀ t : Fin cfg0.N,
    win0_0.index t (0 : Fin 2) = t.val ∧ win0_0.index t (1 : Fin 2) = 0
    ∧ win0_2.index t (0 : Fin 2) = t.val ∧ win0_2.index t (1 : Fin 2) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

theorem idx_whole0 : ∀ t : Fin cfg0.N,
    win0_1.index t (0 : Fin 2) = 0 ∧ win0_1.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

theorem N0 : cfg0.N = 25 := by decide

/-- Row r of the adjacency stripe at point t is row 400 t + r of the adjacency matrix. -/
theorem blk_adj (c : Dev nD) (t : Fin cfg0.N) (r : Fin 400) (l : Fin 10000) (p : Fin 10000) (hp : p.val = 400 * t.val + r.val) :
    (iblk0 V c 0 t : Vec Ideal S400x10000 .f32) (ix2 r l) = (V c main_arg0 : S10000x10000.Idx → EReal) (ix2 p l) := by
  obtain ⟨e0, e1, -⟩ := idx_rows0 t
  unfold iblk0
  rw [View.read_apply]
  show V c main_arg0 _ = V c main_arg0 _
  refine congrArg (V c main_arg0) (funext fun a => Fin.ext ?_)
  match a with
  | ⟨0, _⟩ => show win0_0.index t (0 : Fin 2) * 400 + 1 * r.val = p.val; rw [e0, hp]; omega
  | ⟨1, _⟩ => show win0_0.index t (1 : Fin 2) * 10000 + 1 * l.val = l.val; rw [e1]; omega

/-- Row r of the features' stripe at point t is row 400 t + r of the feature matrix. -/
theorem blk_featRows (c : Dev nD) (t : Fin cfg0.N) (r : Fin 400) (l : Fin 128) (p : Fin 10000) (hp : p.val = 400 * t.val + r.val) :
    (iblk0 V c 2 t : Vec Ideal S400x128 .f32) (ix2 r l) = (V c main_arg1 : S10000x128.Idx → EReal) (ix2 p l) := by
  obtain ⟨-, -, e0, e1, -⟩ := idx_rows0 t
  unfold iblk0
  rw [View.read_apply]
  show V c main_arg1 _ = V c main_arg1 _
  refine congrArg (V c main_arg1) (funext fun a => Fin.ext ?_)
  match a with
  | ⟨0, _⟩ => show win0_2.index t (0 : Fin 2) * 400 + 1 * r.val = p.val; rw [e0, hp]; omega
  | ⟨1, _⟩ => show win0_2.index t (1 : Fin 2) * 128 + 1 * l.val = l.val; rw [e1]; omega

/-- The whole-matrix window on the features holds the feature matrix at every point. -/
theorem blk_feat (c : Dev nD) (t : Fin cfg0.N) (y : S10000x128.Idx) :
    (iblk0 V c 1 t : Vec Ideal S10000x128 .f32) y = (V c main_arg1 : S10000x128.Idx → EReal) y := by
  obtain ⟨e0, e1, -⟩ := idx_whole0 t
  unfold iblk0
  rw [View.read_apply]
  show V c main_arg1 _ = V c main_arg1 _
  refine congrArg (V c main_arg1) (funext fun a => Fin.ext ?_)
  match a with
  | ⟨0, _⟩ => show win0_1.index t (0 : Fin 2) * 10000 + 1 * (y 0).val = (y 0).val; rw [e0]; omega
  | ⟨1, _⟩ => show win0_1.index t (1 : Fin 2) * 128 + 1 * (y 1).val = (y 1).val; rw [e1]; omega

/-- The first convolution's weight window holds the weight. -/
theorem blk_wt (c : Dev nD) (t : Fin cfg0.N) (y : S128x128.Idx) :
    (iblk0 V c 3 t : Vec Ideal S128x128 .f32) y = (V c main_arg2 : S128x128.Idx → EReal) y := by
  obtain ⟨-, -, e0, e1, -⟩ := idx_whole0 t
  unfold iblk0
  rw [View.read_apply]
  show V c main_arg2 _ = V c main_arg2 _
  refine congrArg (V c main_arg2) (funext fun a => Fin.ext ?_)
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

/-- The self branch's first transposed weight. -/
theorem blk_w1t (c : Dev nD) (t : Fin cfg0.N) (y : S128x128.Idx) :
    (iblk0 V c 4 t : Vec Ideal S128x128 .f32) y = (V c main_v2 : S128x128.Idx → EReal) y := by
  obtain ⟨-, -, -, -, e0, e1, -⟩ := idx_whole0 t
  unfold iblk0
  rw [View.read_apply]
  show V c main_v2 _ = V c main_v2 _
  refine congrArg (V c main_v2) (funext fun a => Fin.ext ?_)
  match a with
  | ⟨0, _⟩ => show win0_4.index t (0 : Fin 2) * 128 + 1 * (y 0).val = (y 0).val; rw [e0]; omega
  | ⟨1, _⟩ => show win0_4.index t (1 : Fin 2) * 128 + 1 * (y 1).val = (y 1).val; rw [e1]; omega

/-- Its first bias row. -/
theorem blk_b1 (c : Dev nD) (t : Fin cfg0.N) (y : S1x128.Idx) :
    (iblk0 V c 5 t : Vec Ideal S1x128 .f32) y = (V c main_v0 : S1x128.Idx → EReal) y := by
  obtain ⟨-, -, -, -, -, -, e0, e1, -⟩ := idx_whole0 t
  unfold iblk0
  rw [View.read_apply]
  show V c main_v0 _ = V c main_v0 _
  refine congrArg (V c main_v0) (funext fun a => Fin.ext ?_)
  match a with
  | ⟨0, _⟩ => show win0_5.index t (0 : Fin 2) * 1 + 1 * (y 0).val = (y 0).val; rw [e0]; omega
  | ⟨1, _⟩ => show win0_5.index t (1 : Fin 2) * 128 + 1 * (y 1).val = (y 1).val; rw [e1]; omega

/-- Its second transposed weight. -/
theorem blk_w2t (c : Dev nD) (t : Fin cfg0.N) (y : S128x128.Idx) :
    (iblk0 V c 6 t : Vec Ideal S128x128 .f32) y = (V c main_v3 : S128x128.Idx → EReal) y := by
  obtain ⟨-, -, -, -, -, -, -, -, e0, e1, -⟩ := idx_whole0 t
  unfold iblk0
  rw [View.read_apply]
  show V c main_v3 _ = V c main_v3 _
  refine congrArg (V c main_v3) (funext fun a => Fin.ext ?_)
  match a with
  | ⟨0, _⟩ => show win0_6.index t (0 : Fin 2) * 128 + 1 * (y 0).val = (y 0).val; rw [e0]; omega
  | ⟨1, _⟩ => show win0_6.index t (1 : Fin 2) * 128 + 1 * (y 1).val = (y 1).val; rw [e1]; omega

/-- Its second bias row. -/
theorem blk_b2 (c : Dev nD) (t : Fin cfg0.N) (y : S1x128.Idx) :
    (iblk0 V c 7 t : Vec Ideal S1x128 .f32) y = (V c main_v1 : S1x128.Idx → EReal) y := by
  obtain ⟨-, -, -, -, -, -, -, -, -, -, e0, e1⟩ := idx_whole0 t
  unfold iblk0
  rw [View.read_apply]
  show V c main_v1 _ = V c main_v1 _
  refine congrArg (V c main_v1) (funext fun a => Fin.ext ?_)
  match a with
  | ⟨0, _⟩ => show win0_7.index t (0 : Fin 2) * 1 + 1 * (y 0).val = (y 0).val; rw [e0]; omega
  | ⟨1, _⟩ => show win0_7.index t (1 : Fin 2) * 128 + 1 * (y 1).val = (y 1).val; rw [e1]; omega

/-! ## The first convolution's array -/

/-- The first convolution as an array of the entry contents. -/
def conv1Arr (A : S10000x10000.Idx → EReal) (X : S10000x128.Idx → EReal) (W : S128x128.Idx → EReal) : S10000x128.Idx → EReal :=
  fun j => Cert.Spec.conv1 A X W (j 0) (j 1)

/-- What point t writes back to the first result is rows 400 t .. 400 t + 399 of the first convolution. -/
theorem flushed8_eq (c : Dev nD) (t : Fin cfg0.N) :
    (dat0 (F := Ideal) V c).flushed 8 t
      = ((cfg0.win 8).blk t).view.read (Elt Ideal) (conv1Arr (V c main_arg0) (V c main_arg1) (V c main_arg2)) := by
  show (cfg0.win 8).cut (grid0.coords t) ((dat0 V c).after 8 t) = _
  rw [after0_8]
  obtain ⟨-, -, -, -, e0, e1, -⟩ := idx_rows0 t
  have hN := N0
  have ht := t.isLt
  funext y
  obtain ⟨r, q, rfl⟩ : ∃ (r : Fin 400) (q : Fin 128), y = ix2 r q := ⟨y 0, y 1, eq_ix2 y⟩
  have hb : 400 * t.val + r.val < 10000 := by have := r.isLt; omega
  have hemb : ((cfg0.win 8).blk t).view.emb (ix2 r q) = (ix2 (⟨400 * t.val + r.val, hb⟩ : Fin 10000) q : S10000x128.Idx) :=
    funext fun a => Fin.ext (by
      match a with
      | ⟨0, _⟩ => show win0_8.index t (0 : Fin 2) * 400 + 1 * r.val = 400 * t.val + r.val; rw [e0]; omega
      | ⟨1, _⟩ => show win0_8.index t (1 : Fin 2) * 128 + 1 * q.val = q.val; rw [e1]; omega)
  rw [View.read_apply, hemb]
  show out0_8 (iblk0 V c 0 t) (iblk0 V c 1 t) (iblk0 V c 3 t) (ix2 r q)
    = Cert.Spec.conv1 (V c main_arg0) (V c main_arg1) (V c main_arg2) ⟨400 * t.val + r.val, hb⟩ q
  refine (out8_apply (iblk0 V c 0 t) (iblk0 V c 1 t) (iblk0 V c 3 t) r q).trans ?_
  unfold Cert.Spec.conv1
  refine congrArg (fun s => max s (0 : EReal)) (Finset.sum_congr rfl fun k _ => ?_)
  rw [blk_wt V c t (ix2 k q)]
  refine congrArg (fun s => s * (V c main_arg2 : S128x128.Idx → EReal) (ix2 k q)) (Finset.sum_congr rfl fun l _ => ?_)
  rw [blk_adj V c t r l ⟨400 * t.val + r.val, hb⟩ rfl, blk_feat V c t (ix2 l k)]

/-- An index of the first result is in point t's block iff its coordinates are in the block's ranges. -/
theorem mem_blk8 (t : Fin cfg0.N) (i : S10000x128.Idx) :
    i ∈ ((cfg0.win 8).blk t).view.set ↔ ∀ a : Fin 2, win0_8.index t a * S400x128.size a ≤ (i a).val ∧ (i a).val < win0_8.index t a * S400x128.size a + S400x128.size a := by
  show i ∈ ((View.whole main_v4_0).slice (win0_8.rect t)).set ↔ _
  rw [View.set_slice_whole, Rect.mem_set_unit]
  exact Iff.rfl

/-- Row p of the first result lies in the block of point p / 400. -/
theorem cover8 (i : S10000x128.Idx) : ∃ t : Fin cfg0.N, (cfg0.win 8).flush t = true ∧ i ∈ ((cfg0.win 8).blk t).view.set := by
  have hN := N0
  have hi0 : (i 0).val < 10000 := (i 0).isLt
  have hi1 : (i 1).val < 128 := (i 1).isLt
  refine ⟨⟨(i 0).val / 400, by omega⟩, flush0_8 _, ?_⟩
  obtain ⟨-, -, -, -, e0, e1, -⟩ := idx_rows0 ⟨(i 0).val / 400, by omega⟩
  rw [mem_blk8]
  intro a
  match a with
  | ⟨0, _⟩ =>
    show win0_8.index ⟨(i 0).val / 400, _⟩ (0 : Fin 2) * 400 ≤ (i 0).val ∧ (i 0).val < win0_8.index ⟨(i 0).val / 400, _⟩ (0 : Fin 2) * 400 + 400
    rw [e0]; show (i 0).val / 400 * 400 ≤ (i 0).val ∧ (i 0).val < (i 0).val / 400 * 400 + 400; omega
  | ⟨1, _⟩ =>
    show win0_8.index ⟨(i 0).val / 400, _⟩ (1 : Fin 2) * 128 ≤ (i 1).val ∧ (i 1).val < win0_8.index ⟨(i 0).val / 400, _⟩ (1 : Fin 2) * 128 + 128
    rw [e1]; omega

/-- The first result after the 25 write-backs is the first convolution. -/
theorem final8 (c : Dev nD) :
    (dat0 (F := Ideal) V c).arrAt 8 cfg0.N = conv1Arr (V c main_arg0) (V c main_arg1) (V c main_arg2) :=
  (dat0 (F := Ideal) V c).arrAt_eq_of_cover 8 (conv1Arr (V c main_arg0) (V c main_arg1) (V c main_arg2))
    (fun t _ => flushed8_eq V c t) cover8

/-! ## The self branch's array -/

/-- The self branch as an array of the entry contents: the features, the transposed weights and the bias rows. -/
def selfArr (X : S10000x128.Idx → EReal) (W1t : S128x128.Idx → EReal) (b1 : S1x128.Idx → EReal)
    (W2t : S128x128.Idx → EReal) (b2 : S1x128.Idx → EReal) : S10000x128.Idx → EReal :=
  fun j => Cert.Spec.selfOutT X W1t b1 W2t b2 (j 0) (j 1)

/-- What point t writes back to the second result is rows 400 t .. 400 t + 399 of the self branch. -/
theorem flushed9_eq (c : Dev nD) (t : Fin cfg0.N) :
    (dat0 (F := Ideal) V c).flushed 9 t
      = ((cfg0.win 9).blk t).view.read (Elt Ideal)
          (selfArr (V c main_arg1) (V c main_v2) (V c main_v0) (V c main_v3) (V c main_v1)) := by
  show (cfg0.win 9).cut (grid0.coords t) ((dat0 V c).after 9 t) = _
  rw [after0_9]
  obtain ⟨-, -, -, -, -, -, e0, e1⟩ := idx_rows0 t
  have hN := N0
  have ht := t.isLt
  funext y
  obtain ⟨r, q, rfl⟩ : ∃ (r : Fin 400) (q : Fin 128), y = ix2 r q := ⟨y 0, y 1, eq_ix2 y⟩
  have hb : 400 * t.val + r.val < 10000 := by have := r.isLt; omega
  have hemb : ((cfg0.win 9).blk t).view.emb (ix2 r q) = (ix2 (⟨400 * t.val + r.val, hb⟩ : Fin 10000) q : S10000x128.Idx) :=
    funext fun a => Fin.ext (by
      match a with
      | ⟨0, _⟩ => show win0_9.index t (0 : Fin 2) * 400 + 1 * r.val = 400 * t.val + r.val; rw [e0]; omega
      | ⟨1, _⟩ => show win0_9.index t (1 : Fin 2) * 128 + 1 * q.val = q.val; rw [e1]; omega)
  rw [View.read_apply, hemb]
  show out0_9 (iblk0 V c 2 t) (iblk0 V c 4 t) (iblk0 V c 5 t) (iblk0 V c 6 t) (iblk0 V c 7 t) (ix2 r q)
    = Cert.Spec.selfOutT (V c main_arg1) (V c main_v2) (V c main_v0) (V c main_v3) (V c main_v1) ⟨400 * t.val + r.val, hb⟩ q
  refine (out9_apply (iblk0 V c 2 t) (iblk0 V c 4 t) (iblk0 V c 5 t) (iblk0 V c 6 t) (iblk0 V c 7 t) r q).trans ?_
  unfold Cert.Spec.selfOutT
  rw [blk_b2 V c t (ix2 (0 : Fin 1) q)]
  refine congrArg (fun s => s + (V c main_v1 : S1x128.Idx → EReal) (ix2 (0 : Fin 1) q)) (Finset.sum_congr rfl fun k _ => ?_)
  rw [blk_w2t V c t (ix2 k q), blk_b1 V c t (ix2 (0 : Fin 1) k)]
  refine congrArg (fun s => max (s + (V c main_v0 : S1x128.Idx → EReal) (ix2 (0 : Fin 1) k)) (0 : EReal) * (V c main_v3 : S128x128.Idx → EReal) (ix2 k q))
    (Finset.sum_congr rfl fun l _ => ?_)
  rw [blk_featRows V c t r l ⟨400 * t.val + r.val, hb⟩ rfl, blk_w1t V c t (ix2 l k)]

/-- An index of the second result is in point t's block iff its coordinates are in the block's ranges. -/
theorem mem_blk9 (t : Fin cfg0.N) (i : S10000x128.Idx) :
    i ∈ ((cfg0.win 9).blk t).view.set ↔ ∀ a : Fin 2, win0_9.index t a * S400x128.size a ≤ (i a).val ∧ (i a).val < win0_9.index t a * S400x128.size a + S400x128.size a := by
  show i ∈ ((View.whole main_v4_1).slice (win0_9.rect t)).set ↔ _
  rw [View.set_slice_whole, Rect.mem_set_unit]
  exact Iff.rfl

/-- Row p of the second result lies in the block of point p / 400. -/
theorem cover9 (i : S10000x128.Idx) : ∃ t : Fin cfg0.N, (cfg0.win 9).flush t = true ∧ i ∈ ((cfg0.win 9).blk t).view.set := by
  have hN := N0
  have hi0 : (i 0).val < 10000 := (i 0).isLt
  have hi1 : (i 1).val < 128 := (i 1).isLt
  refine ⟨⟨(i 0).val / 400, by omega⟩, flush0_9 _, ?_⟩
  obtain ⟨-, -, -, -, -, -, e0, e1⟩ := idx_rows0 ⟨(i 0).val / 400, by omega⟩
  rw [mem_blk9]
  intro a
  match a with
  | ⟨0, _⟩ =>
    show win0_9.index ⟨(i 0).val / 400, _⟩ (0 : Fin 2) * 400 ≤ (i 0).val ∧ (i 0).val < win0_9.index ⟨(i 0).val / 400, _⟩ (0 : Fin 2) * 400 + 400
    rw [e0]; show (i 0).val / 400 * 400 ≤ (i 0).val ∧ (i 0).val < (i 0).val / 400 * 400 + 400; omega
  | ⟨1, _⟩ =>
    show win0_9.index ⟨(i 0).val / 400, _⟩ (1 : Fin 2) * 128 ≤ (i 1).val ∧ (i 1).val < win0_9.index ⟨(i 0).val / 400, _⟩ (1 : Fin 2) * 128 + 128
    rw [e1]; omega

/-- The second result after the 25 write-backs is the self branch. -/
theorem final9 (c : Dev nD) :
    (dat0 (F := Ideal) V c).arrAt 9 cfg0.N = selfArr (V c main_arg1) (V c main_v2) (V c main_v0) (V c main_v3) (V c main_v1) :=
  (dat0 (F := Ideal) V c).arrAt_eq_of_cover 9 (selfArr (V c main_arg1) (V c main_v2) (V c main_v0) (V c main_v3) (V c main_v1))
    (fun t _ => flushed9_eq V c t) cover9

end P1

/-- The first convolution's array: entry (p, q) is max(((A . X) . W)(p, q), 0) of the entry contents. -/
theorem arr0_8 (c : Dev nD) (j : Cert.Spec.ShFeat.Idx) :
    (dat0 (F := Ideal) V c).arrAt 8 cfg0.N j = Cert.Spec.conv1 (V c main_arg0) (V c main_arg1) (V c main_arg2) (j 0) (j 1) := by
  rw [P1.final8 V c]
  rfl

/-- The self branch's array, from the transposed weights and the two bias rows. -/
theorem arr0_9 (c : Dev nD) (j : Cert.Spec.ShFeat.Idx) :
    (dat0 (F := Ideal) V c).arrAt 9 cfg0.N j
      = Cert.Spec.selfOutT (V c main_arg1) (V c main_v2) (V c main_v0) (V c main_v3) (V c main_v1) (j 0) (j 1) := by
  rw [P1.final9 V c]
  rfl

end Cert.KernelIdeal.Hand

end
-- ==== Proof.KI.Value1.lean ====
/-
  Pass 2's result array after its 25 write-backs, entry by entry, at any contents V the region is entered from: block
  t is rows 400 t .. 400 t + 399 of the 10000x384 result; its columns 0..127 are those rows of the self branch's
  array, 128..255 those rows of the first convolution's, 256..383 those rows of (A . C1) . W'.

  The steps: the body's two matrix products read at an entry as sums over the contracted axis; the three payloads at an
  entry; the output block as three column stripes of one function of the input blocks; each input block as rows of
  its array; the block point t writes back as block t of one array-sized function; the 25 blocks cover the array.
-/
import proofs.«119469_g5471788335182_cont_9to1c4b_211_2_alg».proof.Proof.Spec
import Idealize.ShloMosaic.Lib.Pipeline.Value
import Idealize.ShloMosaic.Lib.ValueIdx
import Idealize.ShloMosaic.Lib.ValueLayout
import Idealize.ShloMosaic.PureOps.Ideal.Laws
import proofs.«119469_g5471788335182_cont_9to1c4b_211_2_alg».proof.Proof.KI.Dat1Def

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

open Idealize.ShloMosaic.ValueIdx

/-! Everything up to the last theorem is auxiliary and lives in its own namespace. -/
namespace Val1

/-! ## The two matrix products of the body, read at an entry -/

theorem lhs_big_0 (i : S400x128.Idx) (q : dot_S400x10000_S10000x128_S400x128_1_0_0_1_n_n.contr.Idx) :
    (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
theorem lhs_big_1 (i : S400x128.Idx) (q : dot_S400x10000_S10000x128_S400x128_1_0_0_1_n_n.contr.Idx) :
    (dot_S400x10000_S10000x128_S400x128_1_0_0_1_n_n.lhsIdx i q 1).val = (q ⟨0, by decide⟩).val :=
  dot_S400x10000_S10000x128_S400x128_1_0_0_1_n_n.lhsIdx_val_of_single rfl i q
theorem rhs_big_0 (i : S400x128.Idx) (q : dot_S400x10000_S10000x128_S400x128_1_0_0_1_n_n.contr.Idx) :
    (dot_S400x10000_S10000x128_S400x128_1_0_0_1_n_n.rhsIdx i q 0).val = (q ⟨0, by decide⟩).val :=
  dot_S400x10000_S10000x128_S400x128_1_0_0_1_n_n.rhsIdx_val_of_single rfl i q
theorem rhs_big_1 (i : S400x128.Idx) (q : dot_S400x10000_S10000x128_S400x128_1_0_0_1_n_n.contr.Idx) :
    (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

/-- A 400x10000 block times a 10000x128 matrix into a zero accumulator, at entry (r, q): the sum over the 10000 columns. -/
theorem matmul_big_apply {φ₁ φ₂ : FTy} (a : FVec Ideal S400x10000 φ₁) (b : FVec Ideal S10000x128 φ₂) (r : Fin 400) (q : Fin 128) :
    matmul dot_S400x10000_S10000x128_S400x128_1_0_0_1_n_n none a b (constant (F := Ideal) S400x128 .f32 0x00000000#32) (ix2 r q)
      = ∑ l : Fin 10000, a (ix2 r l) * b (ix2 l q) := by
  show FloatOps.matmul dot_S400x10000_S10000x128_S400x128_1_0_0_1_n_n none a b (constant S400x128 .f32 0x00000000#32) (ix2 r q) = _
  rw [Ideal.matmul_constant_zero_apply, ← Equiv.sum_comp (contrEquiv1 dot_S400x10000_S10000x128_S400x128_1_0_0_1_n_n 10000 rfl rfl).symm]
  refine Finset.sum_congr rfl fun k _ => ?_
  have hk := contrEquiv1_symm_val dot_S400x10000_S10000x128_S400x128_1_0_0_1_n_n 10000 rfl rfl k
  have el : dot_S400x10000_S10000x128_S400x128_1_0_0_1_n_n.lhsIdx (ix2 r q) ((contrEquiv1 dot_S400x10000_S10000x128_S400x128_1_0_0_1_n_n 10000 rfl rfl).symm k) = ix2 r k := funext fun a => Fin.ext (by
    match a with
    | ⟨0, _⟩ => exact lhs_big_0 _ _
    | ⟨1, _⟩ => exact (lhs_big_1 _ _).trans hk)
  have er : dot_S400x10000_S10000x128_S400x128_1_0_0_1_n_n.rhsIdx (ix2 r q) ((contrEquiv1 dot_S400x10000_S10000x128_S400x128_1_0_0_1_n_n 10000 rfl rfl).symm k) = ix2 k q := funext fun a => Fin.ext (by
    match a with
    | ⟨0, _⟩ => exact (rhs_big_0 _ _).trans hk
    | ⟨1, _⟩ => exact rhs_big_1 _ _)
  rw [el, er]

theorem lhs_small_0 (i : S400x128.Idx) (q : dot_S400x128_S128x128_S400x128_1_0_0_1_n_n.contr.Idx) :
    (dot_S400x128_S128x128_S400x128_1_0_0_1_n_n.lhsIdx i q 0).val = (i 0).val := by
  unfold DotDims.lhsIdx
  rw [dif_neg (show ¬(0 : Fin S400x128.rank) ∈ dot_S400x128_S128x128_S400x128_1_0_0_1_n_n.lhsBatch by decide), dif_pos (show (0 : Fin S400x128.rank) ∈ dot_S400x128_S128x128_S400x128_1_0_0_1_n_n.lhsNonContracting by decide)]
  rfl
theorem lhs_small_1 (i : S400x128.Idx) (q : dot_S400x128_S128x128_S400x128_1_0_0_1_n_n.contr.Idx) :
    (dot_S400x128_S128x128_S400x128_1_0_0_1_n_n.lhsIdx i q 1).val = (q ⟨0, by decide⟩).val :=
  dot_S400x128_S128x128_S400x128_1_0_0_1_n_n.lhsIdx_val_of_single rfl i q
theorem rhs_small_0 (i : S400x128.Idx) (q : dot_S400x128_S128x128_S400x128_1_0_0_1_n_n.contr.Idx) :
    (dot_S400x128_S128x128_S400x128_1_0_0_1_n_n.rhsIdx i q 0).val = (q ⟨0, by decide⟩).val :=
  dot_S400x128_S128x128_S400x128_1_0_0_1_n_n.rhsIdx_val_of_single rfl i q
theorem rhs_small_1 (i : S400x128.Idx) (q : dot_S400x128_S128x128_S400x128_1_0_0_1_n_n.contr.Idx) :
    (dot_S400x128_S128x128_S400x128_1_0_0_1_n_n.rhsIdx i q 1).val = (i 1).val := by
  unfold DotDims.rhsIdx
  rw [dif_neg (show ¬(1 : Fin S128x128.rank) ∈ dot_S400x128_S128x128_S400x128_1_0_0_1_n_n.rhsBatch by decide), dif_pos (show (1 : Fin S128x128.rank) ∈ dot_S400x128_S128x128_S400x128_1_0_0_1_n_n.rhsNonContracting by decide)]
  rfl

/-- A 400x128 block times a 128x128 weight into a zero accumulator, at entry (r, q): the sum over the 128 hidden units. -/
theorem matmul_small_apply {φ₁ φ₂ : FTy} (a : FVec Ideal S400x128 φ₁) (b : FVec Ideal S128x128 φ₂) (r : Fin 400) (q : Fin 128) :
    matmul dot_S400x128_S128x128_S400x128_1_0_0_1_n_n none a b (constant (F := Ideal) S400x128 .f32 0x00000000#32) (ix2 r q)
      = ∑ k : Fin 128, a (ix2 r k) * b (ix2 k q) := by
  show FloatOps.matmul dot_S400x128_S128x128_S400x128_1_0_0_1_n_n none a b (constant S400x128 .f32 0x00000000#32) (ix2 r q) = _
  rw [Ideal.matmul_constant_zero_apply, ← Equiv.sum_comp (contrEquiv1 dot_S400x128_S128x128_S400x128_1_0_0_1_n_n 128 rfl rfl).symm]
  refine Finset.sum_congr rfl fun k _ => ?_
  have hk := contrEquiv1_symm_val dot_S400x128_S128x128_S400x128_1_0_0_1_n_n 128 rfl rfl k
  have el : dot_S400x128_S128x128_S400x128_1_0_0_1_n_n.lhsIdx (ix2 r q) ((contrEquiv1 dot_S400x128_S128x128_S400x128_1_0_0_1_n_n 128 rfl rfl).symm k) = ix2 r k := funext fun a => Fin.ext (by
    match a with
    | ⟨0, _⟩ => exact lhs_small_0 _ _
    | ⟨1, _⟩ => exact (lhs_small_1 _ _).trans hk)
  have er : dot_S400x128_S128x128_S400x128_1_0_0_1_n_n.rhsIdx (ix2 r q) ((contrEquiv1 dot_S400x128_S128x128_S400x128_1_0_0_1_n_n 128 rfl rfl).symm k) = ix2 k q := funext fun a => Fin.ext (by
    match a with
    | ⟨0, _⟩ => exact (rhs_small_0 _ _).trans hk
    | ⟨1, _⟩ => exact rhs_small_1 _ _)
  rw [el, er]

/-! ## The three payloads at an entry -/

/-- The second convolution's payload at (r, q): (A_blk . C) . W'. -/
theorem pay1_apply (x0 : Vec Ideal S400x10000 .f32) (x1 : Vec Ideal S10000x128 .f32) (x4 : Vec Ideal S128x128 .f32) (r : Fin 400) (q : Fin 128) :
    k1_pay1 (F := Ideal) x0 x1 x4 (ix2 r q) = ∑ k : Fin 128, (∑ l : Fin 10000, x0 (ix2 r l) * x1 (ix2 l k)) * x4 (ix2 k q) := by
  unfold k1_pay1
  rw [matmul_small_apply]
  refine Finset.sum_congr rfl fun k _ => ?_
  rw [matmul_big_apply, shapeCast_self]
  rfl

/-- The two copied blocks: the cast to the same shape changes nothing. -/
theorem pay2_eq (x : Vec Ideal S400x128 .f32) : k1_pay2 (F := Ideal) x = x := by
  unfold k1_pay2; exact shapeCast_self _ _
theorem pay3_eq (x : Vec Ideal S400x128 .f32) : k1_pay3 (F := Ideal) x = x := by
  unfold k1_pay3; exact shapeCast_self _ _

theorem hz2 : (![0, 0] : Fin 2 → Nat) = fun _ => 0 := funext fun a => by fin_cases a <;> rfl

/-! ## The 400x384 block the body leaves, entry by entry -/

/-- Three 400x128 blocks side by side, entry y of the 400x384 block. -/
def cols3 (s c1 c2 : Fin 400 → Fin 128 → EReal) (y : S400x384.Idx) : EReal :=
  if h : (y 1).val < 128 then s (y 0) ⟨(y 1).val, h⟩
  else if h2 : (y 1).val < 256 then c1 (y 0) ⟨(y 1).val - 128, by omega⟩
  else c2 (y 0) ⟨(y 1).val - 256, by have := idx2_lt1 y; omega⟩

theorem cols3_col0 (s c1 c2 : Fin 400 → Fin 128 → EReal) (r : Fin 400) (q : Fin 128) :
    cols3 s c1 c2 (rCol0.emb (ix2 r q)) = s r q := by
  have h0 : (rCol0.emb (ix2 r q)) 0 = r := Fin.ext (by show 0 + 1 * r.val = r.val; omega)
  have h1 : ((rCol0.emb (ix2 r q)) 1).val = q.val := by show 0 + 1 * q.val = q.val; omega
  have hq : q.val < 128 := q.isLt
  unfold cols3
  rw [dif_pos (by rw [h1]; exact hq), h0]
  exact congrArg (s r) (Fin.ext h1)

theorem cols3_col1 (s c1 c2 : Fin 400 → Fin 128 → EReal) (r : Fin 400) (q : Fin 128) :
    cols3 s c1 c2 (rCol1.emb (ix2 r q)) = c1 r q := by
  have h0 : (rCol1.emb (ix2 r q)) 0 = r := Fin.ext (by show 0 + 1 * r.val = r.val; omega)
  have h1 : ((rCol1.emb (ix2 r q)) 1).val = 128 + q.val := by show 128 + 1 * q.val = 128 + q.val; omega
  have hq : q.val < 128 := q.isLt
  unfold cols3
  rw [dif_neg (by rw [h1]; omega), dif_pos (by rw [h1]; omega), h0]
  exact congrArg (c1 r) (Fin.ext (by show ((rCol1.emb (ix2 r q)) 1).val - 128 = q.val; rw [h1]; omega))

theorem cols3_col2 (s c1 c2 : Fin 400 → Fin 128 → EReal) (r : Fin 400) (q : Fin 128) :
    cols3 s c1 c2 (rCol2.emb (ix2 r q)) = c2 r q := by
  have h0 : (rCol2.emb (ix2 r q)) 0 = r := Fin.ext (by show 0 + 1 * r.val = r.val; omega)
  have h1 : ((rCol2.emb (ix2 r q)) 1).val = 256 + q.val := by show 256 + 1 * q.val = 256 + q.val; omega
  have hq : q.val < 128 := q.isLt
  unfold cols3
  rw [dif_neg (by rw [h1]; omega), dif_neg (by rw [h1]; omega), h0]
  exact congrArg (c2 r) (Fin.ext (by show ((rCol2.emb (ix2 r q)) 1).val - 256 = q.val; rw [h1]; omega))

/-- The body's output block at an entry: the self branch's rows, the first convolution's rows, (A_blk . C) . W'. -/
theorem out1_5_apply (x0 : Vec Ideal S400x10000 .f32) (x1 : Vec Ideal S10000x128 .f32) (x2 x3 : Vec Ideal S400x128 .f32)
    (x4 : Vec Ideal S128x128 .f32) (y : S400x384.Idx) :
    out1_5 (F := Ideal) x0 x1 x2 x3 x4 y
      = cols3 (fun r q => x3 (ix2 r q)) (fun r q => x2 (ix2 r q))
          (fun r q => ∑ k : Fin 128, (∑ l : Fin 10000, x0 (ix2 r l) * x1 (ix2 l k)) * x4 (ix2 k q)) y := by
  unfold out1_5
  refine View.canon_apply_of_pieces _ _ ?_ y (cover_cols _ _ _ y)
  intro p hp x
  simp only [List.mem_cons, List.not_mem_nil, or_false] at hp
  rcases hp with rfl | rfl | rfl
  · obtain ⟨r, q, rfl⟩ : ∃ (r : Fin 400) (q : Fin 128), x = ix2 r q := ⟨x 0, x 1, eq_ix2 x⟩
    rw [cols3_col2]
    simp only [View.ld_unit_zero (S := S400x10000) hz2, View.ld_unit_zero (S := S10000x128) hz2, View.ld_unit_zero (S := S128x128) hz2]
    exact pay1_apply x0 x1 x4 r q
  · obtain ⟨r, q, rfl⟩ : ∃ (r : Fin 400) (q : Fin 128), x = ix2 r q := ⟨x 0, x 1, eq_ix2 x⟩
    rw [cols3_col1]
    simp only [View.ld_unit_zero (S := S400x128) hz2]
    rw [pay3_eq]
  · obtain ⟨r, q, rfl⟩ : ∃ (r : Fin 400) (q : Fin 128), x = ix2 r q := ⟨x 0, x 1, eq_ix2 x⟩
    rw [cols3_col0]
    simp only [View.ld_unit_zero (S := S400x128) hz2]
    rw [pay2_eq]

/-! ## The input blocks as rows of their arrays -/

variable (V : (c : Dev nD) → (b : Ref sig .tc) → Buf (Elt Ideal) ((c : Thread nD τ).loc b))

/-- The printed index maps, decided once over the 25 grid points: the row-stripe windows sit at block row t, column
    block 0; the whole-matrix windows at block (0, 0). -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The adjacency stripe at point t: rows 400 t .. 400 t + 399 of the adjacency matrix. -/
theorem iblk1_0_apply (c : Dev nD) (t : Fin cfg1.N) (x : S400x10000.Idx) (k : S10000x10000.Idx)
    (hk0 : (k 0).val = 400 * t.val + (x 0).val) (hk1 : (k 1).val = (x 1).val) :
    (iblk1 V c 0 t : Vec Ideal S400x10000 .f32) x = V c main_arg0 k := by
  obtain ⟨e0, e1, -⟩ := idx_facts1 t
  unfold iblk1
  rw [View.read_apply]
  show V c main_arg0 _ = V c main_arg0 k
  congr 1
  funext a
  apply Fin.ext
  match a with
  | ⟨0, _⟩ => show win1_0.index t (0 : Fin 2) * 400 + 1 * (x 0).val = (k 0).val; rw [e0, hk0]; omega
  | ⟨1, _⟩ => show win1_0.index t (1 : Fin 2) * 10000 + 1 * (x 1).val = (k 1).val; rw [e1, hk1]; omega

/-- The whole first convolution, at every point. -/
theorem iblk1_1_apply (c : Dev nD) (t : Fin cfg1.N) (x : S10000x128.Idx) :
    (iblk1 V c 1 t : Vec Ideal S10000x128 .f32) x = V c main_v4_0 x := by
  obtain ⟨-, -, e0, e1, -⟩ := idx_facts1 t
  unfold iblk1
  rw [View.read_apply]
  show V c main_v4_0 _ = V c main_v4_0 x
  congr 1
  funext a
  apply Fin.ext
  match a with
  | ⟨0, _⟩ => show win1_1.index t (0 : Fin 2) * 10000 + 1 * (x 0).val = (x 0).val; rw [e0]; omega
  | ⟨1, _⟩ => show win1_1.index t (1 : Fin 2) * 128 + 1 * (x 1).val = (x 1).val; rw [e1]; omega

/-- The first convolution's rows 400 t .. 400 t + 399. -/
theorem iblk1_2_apply (c : Dev nD) (t : Fin cfg1.N) (x : S400x128.Idx) (k : S10000x128.Idx)
    (hk0 : (k 0).val = 400 * t.val + (x 0).val) (hk1 : (k 1).val = (x 1).val) :
    (iblk1 V c 2 t : Vec Ideal S400x128 .f32) x = V c main_v4_0 k := by
  obtain ⟨-, -, -, -, e0, e1, -⟩ := idx_facts1 t
  unfold iblk1
  rw [View.read_apply]
  show V c main_v4_0 _ = V c main_v4_0 k
  congr 1
  funext a
  apply Fin.ext
  match a with
  | ⟨0, _⟩ => show win1_2.index t (0 : Fin 2) * 400 + 1 * (x 0).val = (k 0).val; rw [e0, hk0]; omega
  | ⟨1, _⟩ => show win1_2.index t (1 : Fin 2) * 128 + 1 * (x 1).val = (k 1).val; rw [e1, hk1]; omega

/-- The self branch's rows 400 t .. 400 t + 399. -/
theorem iblk1_3_apply (c : Dev nD) (t : Fin cfg1.N) (x : S400x128.Idx) (k : S10000x128.Idx)
    (hk0 : (k 0).val = 400 * t.val + (x 0).val) (hk1 : (k 1).val = (x 1).val) :
    (iblk1 V c 3 t : Vec Ideal S400x128 .f32) x = V c main_v4_1 k := by
  obtain ⟨-, -, -, -, -, -, e0, e1, -⟩ := idx_facts1 t
  unfold iblk1
  rw [View.read_apply]
  show V c main_v4_1 _ = V c main_v4_1 k
  congr 1
  funext a
  apply Fin.ext
  match a with
  | ⟨0, _⟩ => show win1_3.index t (0 : Fin 2) * 400 + 1 * (x 0).val = (k 0).val; rw [e0, hk0]; omega
  | ⟨1, _⟩ => show win1_3.index t (1 : Fin 2) * 128 + 1 * (x 1).val = (k 1).val; rw [e1, hk1]; omega

/-- The whole second weight, at every point. -/
theorem iblk1_4_apply (c : Dev nD) (t : Fin cfg1.N) (x : S128x128.Idx) :
    (iblk1 V c 4 t : Vec Ideal S128x128 .f32) x = V c main_arg3 x := by
  obtain ⟨-, -, -, -, -, -, -, -, e0, e1, -⟩ := idx_facts1 t
  unfold iblk1
  rw [View.read_apply]
  show V c main_arg3 _ = V c main_arg3 x
  congr 1
  funext a
  apply Fin.ext
  match a with
  | ⟨0, _⟩ => show win1_4.index t (0 : Fin 2) * 128 + 1 * (x 0).val = (x 0).val; rw [e0]; omega
  | ⟨1, _⟩ => show win1_4.index t (1 : Fin 2) * 128 + 1 * (x 1).val = (x 1).val; rw [e1]; omega

/-! ## From the blocks to the array -/

/-- Side by side at the array's size and at the block's: the same three-way split on the column, when the block's
    row r is the array's row p. -/
theorem cat3_of_cols3 (S C1 C2 : Fin 10000 → Fin 128 → EReal) (s c1 c2 : Fin 400 → Fin 128 → EReal) (p : Fin 10000)
    (qq : Fin 384) (y : S400x384.Idx) (hq : qq.val = (y 1).val)
    (hs : ∀ q, s (y 0) q = S p q) (h1 : ∀ q, c1 (y 0) q = C1 p q) (h2 : ∀ q, c2 (y 0) q = C2 p q) :
    cols3 s c1 c2 y = Cert.Spec.cat3 S C1 C2 p qq := by
  unfold cols3 Cert.Spec.cat3
  by_cases ha : (y 1).val < 128
  · rw [dif_pos ha, dif_pos (show qq.val < 128 by omega), hs]
    exact congrArg (S p) (Fin.ext hq.symm)
  · rw [dif_neg ha, dif_neg (show ¬ qq.val < 128 by omega)]
    by_cases hb : (y 1).val < 256
    · rw [dif_pos hb, dif_pos (show qq.val < 256 by omega), h1]
      exact congrArg (C1 p) (Fin.ext (by show (y 1).val - 128 = qq.val - 128; omega))
    · rw [dif_neg hb, dif_neg (show ¬ qq.val < 256 by omega), h2]
      exact congrArg (C2 p) (Fin.ext (by show (y 1).val - 256 = qq.val - 256; omega))

/-- What the result array ends holding: the self branch, the first convolution and the second side by side. -/
abbrev G1 (c : Dev nD) : S10000x384.Idx → Elt Ideal .f32 := fun i =>
  Cert.Spec.cat3 (fun p q => V c main_v4_1 (ix2 p q)) (fun p q => V c main_v4_0 (ix2 p q))
    (Cert.Spec.conv2 (V c main_arg0) (fun p q => V c main_v4_0 (ix2 p q)) (V c main_arg3)) (i 0) (i 1)

/-- WHAT POINT t WRITES BACK is block t of that array. -/
theorem flushed1_5_eq (c : Dev nD) (t : Fin cfg1.N) :
    (dat1 (F := Ideal) V c).flushed 5 t = ((cfg1.win 5).blk t).view.read (Elt Ideal) (G1 V c) := by
  show (cfg1.win 5).cut (grid1.coords t) ((dat1 (F := Ideal) V c).after 5 t) = _
  rw [after1_5]
  obtain ⟨-, -, -, -, -, -, -, -, -, -, e0, e1⟩ := idx_facts1 t
  funext y
  show out1_5 (iblk1 V c 0 t) (iblk1 V c 1 t) (iblk1 V c 2 t) (iblk1 V c 3 t) (iblk1 V c 4 t) y
      = G1 V c (((cfg1.win 5).blk t).view.emb y)
  rw [out1_5_apply]
  have hp : ((((cfg1.win 5).blk t).view.emb y) 0).val = 400 * t.val + (y 0).val := by
    show win1_5.index t (0 : Fin 2) * 400 + 1 * (y 0).val = _; rw [e0]; omega
  have hq : ((((cfg1.win 5).blk t).view.emb y) 1).val = (y 1).val := by
    show win1_5.index t (1 : Fin 2) * 384 + 1 * (y 1).val = _; rw [e1]; omega
  refine cat3_of_cols3 _ _ _ _ _ _ _ _ y hq (fun q => ?_) (fun q => ?_) (fun q => ?_)
  · exact iblk1_3_apply V c t (ix2 (y 0) q) _ hp rfl
  · exact iblk1_2_apply V c t (ix2 (y 0) q) _ hp rfl
  · unfold Cert.Spec.conv2
    refine Finset.sum_congr rfl fun k _ => ?_
    rw [iblk1_4_apply V c t (ix2 k q)]
    refine congrArg (· * V c main_arg3 (ix2 k q)) (Finset.sum_congr rfl fun l _ => ?_)
    rw [iblk1_1_apply V c t (ix2 l k), iblk1_0_apply V c t (ix2 (y 0) l) (ix2 ((((cfg1.win 5).blk t).view.emb y) 0) l) hp rfl]

/-- An index of the result is in point t's block iff each coordinate is in the block's range on its axis. -/
theorem mem_blk1_5 (t : Fin cfg1.N) (i : S10000x384.Idx) :
    i ∈ ((cfg1.win 5).blk t).view.set ↔ ∀ a : Fin 2, win1_5.index t a * S400x384.size a ≤ (i a).val ∧ (i a).val < win1_5.index t a * S400x384.size a + S400x384.size a := by
  show i ∈ ((View.whole main_v5).slice (win1_5.rect t)).set ↔ _
  rw [View.set_slice_whole, Rect.mem_set_unit]
  exact Iff.rfl

/-- Row p of the result lies in the block of point p / 400. -/
theorem cover1_5 (i : S10000x384.Idx) :
    ∃ t : Fin cfg1.N, (cfg1.win 5).flush t = true ∧ i ∈ ((cfg1.win 5).blk t).view.set := by
  have hi0 : (i 0).val < 10000 := idx2_lt0 i
  have hi1 : (i 1).val < 384 := idx2_lt1 i
  have hN : cfg1.N = 25 := rfl
  let t : Fin cfg1.N := ⟨(i 0).val / 400, by rw [hN]; omega⟩
  have ht : t.val = (i 0).val / 400 := rfl
  obtain ⟨-, -, -, -, -, -, -, -, -, -, e0, e1⟩ := idx_facts1 t
  refine ⟨t, flush1_5 t, ?_⟩
  rw [mem_blk1_5]
  intro a
  match a with
  | ⟨0, _⟩ => show win1_5.index t (0 : Fin 2) * 400 ≤ (i 0).val ∧ (i 0).val < win1_5.index t (0 : Fin 2) * 400 + 400; rw [e0, ht]; omega
  | ⟨1, _⟩ => show win1_5.index t (1 : Fin 2) * 384 ≤ (i 1).val ∧ (i 1).val < win1_5.index t (1 : Fin 2) * 384 + 384; rw [e1]; omega

end Val1

open Val1

variable (V : (c : Dev nD) → (b : Ref sig .tc) → Buf (Elt Ideal) ((c : Thread nD τ).loc b))

/-- Pass 2's result array, entry by entry. -/
theorem arr1_5 (c : Dev nD) (j : Cert.Spec.ShOut.Idx) :
    (dat1 (F := Ideal) V c).arrAt 5 cfg1.N j
      = Cert.Spec.cat3 (fun p q => V c main_v4_1 (ix2 p q)) (fun p q => V c main_v4_0 (ix2 p q))
          (Cert.Spec.conv2 (V c main_arg0) (fun p q => V c main_v4_0 (ix2 p q)) (V c main_arg3)) (j 0) (j 1) :=
  congrFun ((dat1 (F := Ideal) V c).arrAt_eq_of_cover 5 (G1 V c) (fun t _ => flushed1_5_eq V c t) cover1_5) j

end Cert.KernelIdeal.Hand

end
-- ==== Proof.KI.Value.lean ====
/-
  The idealized kernel's result array is the layer's specification of the launch contents: pass 2's write-backs tile
  the 10000x384 result by 25 row blocks of 400, each block the three column stripes of that block's rows; the first
  convolution and the self branch it reads are pass 1's write-backs, 25 row blocks of 400 each; a block's rows of a
  matrix product are the products of the block's rows.
-/
import proofs.«119469_g5471788335182_cont_9to1c4b_211_2_alg».proof.Proof.KI.Vals
import proofs.«119469_g5471788335182_cont_9to1c4b_211_2_alg».proof.Proof.KI.Value0
import proofs.«119469_g5471788335182_cont_9to1c4b_211_2_alg».proof.Proof.KI.Value1
import proofs.«119469_g5471788335182_cont_9to1c4b_211_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

namespace Assembly

open Idealize.ShloMosaic.ValueIdx

/-! ## The self branch from transposed weights and bias rows is the self branch -/

/-- Reading the weights through their transposes and the biases through their 1x128 rows gives back the self branch
    as specified: entry (l, k) of a transpose is entry (k, l), entry (0, k) of the row is entry k. -/
theorem selfOutT_of_transposes (x : Cert.Spec.ShFeat.Idx → EReal) (W1 : Cert.Spec.ShWt.Idx → EReal) (b1 : Cert.Spec.ShBias.Idx → EReal)
    (W2 : Cert.Spec.ShWt.Idx → EReal) (b2 : Cert.Spec.ShBias.Idx → EReal) (p : Fin 10000) (q : Fin 128) :
    Cert.Spec.selfOutT x (transpose S128x128 [1, 0] W1 transposes_S128x128_S128x128_1_0) (shapeCast S1x128 b1 shapeCasts_S128_S1x128)
        (transpose S128x128 [1, 0] W2 transposes_S128x128_S128x128_1_0) (shapeCast S1x128 b2 shapeCasts_S128_S1x128) p q
      = Cert.Spec.selfOut x W1 b1 W2 b2 p q := by
  unfold Cert.Spec.selfOutT Cert.Spec.selfOut
  rw [shapeCast_a_1a_apply]
  refine congrArg (· + b2 (ix1 q)) (Finset.sum_congr rfl fun k _ => ?_)
  rw [transpose_ix2_apply, shapeCast_a_1a_apply]
  refine congrArg (fun s => max (s + b1 (ix1 k)) 0 * W2 (ix2 q k)) (Finset.sum_congr rfl fun l _ => ?_)
  rw [transpose_ix2_apply]

/-! ## What the host stretch leaves -/

variable (m : (ℓ : Loc nD τ sig) → Buf (Elt Ideal) ℓ)

theorem W1_arg0 (c : Dev nD) : (W1 m c main_arg0 : S10000x10000.Idx → Elt Ideal .f32) = m ((c : Thread nD τ).loc main_arg0) := by
  unfold W1; dsimp only [hostOps0]; after_results
theorem W1_arg1 (c : Dev nD) : (W1 m c main_arg1 : S10000x128.Idx → Elt Ideal .f32) = m ((c : Thread nD τ).loc main_arg1) := by
  unfold W1; dsimp only [hostOps0]; after_results
theorem W1_arg2 (c : Dev nD) : (W1 m c main_arg2 : S128x128.Idx → Elt Ideal .f32) = m ((c : Thread nD τ).loc main_arg2) := by
  unfold W1; dsimp only [hostOps0]; after_results
theorem W1_arg3 (c : Dev nD) : (W1 m c main_arg3 : S128x128.Idx → Elt Ideal .f32) = m ((c : Thread nD τ).loc main_arg3) := by
  unfold W1; dsimp only [hostOps0]; after_results
/-- The first bias as a 1x128 row. -/
theorem W1_v0 (c : Dev nD) : (W1 m c main_v0 : S1x128.Idx → Elt Ideal .f32)
    = shapeCast S1x128 (m ((c : Thread nD τ).loc main_arg5) : S128.Idx → Elt Ideal .f32) shapeCasts_S128_S1x128 := by
  unfold W1; dsimp only [hostOps0]; after_results; rfl
/-- The second bias as a 1x128 row. -/
theorem W1_v1 (c : Dev nD) : (W1 m c main_v1 : S1x128.Idx → Elt Ideal .f32)
    = shapeCast S1x128 (m ((c : Thread nD τ).loc main_arg7) : S128.Idx → Elt Ideal .f32) shapeCasts_S128_S1x128 := by
  unfold W1; dsimp only [hostOps0]; after_results; rfl
/-- The first linear weight transposed. -/
theorem W1_v2 (c : Dev nD) : (W1 m c main_v2 : S128x128.Idx → Elt Ideal .f32)
    = transpose S128x128 [1, 0] (m ((c : Thread nD τ).loc main_arg4) : S128x128.Idx → Elt Ideal .f32) transposes_S128x128_S128x128_1_0 := by
  unfold W1; dsimp only [hostOps0]; after_results
/-- The second linear weight transposed. -/
theorem W1_v3 (c : Dev nD) : (W1 m c main_v3 : S128x128.Idx → Elt Ideal .f32)
    = transpose S128x128 [1, 0] (m ((c : Thread nD τ).loc main_arg6) : S128x128.Idx → Elt Ideal .f32) transposes_S128x128_S128x128_1_0 := by
  unfold W1; dsimp only [hostOps0]; after_results

/-! ## Pass 1's two arrays, of the launch contents -/

/-- The first convolution's array. -/
theorem first_conv (c : Dev nD) (p : Fin 10000) (q : Fin 128) :
    (W2 m c main_v4_0 : S10000x128.Idx → Elt Ideal .f32) (ix2 p q)
      = Cert.Spec.conv1 (m ((c : Thread nD τ).loc main_arg0)) (m ((c : Thread nD τ).loc main_arg1)) (m ((c : Thread nD τ).loc main_arg2)) p q := by
  rw [W2_v4_0]
  refine (arr0_8 (VW1 m) c (ix2 p q)).trans ?_
  show Cert.Spec.conv1 (W1 m c main_arg0) (W1 m c main_arg1) (W1 m c main_arg2) p q = _
  rw [W1_arg0, W1_arg1, W1_arg2]

/-- The self branch's array. -/
theorem self_branch (c : Dev nD) (p : Fin 10000) (q : Fin 128) :
    (W2 m c main_v4_1 : S10000x128.Idx → Elt Ideal .f32) (ix2 p q)
      = Cert.Spec.selfOut (m ((c : Thread nD τ).loc main_arg1)) (m ((c : Thread nD τ).loc main_arg4)) (m ((c : Thread nD τ).loc main_arg5))
          (m ((c : Thread nD τ).loc main_arg6)) (m ((c : Thread nD τ).loc main_arg7)) p q := by
  rw [W2_v4_1]
  refine (arr0_9 (VW1 m) c (ix2 p q)).trans ?_
  show Cert.Spec.selfOutT (W1 m c main_arg1) (W1 m c main_v2) (W1 m c main_v0) (W1 m c main_v3) (W1 m c main_v1) p q = _
  rw [W1_arg1, W1_v2, W1_v0, W1_v3, W1_v1]
  exact selfOutT_of_transposes _ _ _ _ _ p q

end Assembly

open Assembly

theorem kernel_value (m : (ℓ : Loc nD τ sig) → Buf (Elt Ideal) ℓ) (c : Dev nD) :
    W3 (F := Ideal) m c main_v5
      = Cert.Spec.layer (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) := by
  funext j
  rw [W3_v5]
  refine (arr1_5 (VW2 m) c j).trans ?_
  have hS : (fun (p : Fin 10000) (q : Fin 128) => VW2 m c main_v4_1 (ValueIdx.ix2 p q))
      = Cert.Spec.selfOut (m ((c : Thread nD τ).loc main_arg1)) (m ((c : Thread nD τ).loc main_arg4)) (m ((c : Thread nD τ).loc main_arg5))
          (m ((c : Thread nD τ).loc main_arg6)) (m ((c : Thread nD τ).loc main_arg7)) :=
    funext fun p => funext fun q => self_branch m c p q
  have hC : (fun (p : Fin 10000) (q : Fin 128) => VW2 m c main_v4_0 (ValueIdx.ix2 p q))
      = Cert.Spec.conv1 (m ((c : Thread nD τ).loc main_arg0)) (m ((c : Thread nD τ).loc main_arg1)) (m ((c : Thread nD τ).loc main_arg2)) :=
    funext fun p => funext fun q => first_conv m c p q
  have hA : (VW2 m c main_arg0 : S10000x10000.Idx → Elt Ideal .f32) = m ((c : Thread nD τ).loc main_arg0) :=
    (W2_of_ne m c main_arg0 (by decide) (by decide)).trans (W1_arg0 m c)
  have hW : (VW2 m c main_arg3 : S128x128.Idx → Elt Ideal .f32) = m ((c : Thread nD τ).loc main_arg3) :=
    (W2_of_ne m c main_arg3 (by decide) (by decide)).trans (W1_arg3 m c)
  rw [hS, hC, hA, hW]
  rfl

end Cert.KernelIdeal.Hand

end
-- ==== Proof.Ref.lean ====
/-
  The reference's result is the layer's specification of its arguments: its stages read at an index, one after another
  — two matrix products and a clip for the first convolution, two more products for the second, a product, a bias and a
  clip, a product and a bias for the self branch — and the last stage, which lays the three side by side, read by the
  column's range.
-/
import proofs.«119469_g5471788335182_cont_9to1c4b_211_2_alg».proof.Proof.Gen.ReferenceIdeal.Run
import proofs.«119469_g5471788335182_cont_9to1c4b_211_2_alg».proof.Proof.Gen.ReferenceIdeal.Read
import proofs.«119469_g5471788335182_cont_9to1c4b_211_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo
open Idealize.ShloMosaic.ValueIdx

/-! ## Indices -/

/-- A rank-2 index is the pair of its coordinates, given each coordinate's value. -/
theorem idx2_eq {n0 n1 : Nat} (f : (⟨2, ![n0, n1]⟩ : Shape).Idx) (a : Fin n0) (b : Fin n1)
    (h0 : (f 0).val = a.val) (h1 : (f 1).val = b.val) : f = ix2 a b :=
  funext fun d => Fin.ext (by
    match d with
    | ⟨0, _⟩ => exact h0
    | ⟨1, _⟩ => exact h1)

/-- A rank-1 index is its coordinate, given the coordinate's value. -/
theorem idx1_eq {n : Nat} (f : (⟨1, ![n]⟩ : Shape).Idx) (a : Fin n) (h0 : (f 0).val = a.val) : f = ix1 a :=
  funext fun d => Fin.ext (by
    match d with
    | ⟨0, _⟩ => exact h0)

/-! ## The first convolution: max((A . X) . W, 0) -/

/-- Entry (p, k) of A . X. -/
theorem ax_at (x0 : (⟨S10000x10000, .f32⟩ : BufTy).Contents (Elt Ideal)) (x1 : (⟨S10000x128, .f32⟩ : BufTy).Contents (Elt Ideal))
    (p : Fin 10000) (k : Fin 128) :
    val_main_v0 (F := Ideal) x0 x1 (ix2 p k) = ∑ l : Fin 10000, x0 (ix2 p l) * x1 (ix2 l k) := by
  rw [val_main_v0_apply]
  refine Finset.sum_congr rfl fun l _ => ?_
  rw [idx2_eq (lidx_main_v0 (ix2 p k) l) p l rfl rfl, idx2_eq (ridx_main_v0 (ix2 p k) l) l k rfl rfl]

/-- Entry (p, q) of (A . X) . W. -/
theorem axw_at (x0 : (⟨S10000x10000, .f32⟩ : BufTy).Contents (Elt Ideal)) (x1 : (⟨S10000x128, .f32⟩ : BufTy).Contents (Elt Ideal))
    (x2 : (⟨S128x128, .f32⟩ : BufTy).Contents (Elt Ideal)) (p : Fin 10000) (q : Fin 128) :
    val_main_v1 (F := Ideal) x0 x1 x2 (ix2 p q)
      = ∑ k : Fin 128, (∑ l : Fin 10000, x0 (ix2 p l) * x1 (ix2 l k)) * x2 (ix2 k q) := by
  rw [val_main_v1_apply]
  refine Finset.sum_congr rfl fun k _ => ?_
  rw [idx2_eq (lidx_main_v1 (ix2 p q) k) p k rfl rfl, idx2_eq (ridx_main_v1 (ix2 p q) k) k q rfl rfl, ax_at]

/-- The clipped product is the specification's first convolution. -/
theorem conv1_at (x0 : (⟨S10000x10000, .f32⟩ : BufTy).Contents (Elt Ideal)) (x1 : (⟨S10000x128, .f32⟩ : BufTy).Contents (Elt Ideal))
    (x2 : (⟨S128x128, .f32⟩ : BufTy).Contents (Elt Ideal)) (p : Fin 10000) (q : Fin 128) :
    val_main_v2 (F := Ideal) x0 x1 x2 (ix2 p q) = Cert.Spec.conv1 x0 x1 x2 p q := by
  rw [val_main_v2_apply, val_main_call0_v0_apply, val_main_call0_cst_apply, axw_at, Ideal.maximumf_def, Ideal.ofBits_def,
    Ideal.ofBits_zero_f32]
  rfl

/-! ## The second convolution: (A . conv1) . W' -/

/-- Entry (p, k) of A . conv1. -/
theorem ac_at (x0 : (⟨S10000x10000, .f32⟩ : BufTy).Contents (Elt Ideal)) (x1 : (⟨S10000x128, .f32⟩ : BufTy).Contents (Elt Ideal))
    (x2 : (⟨S128x128, .f32⟩ : BufTy).Contents (Elt Ideal)) (p : Fin 10000) (k : Fin 128) :
    val_main_v3 (F := Ideal) x0 x1 x2 (ix2 p k) = ∑ l : Fin 10000, x0 (ix2 p l) * Cert.Spec.conv1 x0 x1 x2 l k := by
  rw [val_main_v3_apply]
  refine Finset.sum_congr rfl fun l _ => ?_
  rw [idx2_eq (lidx_main_v3 (ix2 p k) l) p l rfl rfl, idx2_eq (ridx_main_v3 (ix2 p k) l) l k rfl rfl, conv1_at]

/-- The second product is the specification's second convolution of the first. -/
theorem conv2_at (x0 : (⟨S10000x10000, .f32⟩ : BufTy).Contents (Elt Ideal)) (x1 : (⟨S10000x128, .f32⟩ : BufTy).Contents (Elt Ideal))
    (x2 x3 : (⟨S128x128, .f32⟩ : BufTy).Contents (Elt Ideal)) (p : Fin 10000) (q : Fin 128) :
    val_main_v4 (F := Ideal) x0 x1 x2 x3 (ix2 p q) = Cert.Spec.conv2 x0 (Cert.Spec.conv1 x0 x1 x2) x3 p q := by
  rw [val_main_v4_apply]
  refine Finset.sum_congr rfl fun k _ => ?_
  rw [idx2_eq (lidx_main_v4 (ix2 p q) k) p k rfl rfl, idx2_eq (ridx_main_v4 (ix2 p q) k) k q rfl rfl, ac_at]

/-! ## The self branch: max(X . W1^T + b1, 0) . W2^T + b2 -/

/-- Entry (p, k) of the hidden layer max(X . W1^T + b1, 0). -/
theorem hidden_at (x1 : (⟨S10000x128, .f32⟩ : BufTy).Contents (Elt Ideal)) (x4 : (⟨S128x128, .f32⟩ : BufTy).Contents (Elt Ideal))
    (x5 : (⟨S128, .f32⟩ : BufTy).Contents (Elt Ideal)) (p : Fin 10000) (k : Fin 128) :
    val_main_v10 (F := Ideal) x1 x4 x5 (ix2 p k)
      = max ((∑ l : Fin 128, x1 (ix2 p l) * x4 (ix2 k l)) + x5 (ix1 k)) 0 := by
  rw [val_main_v10_apply, val_main_call1_v0_apply, val_main_call1_cst_apply, val_main_v9_apply, val_main_v6_apply,
    val_main_v8_apply, val_main_v7_apply, Ideal.maximumf_def, Ideal.addf_def, Ideal.ofBits_def, Ideal.ofBits_zero_f32,
    idx1_eq (idx_main_v7 (idx_main_v8 (ix2 p k))) k rfl]
  congr 2
  refine Finset.sum_congr rfl fun l _ => ?_
  rw [idx2_eq (lidx_main_v6 (ix2 p k) l) p l rfl rfl, idx2_eq (ridx_main_v6 (ix2 p k) l) l k rfl rfl, val_main_v5_apply,
    idx2_eq (idx_main_v5 (ix2 l k)) k l rfl rfl]

/-- The second linear map of the hidden layer is the specification's self branch. -/
theorem self_at (x1 : (⟨S10000x128, .f32⟩ : BufTy).Contents (Elt Ideal)) (x4 : (⟨S128x128, .f32⟩ : BufTy).Contents (Elt Ideal))
    (x5 : (⟨S128, .f32⟩ : BufTy).Contents (Elt Ideal)) (x6 : (⟨S128x128, .f32⟩ : BufTy).Contents (Elt Ideal))
    (x7 : (⟨S128, .f32⟩ : BufTy).Contents (Elt Ideal)) (p : Fin 10000) (q : Fin 128) :
    val_main_v15 (F := Ideal) x1 x4 x5 x6 x7 (ix2 p q) = Cert.Spec.selfOut x1 x4 x5 x6 x7 p q := by
  rw [val_main_v15_apply, val_main_v12_apply, val_main_v14_apply, val_main_v13_apply, Ideal.addf_def,
    idx1_eq (idx_main_v13 (idx_main_v14 (ix2 p q))) q rfl]
  unfold Cert.Spec.selfOut
  congr 1
  refine Finset.sum_congr rfl fun k _ => ?_
  rw [idx2_eq (lidx_main_v12 (ix2 p q) k) p k rfl rfl, idx2_eq (ridx_main_v12 (ix2 p q) k) k q rfl rfl, hidden_at,
    val_main_v11_apply, idx2_eq (idx_main_v11 (ix2 k q)) q k rfl rfl]

/-! ## The three side by side -/

/-- Three 10000x128 arrays joined along the columns, read at row p and column q: the first below column 128, the second
    below 256 at 128 columns less, the third from 256 on at 256 less. -/
theorem cat_at (y0 y1 y2 : S10000x128.Idx → EReal) (p : Fin 10000) (q : Fin 384) :
    concatenate S10000x384 1 [⟨S10000x128, y0⟩, ⟨S10000x128, y1⟩, ⟨S10000x128, y2⟩]
        concatenates_S10000x128_S10000x128_S10000x128_S10000x384_d1 (ix2 p q)
      = Cert.Spec.cat3 (fun a b => y0 (ix2 a b)) (fun a b => y1 (ix2 a b)) (fun a b => y2 (ix2 a b)) p q := by
  unfold Cert.Spec.cat3
  by_cases h : q.val < 128
  · rw [dif_pos h]
    exact concatenate_apply_piece 1 _ _ (ix2 p q) 0 (by show (0 : Nat) < 3; omega) S10000x128 y0 rfl rfl 0 rfl (ix2 p ⟨q.val, h⟩)
      (fun b hb => by
        match b with
        | ⟨0, _⟩ => rfl
        | ⟨1, _⟩ => exact absurd rfl hb)
      (by show 0 + q.val = q.val; omega)
  · rw [dif_neg h]
    by_cases h2 : q.val < 256
    · rw [dif_pos h2]
      exact concatenate_apply_piece 1 _ _ (ix2 p q) 1 (by show (1 : Nat) < 3; omega) S10000x128 y1 rfl rfl 128 rfl (ix2 p ⟨q.val - 128, by omega⟩)
        (fun b hb => by
          match b with
          | ⟨0, _⟩ => rfl
          | ⟨1, _⟩ => exact absurd rfl hb)
        (by show 128 + (q.val - 128) = q.val; omega)
    · rw [dif_neg h2]
      exact concatenate_apply_piece 1 _ _ (ix2 p q) 2 (by show (2 : Nat) < 3; omega) S10000x128 y2 rfl rfl 256 rfl
        (ix2 p ⟨q.val - 256, by have := q.isLt; omega⟩)
        (fun b hb => by
          match b with
          | ⟨0, _⟩ => rfl
          | ⟨1, _⟩ => exact absurd rfl hb)
        (by show 256 + (q.val - 256) = q.val; omega)

/-! ## The reference is the layer -/

theorem ref_value (x0 : (⟨S10000x10000, .f32⟩ : BufTy).Contents (Elt Ideal)) (x1 : (⟨S10000x128, .f32⟩ : BufTy).Contents (Elt Ideal))
    (x2 x3 x4 : (⟨S128x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal)) :
    val_main_v16 (F := Ideal) x0 x1 x2 x3 x4 x5 x6 x7 = Cert.Spec.layer x0 x1 x2 x3 x4 x5 x6 x7 := by
  funext j
  obtain ⟨p, q, rfl⟩ : ∃ (p : Fin 10000) (q : Fin 384), j = ValueIdx.ix2 p q := ⟨j 0, j 1, ValueIdx.eq_ix2 j⟩
  show val_main_v16 (F := Ideal) x0 x1 x2 x3 x4 x5 x6 x7 (ix2 p q) = Cert.Spec.layerAt x0 x1 x2 x3 x4 x5 x6 x7 p q
  unfold val_main_v16 Cert.Spec.layerAt
  rw [cat_at]
  congr 1
  · funext a b; exact self_at x1 x4 x5 x6 x7 a b
  · funext a b; exact conv1_at x0 x1 x2 a b
  · funext a b; exact conv2_at x0 x1 x2 x3 a b

end Cert.ReferenceIdeal.RefValue

end
-- ==== Proof.lean ====
/-
  A graph-convolution layer computed by two pipelined passes over 25 stripes of 400 rows, against its plain array
  reference, over the extended reals.

  The layer is  out = [ self | conv1 | conv2 ]  with  conv1 = max((A . X) . W, 0),  conv2 = (A . conv1) . W',
  self = max(X . W1^T + b1, 0) . W2^T + b2  (Spec.lean). Pass 1 writes conv1 and self stripe by stripe; pass 2 reads the
  whole of conv1 back, writes conv2's stripe beside the stripe's rows of self and conv1, and so fills the result. A
  stripe's rows of a matrix product are the products of the stripe's rows, a product over the whole contracted index is
  the same finite sum however it is tiled, and a change of float format is the identity here, so both programs compute
  the specification entry by entry; no law beyond that is used, and no input is assumed finite.

  The three frames: each kernel program runs through its host stretch and its two pipelines, every window's array taken
  out of the core's buffers on entry (the matrix two windows read split between them) and put back on exit, so that the
  arguments end as launched (K/Run.lean at the word level, KI/Run.lean at the extended reals); the reference's frame is
  its generated run. The idealization rewrote nothing, so there is nothing to preserve. The algebraic claim joins the
  kernel's run, whose result array is the specification (KI/Value.lean), and the reference's run, whose last stage is
  the specification (Ref.lean), at arguments that agree.
-/
import proofs.«119469_g5471788335182_cont_9to1c4b_211_2_alg».proof.Defs
import proofs.«119469_g5471788335182_cont_9to1c4b_211_2_alg».proof.Proof.Gen.Kernel
import proofs.«119469_g5471788335182_cont_9to1c4b_211_2_alg».proof.Proof.Gen.KernelIdeal
import proofs.«119469_g5471788335182_cont_9to1c4b_211_2_alg».proof.Proof.Gen.ReferenceIdeal
import proofs.«119469_g5471788335182_cont_9to1c4b_211_2_alg».proof.Proof.Gen.Pre_finite_inputs
import proofs.«119469_g5471788335182_cont_9to1c4b_211_2_alg».proof.Proof.Gen.ReferenceIdeal.Run
import proofs.«119469_g5471788335182_cont_9to1c4b_211_2_alg».proof.Proof.Gen.ReferenceIdeal.Read
import proofs.«119469_g5471788335182_cont_9to1c4b_211_2_alg».proof.Proof.K.Run
import proofs.«119469_g5471788335182_cont_9to1c4b_211_2_alg».proof.Proof.KI.Run
import proofs.«119469_g5471788335182_cont_9to1c4b_211_2_alg».proof.Proof.KI.Value
import proofs.«119469_g5471788335182_cont_9to1c4b_211_2_alg».proof.Proof.Ref
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end with the specification of their arguments in the result array, and the arguments agree. -/
theorem algebraic : Cert.algebraic_KernelIdeal_ReferenceIdeal := by
  intro m ρ m' ρ' _ hagree
  refine ⟨fun c => Cert.KernelIdeal.Hand.W3 (F := Ideal) m c Cert.KernelIdeal.main_v5, Cert.KernelIdeal.Hand.run_main m ρ, ?_⟩
  refine (θ_run Cert.ReferenceIdeal.defs _ _).mono (fun _ h c => ⟨(h c).1.trans ?_, (h c).2⟩)
    (Cert.ReferenceIdeal.Value.run (F := Ideal) m' ρ')
  show _ = Cert.KernelIdeal.Hand.W3 (F := Ideal) m c Cert.KernelIdeal.main_v5
  rw [Cert.ReferenceIdeal.Read.val_main_v16_eq, Cert.ReferenceIdeal.RefValue.ref_value, Cert.KernelIdeal.Hand.kernel_value m c,
    (hagree c).1, (hagree c).2.1, (hagree c).2.2.1, (hagree c).2.2.2.1, (hagree c).2.2.2.2.1, (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
